-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3x128 : Shape := ⟨3, ![20000, 3, 128]⟩
abbrev S2x320000 : Shape := ⟨2, ![2, 320000]⟩
abbrev S320000 : Shape := ⟨1, ![320000]⟩
abbrev S320000x3 : Shape := ⟨2, ![320000, 3]⟩
abbrev S320000x20 : Shape := ⟨2, ![320000, 20]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S256x128 : Shape := ⟨2, ![256, 128]⟩
abbrev S_ : Shape := ⟨0, ![]⟩
abbrev S1x320000 : Shape := ⟨2, ![1, 320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S320000 : S_.BroadcastsInDim S320000 (![] : Fin 0 → Fin S320000.rank)
  reducesTo_S320000_S_d0 : S320000.ReducesTo [0] S_
  bcast_S_S320000x3 : S_.BroadcastsInDim S320000x3 (![] : Fin 0 → Fin S320000x3.rank)
  reducesTo_S320000x3_S_d0_1 : S320000x3.ReducesTo [0, 1] S_
  bcast_S_S320000x20 : S_.BroadcastsInDim S320000x20 (![] : Fin 0 → Fin S320000x20.rank)
  reducesTo_S320000x20_S_d0_1 : S320000x20.ReducesTo [0, 1] S_
  bcast_S_S20x384 : S_.BroadcastsInDim S20x384 (![] : Fin 0 → Fin S20x384.rank)
  reducesTo_S20x384_S_d0_1 : S20x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  slices_S2x320000_S1x320000_1_0 : S2x320000.Slices ![1, 0] S1x320000
  shapeCasts_S1x320000_S320000 : S1x320000.ShapeCasts S320000

variable [Facts]

def fn_part5 {F : FTy → Type} [FloatOps F] (main_v84 : IVec S_ 1) (main_v85 : IVec S1x320000 32) : IVec S_ 1 :=
  let main_v86 : IVec S320000 32 := shapeCast S320000 main_v85 shapeCasts_S1x320000_S320000
  let main_c_32 : IVec S_ 32 := constantI S_ 32 20000#32
  let main_v87 : IVec S320000 32 := broadcastInDim S320000 ![] bcast_S_S320000 main_c_32
  let main_v88 : IVec S320000 1 := cmpi .slt main_v86 main_v87
  let main_c_33 : IVec S_ 1 := constantI S_ 1 1#1
  let main_v89 : IVec S_ 1 := (fun x v => Host.reduce IntOp.andi x v reducesTo_S320000_S_d0 h_S_) main_v88 main_c_33
  let main_v90 : IVec S_ 1 := andi main_v84 main_v89
  main_v90

def fn_part4 {F : FTy → Type} [FloatOps F] (main_arg2 : IVec S2x320000 32) (main_arg15 : FVec F S128x384 .f32) (main_arg16 : FVec F S384 .f32) (main_v63 : IVec S_ 1) (main_v67 : IVec S_ 1) : IVec S_ 1 :=
  let main_v68 : IVec S_ 1 := andi main_v63 main_v67
  let main_v69 : FVec F S128x384 .f32 := Host.absf main_arg15
  let main_cst_26 : FVec F S_ .f32 := constant S_ .f32 0x7F800000#32
  let main_v70 : FVec F S128x384 .f32 := broadcastInDim S128x384 ![] bcast_S_S128x384 main_cst_26
  let main_v71 : IVec S128x384 1 := cmpf .olt main_v69 main_v70
  let main_c_27 : IVec S_ 1 := constantI S_ 1 1#1
  let main_v72 : IVec S_ 1 := (fun x v => Host.reduce IntOp.andi x v reducesTo_S128x384_S_d0_1 h_S_) main_v71 main_c_27
  let main_v73 : IVec S_ 1 := andi main_v68 main_v72
  let main_v74 : FVec F S384 .f32 := Host.absf main_arg16
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : IVec S1x320000 32 := (extractStridedSlice S1x320000 ![1, 0] · slices_S2x320000_S1x320000_1_0) main_arg2
  let main_v80 : IVec S320000 32 := shapeCast S320000 main_v79 shapeCasts_S1x320000_S320000
  let main_c_30 : IVec S_ 32 := constantI S_ 32 0#32
  let main_v81 : IVec S320000 32 := broadcastInDim S320000 ![] bcast_S_S320000 main_c_30
  let main_v82 : IVec S320000 1 := cmpi .sge main_v80 main_v81
  let main_c_31 : IVec S_ 1 := constantI S_ 1 1#1
  let main_v83 : IVec S_ 1 := (fun x v => Host.reduce IntOp.andi x v reducesTo_S320000_S_d0 h_S_) main_v82 main_c_31
  let main_v84 : IVec S_ 1 := andi main_v78 main_v83
  let main_v85 : IVec S1x320000 32 := (extractStridedSlice S1x320000 ![1, 0] · slices_S2x320000_S1x320000_1_0) main_arg2
  fn_part5 (F := F) main_v84 main_v85

def fn_part3 {F : FTy → Type} [FloatOps F] (main_arg2 : IVec S2x320000 32) (main_arg12 : FVec F S128x256 .f32) (main_arg13 : FVec F S256x128 .f32) (main_arg14 : FVec F S128 .f32) (main_arg15 : FVec F S128x384 .f32) (main_arg16 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_v63 main_v67

def fn_part2 {F : FTy → Type} [FloatOps F] (main_arg2 : IVec S2x320000 32) (main_arg8 : FVec F S128x128 .f32) (main_arg9 : FVec F S128 .f32) (main_arg10 : FVec F S128x384 .f32) (main_arg11 : FVec F S384 .f32) (main_arg12 : FVec F S128x256 .f32) (main_arg13 : FVec F S256x128 .f32) (main_arg14 : FVec F S128 .f32) (main_arg15 : FVec F S128x384 .f32) (main_arg16 : FVec F S384 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x384 .f32 := Host.absf main_arg10
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg2 main_arg12 main_arg13 main_arg14 main_arg15 main_arg16 main_v48 main_v49 main_v50

def fn_part1 {F : FTy → Type} [FloatOps F] (main_arg2 : IVec S2x320000 32) (main_arg5 : FVec F S320000x20 .f32) (main_arg6 : FVec F S20x384 .f32) (main_arg7 : FVec F S384 .f32) (main_arg8 : FVec F S128x128 .f32) (main_arg9 : FVec F S128 .f32) (main_arg10 : FVec F S128x384 .f32) (main_arg11 : FVec F S384 .f32) (main_arg12 : FVec F S128x256 .f32) (main_arg13 : FVec F S256x128 .f32) (main_arg14 : FVec F S128 .f32) (main_arg15 : FVec F S128x384 .f32) (main_arg16 : FVec F S384 .f32) (main_v13 : IVec S_ 1) (main_v16 : IVec S320000x3 1) : IVec S_ 1 :=
  let main_c_5 : IVec S_ 1 := constantI S_ 1 1#1
  let main_v17 : IVec S_ 1 := (fun x v => Host.reduce IntOp.andi x v reducesTo_S320000x3_S_d0_1 h_S_) main_v16 main_c_5
  let main_v18 : IVec S_ 1 := andi main_v13 main_v17
  let main_v19 : FVec F S320000x20 .f32 := Host.absf main_arg5
  let main_cst_6 : FVec F S_ .f32 := constant S_ .f32 0x7F800000#32
  let main_v20 : FVec F S320000x20 .f32 := broadcastInDim S320000x20 ![] bcast_S_S320000x20 main_cst_6
  let main_v21 : IVec S320000x20 1 := cmpf .olt main_v19 main_v20
  let main_c_7 : IVec S_ 1 := constantI S_ 1 1#1
  let main_v22 : IVec S_ 1 := (fun x v => Host.reduce IntOp.andi x v reducesTo_S320000x20_S_d0_1 h_S_) main_v21 main_c_7
  let main_v23 : IVec S_ 1 := andi main_v18 main_v22
  let main_v24 : FVec F S20x384 .f32 := Host.absf main_arg6
  let main_cst_8 : FVec F S_ .f32 := constant S_ .f32 0x7F800000#32
  let main_v25 : FVec F S20x384 .f32 := broadcastInDim S20x384 ![] bcast_S_S20x384 main_cst_8
  let main_v26 : IVec S20x384 1 := cmpf .olt main_v24 main_v25
  let main_c_9 : IVec S_ 1 := constantI S_ 1 1#1
  let main_v27 : IVec S_ 1 := (fun x v => Host.reduce IntOp.andi x v reducesTo_S20x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S20000x128 .f32) (main_arg1 : FVec F S20000x3x128 .f32) (main_arg2 : IVec S2x320000 32) (main_arg3 : FVec F S320000 .f32) (main_arg4 : FVec F S320000x3 .f32) (main_arg5 : FVec F S320000x20 .f32) (main_arg6 : FVec F S20x384 .f32) (main_arg7 : FVec F S384 .f32) (main_arg8 : FVec F S128x128 .f32) (main_arg9 : FVec F S128 .f32) (main_arg10 : FVec F S128x384 .f32) (main_arg11 : FVec F S384 .f32) (main_arg12 : FVec F S128x256 .f32) (main_arg13 : FVec F S256x128 .f32) (main_arg14 : FVec F S128 .f32) (main_arg15 : FVec F S128x384 .f32) (main_arg16 : FVec F S384 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S320000 .f32 := Host.absf main_arg3
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_v14 : FVec F S320000x3 .f32 := Host.absf main_arg4
  let main_cst_4 : FVec F S_ .f32 := constant S_ .f32 0x7F800000#32
  let main_v15 : FVec F S320000x3 .f32 := broadcastInDim S320000x3 ![] bcast_S_S320000x3 main_cst_4
  let main_v16 : IVec S320000x3 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S20000x128 : Shape := ⟨2, ![20000, 128]⟩
abbrev S20000x3x128 : Shape := ⟨3, ![20000, 3, 128]⟩
abbrev S2x320000 : Shape := ⟨2, ![2, 320000]⟩
abbrev S320000 : Shape := ⟨1, ![320000]⟩
abbrev S320000x3 : Shape := ⟨2, ![320000, 3]⟩
abbrev S320000x20 : Shape := ⟨2, ![320000, 20]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S256x128 : Shape := ⟨2, ![256, 128]⟩
abbrev S1x320000 : Shape := ⟨2, ![1, 320000]⟩
abbrev S1x128 : Shape := ⟨2, ![1, 128]⟩
abbrev S1x384 : Shape := ⟨2, ![1, 384]⟩
abbrev S20000x384 : Shape := ⟨2, ![20000, 384]⟩
abbrev S2000x128 : Shape := ⟨2, ![2000, 128]⟩
abbrev S2000x384 : Shape := ⟨2, ![2000, 384]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x384 : Shape := ⟨2, ![320000, 384]⟩
abbrev S320000x3x128 : Shape := ⟨3, ![320000, 3, 128]⟩
abbrev S320000x128 : Shape := ⟨2, ![320000, 128]⟩
abbrev S2000x20 : Shape := ⟨2, ![2000, 20]⟩
abbrev S2000x1 : Shape := ⟨2, ![2000, 1]⟩
abbrev S2000x3 : Shape := ⟨2, ![2000, 3]⟩
abbrev S2000x3x128 : Shape := ⟨3, ![2000, 3, 128]⟩
abbrev S2000x1x128 : Shape := ⟨3, ![2000, 1, 128]⟩
abbrev S1000x128 : Shape := ⟨2, ![1000, 128]⟩
abbrev S1000x3x128 : Shape := ⟨3, ![1000, 3, 128]⟩
abbrev S1000x1x128 : Shape := ⟨3, ![1000, 1, 128]⟩
abbrev S1000x256 : Shape := ⟨2, ![1000, 256]⟩
abbrev S1000x384 : Shape := ⟨2, ![1000, 384]⟩

abbrev nBuf : Space → Nat
  | .hbm => 86
  | .vmem => 41
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S2x320000, .i32⟩
  | .hbm, ⟨3, _⟩ => ⟨S320000, .f32⟩
  | .hbm, ⟨4, _⟩ => ⟨S320000x3, .f32⟩
  | .hbm, ⟨5, _⟩ => ⟨S320000x20, .f32⟩
  | .hbm, ⟨6, _⟩ => ⟨S20x384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S128x256, .f32⟩
  | .hbm, ⟨13, _⟩ => ⟨S256x128, .f32⟩
  | .hbm, ⟨14, _⟩ => ⟨S128, .f32⟩
  | .hbm, ⟨15, _⟩ => ⟨S128x384, .f32⟩
  | .hbm, ⟨16, _⟩ => ⟨S384, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S1x128, .f32⟩
  | .hbm, ⟨22, _⟩ => ⟨S1x384, .f32⟩
  | .hbm, ⟨23, _⟩ => ⟨S20000x384, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S1, .i32⟩
  | .hbm, ⟨33, _⟩ => ⟨S_, .i32⟩
  | .hbm, ⟨34, _⟩ => ⟨S320000x1, .i32⟩
  | .hbm, ⟨35, _⟩ => ⟨S320000x1, .i1⟩
  | .hbm, ⟨36, _⟩ => ⟨S1x1, .i32⟩
  | .hbm, ⟨37, _⟩ => ⟨S320000x1, .i32⟩
  | .hbm, ⟨38, _⟩ => ⟨S320000x1, .i1⟩
  | .hbm, ⟨39, _⟩ => ⟨S320000x1, .i1⟩
  | .hbm, ⟨40, _⟩ => ⟨S_, .i1⟩
  | .hbm, ⟨41, _⟩ => ⟨S320000, .i1⟩
  | .hbm, ⟨42, _⟩ => ⟨S320000x384, .f32⟩
  | .hbm, ⟨43, _⟩ => ⟨S320000x384, .i1⟩
  | .hbm, ⟨44, _⟩ => ⟨S_, .f32⟩
  | .hbm, ⟨45, _⟩ => ⟨S320000x384, .f32⟩
  | .hbm, ⟨46, _⟩ => ⟨S320000x384, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S1, .i32⟩
  | .hbm, ⟨56, _⟩ => ⟨S_, .i32⟩
  | .hbm, ⟨57, _⟩ => ⟨S320000x1, .i32⟩
  | .hbm, ⟨58, _⟩ => ⟨S320000x1, .i1⟩
  | .hbm, ⟨59, _⟩ => ⟨S1x1, .i32⟩
  | .hbm, ⟨60, _⟩ => ⟨S320000x1, .i32⟩
  | .hbm, ⟨61, _⟩ => ⟨S320000x1, .i1⟩
  | .hbm, ⟨62, _⟩ => ⟨S320000x1, .i1⟩
  | .hbm, ⟨63, _⟩ => ⟨S_, .i1⟩
  | .hbm, ⟨64, _⟩ => ⟨S320000, .i1⟩
  | .hbm, ⟨65, _⟩ => ⟨S320000x3x128, .f32⟩
  | .hbm, ⟨66, _⟩ => ⟨S320000x3x128, .i1⟩
  | .hbm, ⟨67, _⟩ => ⟨S_, .f32⟩
  | .hbm, ⟨68, _⟩ => ⟨S320000x3x128, .f32⟩
  | .hbm, ⟨69, _⟩ => ⟨S320000x3x128, .f32⟩
  | .hbm, ⟨70, _⟩ => ⟨S320000x1, .f32⟩
  | .hbm, ⟨71, _⟩ => ⟨S1x384, .f32⟩
  | .hbm, ⟨72, _⟩ => ⟨S320000x128, .f32⟩
  | .hbm, ⟨73, _⟩ => ⟨S320000x3x128, .f32⟩
  | .hbm, ⟨74, _⟩ => ⟨S_, .f32⟩
  | .hbm, ⟨75, _⟩ => ⟨S20000x128, .f32⟩
  | .hbm, ⟨76, _⟩ => ⟨S320000x1, .i32⟩
  | .hbm, ⟨77, _⟩ => ⟨S20000x128, .f32⟩
  | .hbm, ⟨78, _⟩ => ⟨S_, .f32⟩
  | .hbm, ⟨79, _⟩ => ⟨S20000x3x128, .f32⟩
  | .hbm, ⟨80, _⟩ => ⟨S320000x1, .i32⟩
  | .hbm, ⟨81, _⟩ => ⟨S20000x3x128, .f32⟩
  | .hbm, ⟨82, _⟩ => ⟨S1x128, .f32⟩
  | .hbm, ⟨83, _⟩ => ⟨S1x384, .f32⟩
  | .hbm, ⟨84, _⟩ => ⟨S20000x128, .f32⟩
  | .hbm, ⟨85, _⟩ => ⟨S20000x3x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S2000x384, .f32⟩
  | .local _ .vmem, ⟨7, _⟩ => ⟨S2000x384, .f32⟩
  | .local _ .vmem, ⟨8, _⟩ => ⟨S2000x20, .f32⟩
  | .local _ .vmem, ⟨9, _⟩ => ⟨S2000x20, .f32⟩
  | .local _ .vmem, ⟨10, _⟩ => ⟨S2000x1, .f32⟩
  | .local _ .vmem, ⟨11, _⟩ => ⟨S2000x1, .f32⟩
  | .local _ .vmem, ⟨12, _⟩ => ⟨S2000x3, .f32⟩
  | .local _ .vmem, ⟨13, _⟩ => ⟨S2000x3, .f32⟩
  | .local _ .vmem, ⟨14, _⟩ => ⟨S2000x384, .f32⟩
  | .local _ .vmem, ⟨15, _⟩ => ⟨S2000x384, .f32⟩
  | .local _ .vmem, ⟨16, _⟩ => ⟨S2000x3x128, .f32⟩
  | .local _ .vmem, ⟨17, _⟩ => ⟨S2000x3x128, .f32⟩
  | .local _ .vmem, ⟨18, _⟩ => ⟨S20x384, .f32⟩
  | .local _ .vmem, ⟨19, _⟩ => ⟨S1x384, .f32⟩
  | .local _ .vmem, ⟨20, _⟩ => ⟨S2000x128, .f32⟩
  | .local _ .vmem, ⟨21, _⟩ => ⟨S2000x128, .f32⟩
  | .local _ .vmem, ⟨22, _⟩ => ⟨S2000x3x128, .f32⟩
  | .local _ .vmem, ⟨23, _⟩ => ⟨S2000x3x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x3x128, .f32⟩
  | .local _ .vmem, ⟨29, _⟩ => ⟨S1000x3x128, .f32⟩
  | .local _ .vmem, ⟨30, _⟩ => ⟨S1000x3x128, .f32⟩
  | .local _ .vmem, ⟨31, _⟩ => ⟨S1000x3x128, .f32⟩
  | .local _ .vmem, ⟨32, _⟩ => ⟨S128x256, .f32⟩
  | .local _ .vmem, ⟨33, _⟩ => ⟨S256x128, .f32⟩
  | .local _ .vmem, ⟨34, _⟩ => ⟨S1x128, .f32⟩
  | .local _ .vmem, ⟨35, _⟩ => ⟨S128x384, .f32⟩
  | .local _ .vmem, ⟨36, _⟩ => ⟨S1x384, .f32⟩
  | .local _ .vmem, ⟨37, _⟩ => ⟨S1000x128, .f32⟩
  | .local _ .vmem, ⟨38, _⟩ => ⟨S1000x128, .f32⟩
  | .local _ .vmem, ⟨39, _⟩ => ⟨S1000x3x128, .f32⟩
  | .local _ .vmem, ⟨40, _⟩ => ⟨S1000x3x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v7 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11_0 : Ref sig .tc := ⟨.hbm, 72, rfl⟩
abbrev main_v11_1 : Ref sig .tc := ⟨.hbm, 73, rfl⟩
abbrev main_cst : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_cst_0 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20_0 : Ref sig .tc := ⟨.hbm, 84, rfl⟩
abbrev main_v20_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc2_sem10_0 : DmaSem sig := 39
abbrev cc2_sem10_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x3x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S20x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x3x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x3x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x3x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x3x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S128_S1x128 : S128.ShapeCasts S1x128
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  bitsLt_bf16_f32 : FTy.bits .bf16 < FTy.bits .f32
  broadcasts_S1x128_S2000x128 : S1x128.Broadcasts S2000x128
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x384_0 : S320000.BroadcastsInDim S320000x384 (![0] : Fin 1 → Fin S320000x384.rank)
  bcast_S_S320000x384 : S_.BroadcastsInDim S320000x384 (![] : Fin 0 → Fin S320000x384.rank)
  bcast_S320000_S320000x3x128_0 : S320000.BroadcastsInDim S320000x3x128 (![0] : Fin 1 → Fin S320000x3x128.rank)
  bcast_S_S320000x3x128 : S_.BroadcastsInDim S320000x3x128 (![] : Fin 0 → Fin S320000x3x128.rank)
  shapeCasts_S320000_S320000x1 : S320000.ShapeCasts S320000x1
  inb_S2000x20_S2000x20_0_0 : ∀ a, (![0, 0] : Fin 2 → Nat) a + S2000x20.size a ≤ S2000x20.size a
  h_S2000x20 : 0 < S2000x20.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x3_S2000x3_0_0 : ∀ a, (![0, 0] : Fin 2 → Nat) a + S2000x3.size a ≤ S2000x3.size a
  h_S2000x3 : 0 < S2000x3.numel
  shapeCasts_S2000x384_S2000x384 : S2000x384.ShapeCasts S2000x384
  inb_S2000x3x128_S2000x3x128_0_0_0 : ∀ a, (![0, 0, 0] : Fin 3 → Nat) a + S2000x3x128.size a ≤ S2000x3x128.size a
  h_S2000x3x128 : 0 < S2000x3x128.numel
  shapeCasts_S2000x3x128_S2000x3x128 : S2000x3x128.ShapeCasts S2000x3x128
  inb_S20x384_S20x384_0_0 : ∀ a, (![0, 0] : Fin 2 → Nat) a + S20x384.size a ≤ S20x384.size a
  h_S20x384 : 0 < S20x384.numel
  natLt_1_32 : 1 < 32
  broadcasts_S2000x1_S2000x384 : S2000x1.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2000x3_o0_0_S2000x1 : S2000x3.Slices ![0, 0] S2000x1
  slices_S2000x3x128_o0_0_0_S2000x1x128 : S2000x3x128.Slices ![0, 0, 0] S2000x1x128
  shapeCasts_S2000x1x128_S2000x128 : S2000x1x128.ShapeCasts S2000x128
  broadcasts_S2000x1_S2000x128 : S2000x1.Broadcasts S2000x128
  inb_S2000x3x128_S2000x1x128_0_0_0 : ∀ a, (![0, 0, 0] : Fin 3 → Nat) a + S2000x1x128.size a ≤ S2000x3x128.size a
  h_S2000x1x128 : 0 < S2000x1x128.numel
  shapeCasts_S2000x128_S2000x1x128 : S2000x128.ShapeCasts S2000x1x128
  slices_S2000x3_o0_1_S2000x1 : S2000x3.Slices ![0, 1] S2000x1
  slices_S2000x3x128_o0_1_0_S2000x1x128 : S2000x3x128.Slices ![0, 1, 0] S2000x1x128
  inb_S2000x3x128_S2000x1x128_0_1_0 : ∀ a, (![0, 1, 0] : Fin 3 → Nat) a + S2000x1x128.size a ≤ S2000x3x128.size a
  slices_S2000x3_o0_2_S2000x1 : S2000x3.Slices ![0, 2] S2000x1
  slices_S2000x3x128_o0_2_0_S2000x1x128 : S2000x3x128.Slices ![0, 2, 0] S2000x1x128
  inb_S2000x3x128_S2000x1x128_0_2_0 : ∀ a, (![0, 2, 0] : Fin 3 → Nat) a + S2000x1x128.size a ≤ S2000x3x128.size a
  bcast_S_S20000x128 : S_.BroadcastsInDim S20000x128 (![] : Fin 0 → Fin S20000x128.rank)
  bcast_S_S20000x3x128 : S_.BroadcastsInDim S20000x3x128 (![] : Fin 0 → Fin S20000x3x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x3x128_S1000x3x128_0_0_0 : ∀ a, (![0, 0, 0] : Fin 3 → Nat) a + S1000x3x128.size a ≤ S1000x3x128.size a
  h_S1000x3x128 : 0 < S1000x3x128.numel
  shapeCasts_S1000x3x128_S1000x3x128 : S1000x3x128.ShapeCasts S1000x3x128
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  slices_S1000x3x128_o0_0_0_S1000x1x128 : S1000x3x128.Slices ![0, 0, 0] S1000x1x128
  shapeCasts_S1000x1x128_S1000x128 : S1000x1x128.ShapeCasts S1000x128
  slices_S1000x256_o0_0_S1000x128 : S1000x256.Slices ![0, 0] S1000x128
  slices_S1000x256_o0_128_S1000x128 : S1000x256.Slices ![0, 128] S1000x128
  slices_S1000x3x128_o0_1_0_S1000x1x128 : S1000x3x128.Slices ![0, 1, 0] S1000x1x128
  slices_S1000x3x128_o0_2_0_S1000x1x128 : S1000x3x128.Slices ![0, 2, 0] S1000x1x128
  concatenates_S1000x128_S1000x128_S1000x256_d1 : Shape.Concatenates [S1000x128, S1000x128] S1000x256 1
  broadcasts_S1x128_S1000x128 : S1x128.Broadcasts S1000x128
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S1000x3x128_S1000x1x128_0_0_0 : ∀ a, (![0, 0, 0] : Fin 3 → Nat) a + S1000x1x128.size a ≤ S1000x3x128.size a
  h_S1000x1x128 : 0 < S1000x1x128.numel
  shapeCasts_S1000x128_S1000x1x128 : S1000x128.ShapeCasts S1000x1x128
  inb_S1000x3x128_S1000x1x128_0_1_0 : ∀ a, (![0, 1, 0] : Fin 3 → Nat) a + S1000x1x128.size a ≤ S1000x3x128.size a
  inb_S1000x3x128_S1000x1x128_0_2_0 : ∀ a, (![0, 2, 0] : Fin 3 → Nat) a + S1000x1x128.size a ≤ S1000x3x128.size a
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  gather_S20000x384_S320000x1_S320000x384_1_0_n_n_0_1_1384_wf : GatherDims.WF S20000x384 S320000x1 S320000x384 [1] [0] [] [0] [] 1 ![1, 384]
  gather_S20000x3x128_S320000x1_S320000x3x128_12_0_n_n_0_1_13128_wf : GatherDims.WF S20000x3x128 S320000x1 S320000x3x128 [1, 2] [0] [] [0] [] 1 ![1, 3, 128]
  dot_S2000x20_S20x384_S2000x384_1_0_0_1_n_n_wf : DotDims.WF S2000x20 S20x384 S2000x384 [1] [0] [0] [1] [] []
  scatter_S20000x128_S320000x1_S320000x128_1_0_0_1_wf : ScatterDims.WF S20000x128 S320000x1 S320000x128 [1] [0] [0] 1
  scatter_S20000x3x128_S320000x1_S320000x3x128_12_0_0_1_wf : ScatterDims.WF S20000x3x128 S320000x1 S320000x3x128 [1, 2] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S20000x384.size a
  hwx0_5 : ∀ i : grid0.Coords, EltTy.bits .f32 = 32 ∨ (Rect.block (s := S20000x384) S2000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x20.size a ≤ S320000x20.size a
  hwx1_0 : ∀ i : grid1.Coords, EltTy.bits .f32 = 32 ∨ (Rect.block (s := S320000x20) S2000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S320000x1.size a
  hwx1_1 : ∀ i : grid1.Coords, EltTy.bits .f32 = 32 ∨ (Rect.block (s := S320000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S320000x3.size a
  hwx1_2 : ∀ i : grid1.Coords, EltTy.bits .f32 = 32 ∨ (Rect.block (s := S320000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x384.size a ≤ S320000x384.size a
  hwx1_3 : ∀ i : grid1.Coords, EltTy.bits .f32 = 32 ∨ (Rect.block (s := S320000x384) S2000x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3x128.size a ≤ S320000x3x128.size a
  hwx1_4 : ∀ i : grid1.Coords, EltTy.bits .f32 = 32 ∨ (Rect.block (s := S320000x3x128) S2000x3x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x384.size a ≤ S20x384.size a
  hwx1_5 : ∀ i : grid1.Coords, EltTy.bits .f32 = 32 ∨ (Rect.block (s := S20x384) S20x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S320000x128.size a
  hwx1_7 : ∀ i : grid1.Coords, EltTy.bits .f32 = 32 ∨ (Rect.block (s := S320000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x3x128.size a ≤ S320000x3x128.size a
  hwx1_8 : ∀ i : grid1.Coords, EltTy.bits .f32 = 32 ∨ (Rect.block (s := S320000x3x128) S2000x3x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S20000x128.size a
  hwx2_0 : ∀ i : grid2.Coords, EltTy.bits .f32 = 32 ∨ (Rect.block (s := S20000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S20000x128.size a
  hwx2_1 : ∀ i : grid2.Coords, EltTy.bits .f32 = 32 ∨ (Rect.block (s := S20000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x3x128.size a ≤ S20000x3x128.size a
  hwx2_2 : ∀ i : grid2.Coords, EltTy.bits .f32 = 32 ∨ (Rect.block (s := S20000x3x128) S1000x3x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x3x128.size a ≤ S20000x3x128.size a
  hwx2_3 : ∀ i : grid2.Coords, EltTy.bits .f32 = 32 ∨ (Rect.block (s := S20000x3x128) S1000x3x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x384.size a ≤ S128x384.size a
  hwx2_7 : ∀ i : grid2.Coords, EltTy.bits .f32 = 32 ∨ (Rect.block (s := S128x384) S128x384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x384.size a ≤ S1x384.size a
  hwx2_8 : ∀ i : grid2.Coords, EltTy.bits .f32 = 32 ∨ (Rect.block (s := S1x384) S1x384.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x128.size a ≤ S20000x128.size a
  hwx2_9 : ∀ i : grid2.Coords, EltTy.bits .f32 = 32 ∨ (Rect.block (s := S20000x128) S1000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x3x128.size a ≤ S20000x3x128.size a
  hwx2_10 : ∀ i : grid2.Coords, EltTy.bits .f32 = 32 ∨ (Rect.block (s := S20000x3x128) S1000x3x128.size (cc2_transform_10 i) (hinb2_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S20000x384_S320000x1_S320000x384_1_0_n_n_0_1_1384 : GatherDims S20000x384 S320000x1 S320000x384 where
  offsetDims := [1]
  collapsedSliceDims := [0]
  operandBatchingDims := []
  startIndicesBatchingDims := []
  startIndexMap := [0]
  indexVectorDim := 1
  sliceSizes := ![1, 384]
  wf := gather_S20000x384_S320000x1_S320000x384_1_0_n_n_0_1_1384_wf
def gather_S20000x3x128_S320000x1_S320000x3x128_12_0_n_n_0_1_13128 : GatherDims S20000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S20000x3x128_S320000x1_S320000x3x128_12_0_n_n_0_1_13128_wf
def dot_S2000x20_S20x384_S2000x384_1_0_0_1_n_n : DotDims S2000x20 S20x384 S2000x384 where
  lhsContracting := [1]
  rhsContracting := [0]
  lhsNonContracting := [0]
  rhsNonContracting := [1]
  lhsBatch := []
  rhsBatch := []
  wf := dot_S2000x20_S20x384_S2000x384_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg5) S2000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2000x3x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S20x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S2000x3x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1000x3x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1000x3x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128x384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S1x384.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v20_0) S1000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v20_1) S1000x3x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S20000x128 : Shape := ⟨2, ![20000, 128]⟩
abbrev S20000x3x128 : Shape := ⟨3, ![20000, 3, 128]⟩
abbrev S2x320000 : Shape := ⟨2, ![2, 320000]⟩
abbrev S320000 : Shape := ⟨1, ![320000]⟩
abbrev S320000x3 : Shape := ⟨2, ![320000, 3]⟩
abbrev S320000x20 : Shape := ⟨2, ![320000, 20]⟩
abbrev S20x384 : Shape := ⟨2, ![20, 384]⟩
abbrev S384 : Shape := ⟨1, ![384]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S256x128 : Shape := ⟨2, ![256, 128]⟩
abbrev S1x320000 : Shape := ⟨2, ![1, 320000]⟩
abbrev S_ : Shape := ⟨0, ![]⟩
abbrev S320000x384 : Shape := ⟨2, ![320000, 384]⟩
abbrev S1x384 : Shape := ⟨2, ![1, 384]⟩
abbrev S320000x1 : Shape := ⟨2, ![320000, 1]⟩
abbrev S1x128 : Shape := ⟨2, ![1, 128]⟩
abbrev S20000x384 : Shape := ⟨2, ![20000, 384]⟩
abbrev S320000x128 : Shape := ⟨2, ![320000, 128]⟩
abbrev S320000x3x128 : Shape := ⟨3, ![320000, 3, 128]⟩
abbrev S320000x1x128 : Shape := ⟨3, ![320000, 1, 128]⟩
abbrev S320000x3x1 : Shape := ⟨3, ![320000, 3, 1]⟩
abbrev S20000x3x256 : Shape := ⟨3, ![20000, 3, 256]⟩
abbrev S20000x256 : Shape := ⟨2, ![20000, 256]⟩
abbrev S20000x1x128 : Shape := ⟨3, ![20000, 1, 128]⟩

abbrev nBuf : Space → Nat
  | .hbm => 145
  | .vmem => 0
  | .smem => 0
  | _ => 0

abbrev hbmTy0_0 (i : Nat) : BufTy := match i % 128 with
  | 0 => ⟨S20000x128, .f32⟩
  | 1 => ⟨S20000x3x128, .f32⟩
  | 2 => ⟨S2x320000, .i32⟩
  | 3 => ⟨S320000, .f32⟩
  | 4 => ⟨S320000x3, .f32⟩
  | 5 => ⟨S320000x20, .f32⟩
  | 6 => ⟨S20x384, .f32⟩
  | 7 => ⟨S384, .f32⟩
  | 8 => ⟨S128x128, .f32⟩
  | 9 => ⟨S128, .f32⟩
  | 10 => ⟨S128x384, .f32⟩
  | 11 => ⟨S384, .f32⟩
  | 12 => ⟨S128x256, .f32⟩
  | 13 => ⟨S256x128, .f32⟩
  | 14 => ⟨S128, .f32⟩
  | 15 => ⟨S128x384, .f32⟩
  | 16 => ⟨S384, .f32⟩
  | 17 => ⟨S1x320000, .i32⟩
  | 18 => ⟨S320000, .i32⟩
  | 19 => ⟨S1x320000, .i32⟩
  | 20 => ⟨S320000, .i32⟩
  | 21 => ⟨S_, .f32⟩
  | 22 => ⟨S320000, .f32⟩
  | 23 => ⟨S320000, .f32⟩
  | 24 => ⟨S_, .f32⟩
  | 25 => ⟨S320000, .f32⟩
  | 26 => ⟨S320000, .f32⟩
  | 27 => ⟨S320000, .f32⟩
  | 28 => ⟨S_, .f32⟩
  | 29 => ⟨S320000, .f32⟩
  | 30 => ⟨S320000, .f32⟩
  | 31 => ⟨S_, .f32⟩
  | 32 => ⟨S320000, .f32⟩
  | 33 => ⟨S320000, .f32⟩
  | 34 => ⟨S_, .f32⟩
  | 35 => ⟨S320000, .f32⟩
  | 36 => ⟨S320000, .i1⟩
  | 37 => ⟨S320000, .f32⟩
  | 38 => ⟨S320000, .f32⟩
  | 39 => ⟨S320000x384, .f32⟩
  | 40 => ⟨S1x384, .f32⟩
  | 41 => ⟨S320000x384, .f32⟩
  | 42 => ⟨S320000x384, .f32⟩
  | 43 => ⟨S320000x1, .f32⟩
  | 44 => ⟨S320000x384, .f32⟩
  | 45 => ⟨S320000x384, .f32⟩
  | 46 => ⟨S20000x128, .f32⟩
  | 47 => ⟨S1x128, .f32⟩
  | 48 => ⟨S20000x128, .f32⟩
  | 49 => ⟨S20000x128, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S_, .f32⟩
  | 56 => ⟨S20000x128, .f32⟩
  | 57 => ⟨S20000x128, .f32⟩
  | 58 => ⟨S20000x128, .f32⟩
  | 59 => ⟨S20000x384, .f32⟩
  | 60 => ⟨S1x384, .f32⟩
  | 61 => ⟨S20000x384, .f32⟩
  | 62 => ⟨S20000x384, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x384, .f32⟩
  | 72 => ⟨S320000x384, .f32⟩
  | 73 => ⟨S320000x128, .f32⟩
  | 74 => ⟨S320000x128, .f32⟩
  | 75 => ⟨S320000x128, .f32⟩
  | 76 => ⟨S_, .f32⟩
  | 77 => ⟨S20000x128, .f32⟩
  | 78 => ⟨S320000x1, .i32⟩
  | 79 => ⟨S20000x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x3x128, .f32⟩
  | 89 => ⟨S320000x1x128, .f32⟩
  | 90 => ⟨S320000x3x1, .f32⟩
  | 91 => ⟨S320000x3x128, .f32⟩
  | 92 => ⟨S320000x3x128, .f32⟩
  | 93 => ⟨S320000x3x128, .f32⟩
  | 94 => ⟨S320000x1x128, .f32⟩
  | 95 => ⟨S320000x3x128, .f32⟩
  | 96 => ⟨S320000x3x128, .f32⟩
  | 97 => ⟨S320000x3x128, .f32⟩
  | 98 => ⟨S_, .f32⟩
  | 99 => ⟨S20000x3x128, .f32⟩
  | 100 => ⟨S320000x1, .i32⟩
  | 101 => ⟨S20000x3x128, .f32⟩
  | 102 => ⟨S20000x128, .f32⟩
  | 103 => ⟨S20000x3x128, .f32⟩
  | 104 => ⟨S20000x3x256, .f32⟩
  | 105 => ⟨S20000x3x128, .f32⟩
  | 106 => ⟨S20000x3x128, .f32⟩
  | 107 => ⟨S20000x3x128, .f32⟩
  | 108 => ⟨S_, .f32⟩
  | 109 => ⟨S20000x128, .f32⟩
  | 110 => ⟨S_, .f32⟩
  | 111 => ⟨S20000x128, .f32⟩
  | 112 => ⟨S20000x128, .f32⟩
  | 113 => ⟨S20000x128, .f32⟩
  | 114 => ⟨S20000x256, .f32⟩
  | 115 => ⟨S20000x128, .f32⟩
  | 116 => ⟨S1x128, .f32⟩
  | 117 => ⟨S20000x128, .f32⟩
  | 118 => ⟨S20000x128, .f32⟩
  | 119 => ⟨S20000x128, .f32⟩
  | 120 => ⟨S20000x128, .f32⟩
  | 121 => ⟨S_, .f32⟩
  | 122 => ⟨S20000x128, .f32⟩
  | 123 => ⟨S20000x128, .f32⟩
  | 124 => ⟨S_, .f32⟩
  | 125 => ⟨S20000x128, .f32⟩
  | 126 => ⟨S20000x128, .f32⟩
  | 127 => ⟨S20000x128, .f32⟩
  | _ => ⟨S20000x128, .f32⟩

abbrev hbmTy0_1 (i : Nat) : BufTy := match i % 128 with
  | 0 => ⟨S20000x384, .f32⟩
  | 1 => ⟨S1x384, .f32⟩
  | 2 => ⟨S20000x384, .f32⟩
  | 3 => ⟨S20000x384, .f32⟩
  | 4 => ⟨S20000x128, .f32⟩
  | 5 => ⟨S20000x128, .f32⟩
  | 6 => ⟨S20000x128, .f32⟩
  | 7 => ⟨S20000x128, .f32⟩
  | 8 => ⟨S20000x3x128, .f32⟩
  | 9 => ⟨S_, .f32⟩
  | 10 => ⟨S20000x128, .f32⟩
  | 11 => ⟨S20000x128, .f32⟩
  | 12 => ⟨S20000x128, .f32⟩
  | 13 => ⟨S20000x1x128, .f32⟩
  | 14 => ⟨S20000x3x128, .f32⟩
  | 15 => ⟨S20000x3x128, .f32⟩
  | 16 => ⟨S20000x3x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c : Ref sig .tc := ⟨.hbm, 63, rfl⟩
abbrev main_v33 : Ref sig .tc := ⟨.hbm, 64, rfl⟩
abbrev main_v34 : Ref sig .tc := ⟨.hbm, 65, rfl⟩
abbrev main_c_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_6 : Ref sig .tc := ⟨.hbm, 80, rfl⟩
abbrev main_v47 : Ref sig .tc := ⟨.hbm, 81, rfl⟩
abbrev main_v48 : Ref sig .tc := ⟨.hbm, 82, rfl⟩
abbrev main_c_7 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_8 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_9 : Ref sig .tc := ⟨.hbm, 108, rfl⟩
abbrev main_v72 : Ref sig .tc := ⟨.hbm, 109, rfl⟩
abbrev main_cst_10 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_call1_v5 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_11 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S384_S1x384_1 : S384.BroadcastsInDim S1x384 (![1] : Fin 1 → Fin S1x384.rank)
  bcast_S1x384_S320000x384_0_1 : S1x384.BroadcastsInDim S320000x384 (![0, 1] : Fin 2 → Fin S320000x384.rank)
  bcast_S320000_S320000x1_0 : S320000.BroadcastsInDim S320000x1 (![0] : Fin 1 → Fin S320000x1.rank)
  bcast_S320000x1_S320000x384_0_1 : S320000x1.BroadcastsInDim S320000x384 (![0, 1] : Fin 2 → Fin S320000x384.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x384_S20000x384_0_1 : S1x384.BroadcastsInDim S20000x384 (![0, 1] : Fin 2 → Fin S20000x384.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S320000x128_S320000x1x128_0_2 : S320000x128.BroadcastsInDim S320000x1x128 (![0, 2] : Fin 2 → Fin S320000x1x128.rank)
  bcast_S320000x3_S320000x3x1_0_1 : S320000x3.BroadcastsInDim S320000x3x1 (![0, 1] : Fin 2 → Fin S320000x3x1.rank)
  bcast_S320000x1x128_S320000x3x128_0_1_2 : S320000x1x128.BroadcastsInDim S320000x3x128 (![0, 1, 2] : Fin 3 → Fin S320000x3x128.rank)
  bcast_S320000x3x1_S320000x3x128_0_1_2 : S320000x3x1.BroadcastsInDim S320000x3x128 (![0, 1, 2] : Fin 3 → Fin S320000x3x128.rank)
  bcast_S_S20000x3x128 : S_.BroadcastsInDim S20000x3x128 (![] : Fin 0 → Fin S20000x3x128.rank)
  slices_S20000x3x256_S20000x3x128_0_0_0 : S20000x3x256.Slices ![0, 0, 0] S20000x3x128
  slices_S20000x3x256_S20000x3x128_0_0_128 : S20000x3x256.Slices ![0, 0, 128] S20000x3x128
  reducesTo_S20000x3x128_S20000x128_d1 : S20000x3x128.ReducesTo [1] S20000x128
  h_S_ : 0 < S_.numel
  concatenates_S20000x128_S20000x128_S20000x256_d1 : Shape.Concatenates [S20000x128, S20000x128] S20000x256 1
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  bcast_S20000x128_S20000x1x128_0_2 : S20000x128.BroadcastsInDim S20000x1x128 (![0, 2] : Fin 2 → Fin S20000x1x128.rank)
  bcast_S20000x1x128_S20000x3x128_0_1_2 : S20000x1x128.BroadcastsInDim S20000x3x128 (![0, 1, 2] : Fin 3 → Fin S20000x3x128.rank)
  dot_S320000x20_S20x384_S320000x384_1_0_0_1_n_n_wf : DotDims.WF S320000x20 S20x384 S320000x384 [1] [0] [0] [1] [] []
  dot_S20000x128_S128x128_S20000x128_1_0_0_1_n_n_wf : DotDims.WF S20000x128 S128x128 S20000x128 [1] [0] [0] [1] [] []
  dot_S20000x128_S128x384_S20000x384_1_0_0_1_n_n_wf : DotDims.WF S20000x128 S128x384 S20000x384 [1] [0] [0] [1] [] []
  gather_S20000x384_S320000x1_S320000x384_1_0_n_n_0_1_1384_wf : GatherDims.WF S20000x384 S320000x1 S320000x384 [1] [0] [] [0] [] 1 ![1, 384]
  scatter_S20000x128_S320000x1_S320000x128_1_0_0_1_wf : ScatterDims.WF S20000x128 S320000x1 S320000x128 [1] [0] [0] 1
  gather_S20000x3x128_S320000x1_S320000x3x128_12_0_n_n_0_1_13128_wf : GatherDims.WF S20000x3x128 S320000x1 S320000x3x128 [1, 2] [0] [] [0] [] 1 ![1, 3, 128]
  scatter_S20000x3x128_S320000x1_S320000x3x128_12_0_0_1_wf : ScatterDims.WF S20000x3x128 S320000x1 S320000x3x128 [1, 2] [0] [0] 1
  dot_S20000x3x128_S128x256_S20000x3x256_2_0_01_1_n_n_wf : DotDims.WF S20000x3x128 S128x256 S20000x3x256 [2] [0] [0, 1] [1] [] []
  dot_S20000x256_S256x128_S20000x128_1_0_0_1_n_n_wf : DotDims.WF S20000x256 S256x128 S20000x128 [1] [0] [0] [1] [] []

variable [Facts₀]

def dot_S320000x20_S20x384_S320000x384_1_0_0_1_n_n : DotDims S320000x20 S20x384 S320000x384 where
  lhsContracting := [1]
  rhsContracting := [0]
  lhsNonContracting := [0]
  rhsNonContracting := [1]
  lhsBatch := []
  rhsBatch := []
  wf := dot_S320000x20_S20x384_S320000x384_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf
def gather_S20000x384_S320000x1_S320000x384_1_0_n_n_0_1_1384 : GatherDims S20000x384 S320000x1 S320000x384 where
  offsetDims := [1]
  collapsedSliceDims := [0]
  operandBatchingDims := []
  startIndicesBatchingDims := []
  startIndexMap := [0]
  indexVectorDim := 1
  sliceSizes := ![1, 384]
  wf := gather_S20000x384_S320000x1_S320000x384_1_0_n_n_0_1_1384_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S20000x3x128_S320000x1_S320000x3x128_12_0_n_n_0_1_13128 : GatherDims S20000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S20000x3x128_S320000x1_S320000x3x128_12_0_n_n_0_1_13128_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf
def dot_S20000x3x128_S128x256_S20000x3x256_2_0_01_1_n_n : DotDims S20000x3x128 S128x256 S20000x3x256 where
  lhsContracting := [2]
  rhsContracting := [0]
  lhsNonContracting := [0, 1]
  rhsNonContracting := [1]
  lhsBatch := []
  rhsBatch := []
  wf := dot_S20000x3x128_S128x256_S20000x3x256_2_0_01_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.Spec.lean ====
/-
  The mathematics of one PaiNN block, row by row, over the extended reals.

  Every array the two programs compute between the gathers and the segment sums is ROW-LOCAL: row `n` of the result
  depends on row `n` of each operand and on the weights only. So each stage is stated here for ONE row: the row's
  operands come in as functions of the remaining coordinates, the weights as functions of theirs.

  * the node context net: x = silu (q · W1 + b1) · W2 + b2                                       (`xRow`)
  * the edge filter, cut off by the cosine window: Wij = (ea · Wf + bf) · fcut w,
    fcut w = ½ (cos (π w / 5) + 1) · [w < 5], and the gated messages
    dq_e = (x_j ⊙ Wij)[0:128],  dmu_e[v] = (x_j ⊙ Wij)[128:256] · ev[v] + (x_j ⊙ Wij)[256:384] ⊙ mu_j[v]   (`dqeRow`, `dmueRow`)
  * the mixing: with q' = q + dq, mu' = mu + dmu, (V | W)[v] = mu'[v] · Wmix,
    y = silu ([q' | sqrt (Σ_v V[v]² + ε)] · Wm1 + bm1) · Wm2 + bm2,
    q_out = q' + y[0:128] + y[256:384] ⊙ Σ_v V[v] ⊙ W[v],   mu_out[v] = mu'[v] + y[128:256] ⊙ W[v]       (`qoutRow`, `muoutRow`)

  silu z = z · σ(z) with σ the logistic function. The float literals stay the binary words both programs carry.
-/
import Idealize.ShloMosaic.PureOps.Ideal
import Idealize.ShloMosaic.Lib.ValueIdx

noncomputable section

namespace Cert.Spec

open Idealize.ShloMosaic

abbrev R := EReal

/-- The literals: π, 5, 1, ½ and ε = 1e-8, each the value of its f32 word. -/
def cPi : R := Ideal.ofBits .f32 0x40490FDB#32
def c5 : R := Ideal.ofBits .f32 0x40A00000#32
def c1 : R := Ideal.ofBits .f32 0x3F800000#32
def cHalf : R := Ideal.ofBits .f32 0x3F000000#32
def cEps : R := Ideal.ofBits .f32 0x322BCC77#32

/-- silu z = z · σ(z). -/
def silu (z : R) : R := z * Ideal.logistic z

/-- Column `c` of the first, second and third 128-wide third of a 384-wide row. -/
def at0 (c : Fin 128) : Fin 384 := ⟨c.val, by omega⟩
def at1 (c : Fin 128) : Fin 384 := ⟨128 + c.val, by omega⟩
def at2 (c : Fin 128) : Fin 384 := ⟨256 + c.val, by omega⟩
/-- Column `c` of the lower and the upper half of a 256-wide row. -/
def lo (c : Fin 128) : Fin 256 := ⟨c.val, by omega⟩
def hi (c : Fin 128) : Fin 256 := ⟨128 + c.val, by omega⟩

/-! ## The node context net -/

/-- x[n, c] from row `n` of q: (Σ_j silu (Σ_k q[n,k] W1[k,j] + b1[j]) · W2[j,c]) + b2[c]. -/
def xRow (q : Fin 128 → R) (W1 : Fin 128 → Fin 128 → R) (b1 : Fin 128 → R) (W2 : Fin 128 → Fin 384 → R) (b2 : Fin 384 → R)
    (c : Fin 384) : R :=
  (∑ j : Fin 128, silu ((∑ k : Fin 128, q k * W1 k j) + b1 j) * W2 j c) + b2 c

/-! ## The edge messages -/

/-- [w < 5] as a number: 1 when the ordered comparison holds, else 0. -/
def ltInd (w : R) : R := (((Ideal.cmp .olt w c5).toNat : ℝ) : R)

/-- The cosine cutoff ½ (cos (π w / 5) + 1) · [w < 5]. -/
def fcut (w : R) : R := (cHalf * (Ideal.cos (Ideal.div (cPi * w) c5) + c1)) * ltInd w

/-- The filter Wij[e, c] from row `e` of the basis and the edge's length: (Σ_k ea[e,k] Wf[k,c] + bf[c]) · fcut w[e]. -/
def wij (ea : Fin 20 → R) (Wf : Fin 20 → Fin 384 → R) (bf : Fin 384 → R) (w : R) (c : Fin 384) : R :=
  ((∑ k : Fin 20, ea k * Wf k c) + bf c) * fcut w

/-- The gathered context times the filter. -/
def xjmod (xj : Fin 384 → R) (ea : Fin 20 → R) (Wf : Fin 20 → Fin 384 → R) (bf : Fin 384 → R) (w : R) (c : Fin 384) : R :=
  xj c * wij ea Wf bf w c

/-- dq_e[e, c]: the first third of the modulated context. -/
def dqeRow (xj : Fin 384 → R) (ea : Fin 20 → R) (Wf : Fin 20 → Fin 384 → R) (bf : Fin 384 → R) (w : R) (c : Fin 128) : R :=
  xjmod xj ea Wf bf w (at0 c)

/-- dmu_e[e, v, c]: the second third along the edge's direction plus the third third times the sender's vector. -/
def dmueRow (xj : Fin 384 → R) (ea : Fin 20 → R) (Wf : Fin 20 → Fin 384 → R) (bf : Fin 384 → R) (w : R)
    (ev : Fin 3 → R) (muj : Fin 3 → Fin 128 → R) (v : Fin 3) (c : Fin 128) : R :=
  xjmod xj ea Wf bf w (at1 c) * ev v + xjmod xj ea Wf bf w (at2 c) * muj v c

/-! ## The mixing -/

/-- (mu'[v] · Wmix)[d] for one node. -/
def mixRow (mun : Fin 3 → Fin 128 → R) (Wmix : Fin 128 → Fin 256 → R) (v : Fin 3) (d : Fin 256) : R :=
  ∑ k : Fin 128, mun v k * Wmix k d

/-- Σ_v V[v,c]² and Σ_v V[v,c] W[v,c]. -/
def sumVV (mun : Fin 3 → Fin 128 → R) (Wmix : Fin 128 → Fin 256 → R) (c : Fin 128) : R :=
  ∑ v : Fin 3, mixRow mun Wmix v (lo c) * mixRow mun Wmix v (lo c)
def sumVW (mun : Fin 3 → Fin 128 → R) (Wmix : Fin 128 → Fin 256 → R) (c : Fin 128) : R :=
  ∑ v : Fin 3, mixRow mun Wmix v (lo c) * mixRow mun Wmix v (hi c)

/-- The context [q' | sqrt (Σ_v V² + ε)] of one node. -/
def ctxRow (qn : Fin 128 → R) (mun : Fin 3 → Fin 128 → R) (Wmix : Fin 128 → Fin 256 → R) (d : Fin 256) : R :=
  if h : d.val < 128 then qn ⟨d.val, h⟩ else Ideal.sqrt (sumVV mun Wmix ⟨d.val - 128, by omega⟩ + cEps)

/-- y[n, c] = (Σ_j silu (Σ_d ctx[d] Wm1[d,j] + bm1[j]) · Wm2[j,c]) + bm2[c]. -/
def yRow (qn : Fin 128 → R) (mun : Fin 3 → Fin 128 → R) (Wmix : Fin 128 → Fin 256 → R) (Wm1 : Fin 256 → Fin 128 → R)
    (bm1 : Fin 128 → R) (Wm2 : Fin 128 → Fin 384 → R) (bm2 : Fin 384 → R) (c : Fin 384) : R :=
  (∑ j : Fin 128, silu ((∑ d : Fin 256, ctxRow qn mun Wmix d * Wm1 d j) + bm1 j) * Wm2 j c) + bm2 c

/-- q_out[n, c]. -/
def qoutRow (q dq : Fin 128 → R) (mu dmu : Fin 3 → Fin 128 → R) (Wmix : Fin 128 → Fin 256 → R) (Wm1 : Fin 256 → Fin 128 → R)
    (bm1 : Fin 128 → R) (Wm2 : Fin 128 → Fin 384 → R) (bm2 : Fin 384 → R) (c : Fin 128) : R :=
  ((q c + dq c) + yRow (fun k => q k + dq k) (fun v k => mu v k + dmu v k) Wmix Wm1 bm1 Wm2 bm2 (at0 c))
    + yRow (fun k => q k + dq k) (fun v k => mu v k + dmu v k) Wmix Wm1 bm1 Wm2 bm2 (at2 c)
      * sumVW (fun v k => mu v k + dmu v k) Wmix c

/-- mu_out[n, v, c]. -/
def muoutRow (q dq : Fin 128 → R) (mu dmu : Fin 3 → Fin 128 → R) (Wmix : Fin 128 → Fin 256 → R) (Wm1 : Fin 256 → Fin 128 → R)
    (bm1 : Fin 128 → R) (Wm2 : Fin 128 → Fin 384 → R) (bm2 : Fin 384 → R) (v : Fin 3) (c : Fin 128) : R :=
  (mu v c + dmu v c)
    + yRow (fun k => q k + dq k) (fun v k => mu v k + dmu v k) Wmix Wm1 bm1 Wm2 bm2 (at1 c)
      * mixRow (fun v k => mu v k + dmu v k) Wmix v (hi c)

end Cert.Spec

end
-- ==== Proof.Arr.lean ====
/-
  The PaiNN block as whole arrays: each stage of `Spec` laid over its array, the two gathers and the two segment sums
  kept as the host operations both programs apply (to be compared by congruence, never opened).
-/
import proofs.«417512_j54400055771905_1_alg».proof.Proof.Gen.KernelIdeal
import proofs.«417512_j54400055771905_1_alg».proof.Proof.Spec
import Idealize.ShloMosaic.Lib.ValueIdx

noncomputable section

namespace Cert.Arr

open Cert.KernelIdeal Cert.KernelIdeal.Gen Idealize.ShloMosaic Idealize.ShloMosaic.ValueIdx

/-- x over all nodes. -/
def xA (q : FVec Ideal S20000x128 .f32) (W1 : FVec Ideal S128x128 .f32) (b1 : FVec Ideal S128 .f32)
    (W2 : FVec Ideal S128x384 .f32) (b2 : FVec Ideal S384 .f32) : FVec Ideal S20000x384 .f32 :=
  fun i => Spec.xRow (fun k => q (ix2 (i 0) k)) (fun k j => W1 (ix2 k j)) (fun j => b1 (ix1 j)) (fun j c => W2 (ix2 j c))
    (fun c => b2 (ix1 c)) (i 1)

/-- The receivers (row 0) and the senders (row 1) of the edge list. -/
def idxi (e : IVec S2x320000 32) : IVec S320000 32 :=
  shapeCast S320000 (extractStridedSlice S1x320000 ![0, 0] e slices_S2x320000_S1x320000_0_0) shapeCasts_S1x320000_S320000
def idxj (e : IVec S2x320000 32) : IVec S320000 32 :=
  shapeCast S320000 (extractStridedSlice S1x320000 ![1, 0] e slices_S2x320000_S1x320000_1_0) shapeCasts_S1x320000_S320000

/-- An index vector with its negative entries wrapped by the table's 20000 rows, as a column of start indices. -/
def wrapCol (j : IVec S320000 32) : IVec S320000x1 32 :=
  broadcastInDim S320000x1 ![0] bcast_S320000_S320000x1_0
    (select (cmpi .slt j (broadcastInDim S320000 ![] bcast_S_S320000 (constantI S_ 32 0#32)))
      (addi j (broadcastInDim S320000 ![] bcast_S_S320000 (constantI S_ 32 20000#32))) j)

/-- Every sender index names a node: 0 ≤ idx_j[e] < 20000, signed. -/
def InRange (e : IVec S2x320000 32) : Prop :=
  ∀ i : S320000.Idx, IntOp.cmpi .sge (idxj e i) 0#32 = 1#1 ∧ IntOp.cmpi .slt (idxj e i) 20000#32 = 1#1

/-- The row mask a filled take computes beside its gather: 1 where the start index lies in [0, 19999]. -/
def inbMask (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The senders' context rows and vectors. -/
def xjA (x : FVec Ideal S20000x384 .f32) (e : IVec S2x320000 32) : FVec Ideal S320000x384 .f32 :=
  Host.gather gather_S20000x384_S320000x1_S320000x384_1_0_n_n_0_1_1384 x (wrapCol (idxj e))
def mujA (mu : FVec Ideal S20000x3x128 .f32) (e : IVec S2x320000 32) : FVec Ideal S320000x3x128 .f32 :=
  Host.gather gather_S20000x3x128_S320000x1_S320000x3x128_12_0_n_n_0_1_13128 mu (wrapCol (idxj e))

/-- dq_e and dmu_e over all edges. -/
def dqeA (xj : FVec Ideal S320000x384 .f32) (ea : FVec Ideal S320000x20 .f32) (w : FVec Ideal S320000 .f32)
    (Wf : FVec Ideal S20x384 .f32) (bf : FVec Ideal S384 .f32) : FVec Ideal S320000x128 .f32 :=
  fun i => Spec.dqeRow (fun c => xj (ix2 (i 0) c)) (fun k => ea (ix2 (i 0) k)) (fun k c => Wf (ix2 k c)) (fun c => bf (ix1 c))
    (w (ix1 (i 0))) (i 1)
def dmueA (xj : FVec Ideal S320000x384 .f32) (ea : FVec Ideal S320000x20 .f32) (w : FVec Ideal S320000 .f32)
    (Wf : FVec Ideal S20x384 .f32) (bf : FVec Ideal S384 .f32) (ev : FVec Ideal S320000x3 .f32)
    (muj : FVec Ideal S320000x3x128 .f32) : FVec Ideal S320000x3x128 .f32 :=
  fun i => Spec.dmueRow (fun c => xj (ix2 (i 0) c)) (fun k => ea (ix2 (i 0) k)) (fun k c => Wf (ix2 k c)) (fun c => bf (ix1 c))
    (w (ix1 (i 0))) (fun v => ev (ix2 (i 0) v)) (fun v c => muj (ix3 (i 0) v c)) (i 1) (i 2)

/-- The segment sums onto the receivers, from zero. -/
def dqA (e : IVec S2x320000 32) (dqe : FVec Ideal S320000x128 .f32) : FVec Ideal S20000x128 .f32 :=
  Host.scatterAdd scatter_S20000x128_S320000x1_S320000x128_1_0_0_1
    (broadcastInDim S20000x128 ![] bcast_S_S20000x128 (constant S_ .f32 0x00000000#32))
    (broadcastInDim S320000x1 ![0] bcast_S320000_S320000x1_0 (idxi e)) dqe
def dmuA (e : IVec S2x320000 32) (dmue : FVec Ideal S320000x3x128 .f32) : FVec Ideal S20000x3x128 .f32 :=
  Host.scatterAdd scatter_S20000x3x128_S320000x1_S320000x3x128_12_0_0_1
    (broadcastInDim S20000x3x128 ![] bcast_S_S20000x3x128 (constant S_ .f32 0x00000000#32))
    (broadcastInDim S320000x1 ![0] bcast_S320000_S320000x1_0 (idxi e)) dmue

/-- q_out and mu_out over all nodes. -/
def qoutA (q dq : FVec Ideal S20000x128 .f32) (mu dmu : FVec Ideal S20000x3x128 .f32) (Wmix : FVec Ideal S128x256 .f32)
    (Wm1 : FVec Ideal S256x128 .f32) (bm1 : FVec Ideal S128 .f32) (Wm2 : FVec Ideal S128x384 .f32) (bm2 : FVec Ideal S384 .f32) :
    FVec Ideal S20000x128 .f32 :=
  fun i => Spec.qoutRow (fun k => q (ix2 (i 0) k)) (fun k => dq (ix2 (i 0) k)) (fun v k => mu (ix3 (i 0) v k))
    (fun v k => dmu (ix3 (i 0) v k)) (fun k d => Wmix (ix2 k d)) (fun d j => Wm1 (ix2 d j)) (fun j => bm1 (ix1 j))
    (fun j c => Wm2 (ix2 j c)) (fun c => bm2 (ix1 c)) (i 1)
def muoutA (q dq : FVec Ideal S20000x128 .f32) (mu dmu : FVec Ideal S20000x3x128 .f32) (Wmix : FVec Ideal S128x256 .f32)
    (Wm1 : FVec Ideal S256x128 .f32) (bm1 : FVec Ideal S128 .f32) (Wm2 : FVec Ideal S128x384 .f32) (bm2 : FVec Ideal S384 .f32) :
    FVec Ideal S20000x3x128 .f32 :=
  fun i => Spec.muoutRow (fun k => q (ix2 (i 0) k)) (fun k => dq (ix2 (i 0) k)) (fun v k => mu (ix3 (i 0) v k))
    (fun v k => dmu (ix3 (i 0) v k)) (fun k d => Wmix (ix2 k d)) (fun d j => Wm1 (ix2 d j)) (fun j => bm1 (ix1 j))
    (fun j c => Wm2 (ix2 j c)) (fun c => bm2 (ix1 c)) (i 1) (i 2)

/-- The whole block: the two results as functions of the seventeen arguments. -/
def dqAll (a0 : FVec Ideal S20000x128 .f32) (a2 : IVec S2x320000 32) (a3 : FVec Ideal S320000 .f32) (a5 : FVec Ideal S320000x20 .f32)
    (a6 : FVec Ideal S20x384 .f32) (a7 : FVec Ideal S384 .f32) (a8 : FVec Ideal S128x128 .f32) (a9 : FVec Ideal S128 .f32)
    (a10 : FVec Ideal S128x384 .f32) (a11 : FVec Ideal S384 .f32) : FVec Ideal S20000x128 .f32 :=
  dqA a2 (dqeA (xjA (xA a0 a8 a9 a10 a11) a2) a5 a3 a6 a7)
def dmuAll (a0 : FVec Ideal S20000x128 .f32) (a1 : FVec Ideal S20000x3x128 .f32) (a2 : IVec S2x320000 32) (a3 : FVec Ideal S320000 .f32)
    (a4 : FVec Ideal S320000x3 .f32) (a5 : FVec Ideal S320000x20 .f32)
    (a6 : FVec Ideal S20x384 .f32) (a7 : FVec Ideal S384 .f32) (a8 : FVec Ideal S128x128 .f32) (a9 : FVec Ideal S128 .f32)
    (a10 : FVec Ideal S128x384 .f32) (a11 : FVec Ideal S384 .f32) : FVec Ideal S20000x3x128 .f32 :=
  dmuA a2 (dmueA (xjA (xA a0 a8 a9 a10 a11) a2) a5 a3 a6 a7 a4 (mujA a1 a2))

end Cert.Arr

end
-- ==== Proof.Out.lean ====
/-
  The block's two results as functions of its seventeen arguments: the mixing over the segment sums of the gated messages
  over the senders' context rows.
-/
import proofs.«417512_j54400055771905_1_alg».proof.Proof.Arr

noncomputable section

namespace Cert.Arr

open Cert.KernelIdeal Cert.KernelIdeal.Gen Idealize.ShloMosaic

def out0 (a0 : FVec Ideal S20000x128 .f32) (a1 : FVec Ideal S20000x3x128 .f32) (a2 : IVec S2x320000 32) (a3 : FVec Ideal S320000 .f32) (a4 : FVec Ideal S320000x3 .f32) (a5 : FVec Ideal S320000x20 .f32) (a6 : FVec Ideal S20x384 .f32) (a7 : FVec Ideal S384 .f32) (a8 : FVec Ideal S128x128 .f32) (a9 : FVec Ideal S128 .f32) (a10 : FVec Ideal S128x384 .f32) (a11 : FVec Ideal S384 .f32) (a12 : FVec Ideal S128x256 .f32) (a13 : FVec Ideal S256x128 .f32) (a14 : FVec Ideal S128 .f32) (a15 : FVec Ideal S128x384 .f32) (a16 : FVec Ideal S384 .f32) : FVec Ideal S20000x128 .f32 :=
  qoutA a0 (dqAll a0 a2 a3 a5 a6 a7 a8 a9 a10 a11) a1 (dmuAll a0 a1 a2 a3 a4 a5 a6 a7 a8 a9 a10 a11) a12 a13 a14 a15 a16
def out1 (a0 : FVec Ideal S20000x128 .f32) (a1 : FVec Ideal S20000x3x128 .f32) (a2 : IVec S2x320000 32) (a3 : FVec Ideal S320000 .f32) (a4 : FVec Ideal S320000x3 .f32) (a5 : FVec Ideal S320000x20 .f32) (a6 : FVec Ideal S20x384 .f32) (a7 : FVec Ideal S384 .f32) (a8 : FVec Ideal S128x128 .f32) (a9 : FVec Ideal S128 .f32) (a10 : FVec Ideal S128x384 .f32) (a11 : FVec Ideal S384 .f32) (a12 : FVec Ideal S128x256 .f32) (a13 : FVec Ideal S256x128 .f32) (a14 : FVec Ideal S128 .f32) (a15 : FVec Ideal S128x384 .f32) (a16 : FVec Ideal S384 .f32) : FVec Ideal S20000x3x128 .f32 :=
  muoutA a0 (dqAll a0 a2 a3 a5 a6 a7 a8 a9 a10 a11) a1 (dmuAll a0 a1 a2 a3 a4 a5 a6 a7 a8 a9 a10 a11) a12 a13 a14 a15 a16

end Cert.Arr

end
-- ==== Proof.BodyA.lean ====
/-
  Region A's body at an index: what one grid point stores into the x block, row by row.
-/
import proofs.«417512_j54400055771905_1_alg».proof.Proof.Gen.KernelIdeal.Frame
import proofs.«417512_j54400055771905_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyA

open Cert.KernelIdeal Cert.KernelIdeal.Gen Idealize.ShloMosaic Idealize.ShloMosaic.TcCoe Idealize.ShloMosaic.ValueIdx Idealize.SL.Sem

/-- The zero offsets of a rank-2 rectangle, as the constant function. -/
theorem hz : (![0, 0] : Fin 2 → Nat) = fun _ => 0 := funext fun a => match a with
  | ⟨0, _⟩ => rfl
  | ⟨1, _⟩ => rfl

/-! ## The two products: the operand indices, axis by axis -/

theorem lhs1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem lhs2_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs2_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs2_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs2_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-! ## The two products at an index -/

/-- Row p, column c of the first product is the sum over the contracted axis. -/
theorem mm1_apply (a : FVec Ideal S2000x128 .bf16) (b : FVec Ideal S128x128 .bf16) (p : Fin 2000) (c : Fin 128) :
    matmul dot_S2000x128_S128x128_S2000x128_1_0_0_1_n_n none a b (constant (F := Ideal) S2000x128 .f32 0x00000000#32) (ix2 p c)
      = ∑ k : Fin 128, a (ix2 p k) * b (ix2 k c) := by
  refine (Ideal.matmul_constant_zero_apply dot_S2000x128_S128x128_S2000x128_1_0_0_1_n_n none a b (ix2 p c)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S2000x128_S128x128_S2000x128_1_0_0_1_n_n.rhsIdx (ix2 p c) ((contrEquiv1 dot_S2000x128_S128x128_S2000x128_1_0_0_1_n_n 128 rfl rfl).symm k) = ix2 k c := funext fun a => Fin.ext (by
    match a with
    | ⟨0, _⟩ => exact (rhs1_0 _ _).trans hk
    | ⟨1, _⟩ => exact rhs1_1 _ _)
  rw [el, er]

/-- Row p, column c of the second product is the sum over the contracted axis. -/
theorem mm2_apply (a : FVec Ideal S2000x128 .bf16) (b : FVec Ideal S128x384 .bf16) (p : Fin 2000) (c : Fin 384) :
    matmul dot_S2000x128_S128x384_S2000x384_1_0_0_1_n_n none a b (constant (F := Ideal) S2000x384 .f32 0x00000000#32) (ix2 p c)
      = ∑ k : Fin 128, a (ix2 p k) * b (ix2 k c) := by
  refine (Ideal.matmul_constant_zero_apply dot_S2000x128_S128x384_S2000x384_1_0_0_1_n_n none a b (ix2 p c)).trans ?_
  rw [← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p c) ((contrEquiv1 dot_S2000x128_S128x384_S2000x384_1_0_0_1_n_n 128 rfl rfl).symm k) = ix2 p k := funext fun a => Fin.ext (by
    match a with
    | ⟨0, _⟩ => exact lhs2_0 _ _
    | ⟨1, _⟩ => exact (lhs2_1 _ _).trans hk)
  have er : dot_S2000x128_S128x384_S2000x384_1_0_0_1_n_n.rhsIdx (ix2 p c) ((contrEquiv1 dot_S2000x128_S128x384_S2000x384_1_0_0_1_n_n 128 rfl rfl).symm k) = ix2 k c := funext fun a => Fin.ext (by
    match a with
    | ⟨0, _⟩ => exact (rhs2_0 _ _).trans hk
    | ⟨1, _⟩ => exact rhs2_1 _ _)
  rw [el, er]

/-! ## The two biases: a one-row array broadcast down the rows -/

/-- The first bias at row p, column c is the one row's entry at c. -/
theorem bias1_apply (b : Vec Ideal S1x128 .f32) (h : S1x128.ShapeCasts S1x128) (h' : S1x128.Broadcasts S2000x128)
    (p : Fin 2000) (c : Fin 128) :
    broadcastTo S2000x128 (shapeCast S1x128 b h) h' (ix2 p c) = b (ix2 0 c) := by
  rw [shapeCast_self]
  exact broadcastTo_apply b h' (ix2 p c) (ix2 0 c) (fun a => match a with
    | ⟨0, _⟩ => by show 0 = if (1 : Nat) = 1 then 0 else p.val; rw [if_pos rfl]
    | ⟨1, _⟩ => by show c.val = if (128 : Nat) = 1 then 0 else c.val; rw [if_neg (by decide)])

/-- The second bias at row p, column c is the one row's entry at c. -/
theorem bias2_apply (b : Vec Ideal S1x384 .f32) (h : S1x384.ShapeCasts S1x384) (h' : S1x384.Broadcasts S2000x384)
    (p : Fin 2000) (c : Fin 384) :
    broadcastTo S2000x384 (shapeCast S1x384 b h) h' (ix2 p c) = b (ix2 0 c) := by
  rw [shapeCast_self]
  exact broadcastTo_apply b h' (ix2 p c) (ix2 0 c) (fun a => match a with
    | ⟨0, _⟩ => by show 0 = if (1 : Nat) = 1 then 0 else p.val; rw [if_pos rfl]
    | ⟨1, _⟩ => by show c.val = if (384 : Nat) = 1 then 0 else c.val; rw [if_neg (by decide)])

/-! ## The payload at an index -/

/-- The hidden row before the gate: the first product plus the first bias. -/
theorem hid_apply (x0 : Vec Ideal S2000x128 .f32) (x1 : Vec Ideal S128x128 .f32) (x2 : Vec Ideal S1x128 .f32)
    (h0 : FTy.bits .bf16 < FTy.bits .f32) (h : S1x128.ShapeCasts S1x128) (h' : S1x128.Broadcasts S2000x128)
    (p : Fin 2000) (j : Fin 128) :
    addf (matmul dot_S2000x128_S128x128_S2000x128_1_0_0_1_n_n none (truncf .bf16 x0 h0) (truncf .bf16 x1 h0) (constant (F := Ideal) S2000x128 .f32 0x00000000#32))
      (broadcastTo S2000x128 (shapeCast S1x128 x2 h) h') (ix2 p j)
      = (∑ k : Fin 128, x0 (ix2 p k) * x1 (ix2 k j)) + x2 (ix2 0 j) := by
  refine (addf_apply _ _ (ix2 p j)).trans ?_
  exact congrArg₂ (· + ·) (mm1_apply _ _ p j) (bias1_apply x2 _ _ p j)

/-- The stored value at row p, column c: the second product of the gated hidden row, plus the second bias. -/
theorem pay_apply (x0 : Vec Ideal S2000x128 .f32) (x1 : Vec Ideal S128x128 .f32) (x2 : Vec Ideal S1x128 .f32)
    (x3 : Vec Ideal S128x384 .f32) (x4 : Vec Ideal S1x384 .f32) (p : Fin 2000) (c : Fin 384) :
    k0_pay1 x0 x1 x2 x3 x4 (ix2 p c)
      = (∑ j : Fin 128, Spec.silu ((∑ k : Fin 128, x0 (ix2 p k) * x1 (ix2 k j)) + x2 (ix2 0 j)) * x3 (ix2 j c))
          + x4 (ix2 0 c) := by
  unfold k0_pay1
  refine (addf_apply _ _ (ix2 p c)).trans ?_
  refine congrArg₂ (· + ·) ?_ (bias2_apply x4 _ _ p c)
  refine (mm2_apply _ _ p c).trans ?_
  refine Finset.sum_congr rfl fun j _ => ?_
  refine congrArg₂ (· * ·) ?_ (truncf_apply x3 _ (ix2 j c))
  refine (truncf_apply (ψ := .bf16) (φ := .f32) _ _ (ix2 p j)).trans ?_
  refine (mulf_apply (φ := .f32) _ _ (ix2 p j)).trans ?_
  show _ * Ideal.logistic _ = _
  rw [hid_apply x0 x1 x2 _ _ _ p j]
  rfl

/-- Row `p`, column `c` of the block the body stores is the context net of row `p` of the q block. -/
theorem out_x (x0 : Vec Ideal S2000x128 .f32) (x1 : Vec Ideal S128x128 .f32) (x2 : Vec Ideal S1x128 .f32)
    (x3 : Vec Ideal S128x384 .f32) (x4 : Vec Ideal S1x384 .f32) (p : Fin 2000) (c : Fin 384) :
    out0_5 x0 x1 x2 x3 x4 (ix2 p c)
      = Spec.xRow (fun k => x0 (ix2 p k)) (fun k j => x1 (ix2 k j)) (fun j => x2 (ix2 0 j)) (fun j c' => x3 (ix2 j c'))
          (fun c' => x4 (ix2 0 c')) c := by
  unfold out0_5
  rw [View.canon_unit_zero hz]
  simp only [View.ld_unit_zero (S := S2000x128) hz, View.ld_unit_zero (S := S128x128) hz, View.ld_unit_zero (S := S1x128) hz,
    View.ld_unit_zero (S := S128x384) hz, View.ld_unit_zero (S := S1x384) hz]
  exact pay_apply x0 x1 x2 x3 x4 p c

end Cert.KernelIdeal.BodyA

end
-- ==== Proof.CoverA.lean ====
/-
  Region A, blocks to array: after the region, x[n, c] is the context net of row n of q as the region found it.
-/
import proofs.«417512_j54400055771905_1_alg».proof.Proof.Gen.KernelIdeal.Frame
import proofs.«417512_j54400055771905_1_alg».proof.Proof.Spec
import proofs.«417512_j54400055771905_1_alg».proof.Proof.BodyA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.CoverA

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arrays the region finds and the blocks a grid point reads, by their literal types -/

/-- q, the two weight matrices and the two bias rows, as the region finds them. -/
abbrev qarr (c : Dev nD) : Vec Ideal S20000x128 .f32 := V c main_arg0
abbrev w1arr (c : Dev nD) : Vec Ideal S128x128 .f32 := V c main_arg8
abbrev b1arr (c : Dev nD) : Vec Ideal S1x128 .f32 := V c main_v4
abbrev w2arr (c : Dev nD) : Vec Ideal S128x384 .f32 := V c main_arg10
abbrev b2arr (c : Dev nD) : Vec Ideal S1x384 .f32 := V c main_v5

/-- The blocks grid point `t` reads: 2000 rows of q, and the weights whole. -/
abbrev qblk (c : Dev nD) (t : Fin cfg0.N) : Vec Ideal S2000x128 .f32 := iblk0 V c 0 t
abbrev w1blk (c : Dev nD) (t : Fin cfg0.N) : Vec Ideal S128x128 .f32 := iblk0 V c 1 t
abbrev b1blk (c : Dev nD) (t : Fin cfg0.N) : Vec Ideal S1x128 .f32 := iblk0 V c 2 t
abbrev w2blk (c : Dev nD) (t : Fin cfg0.N) : Vec Ideal S128x384 .f32 := iblk0 V c 3 t
abbrev b2blk (c : Dev nD) (t : Fin cfg0.N) : Vec Ideal S1x384 .f32 := iblk0 V c 4 t

/-- The block index maps over the grid: the q and x windows sit at block row `t`, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s q block is row 2000 t + p of q. -/
theorem qblk_apply (c : Dev nD) (t : Fin cfg0.N) (p : Fin 2000) (k : Fin 128) (n : Fin 20000)
    (hn : n.val = 2000 * t.val + p.val) : qblk V c t (ix2 p k) = qarr V c (ix2 n k) := by
  obtain ⟨e0, e1, -⟩ := idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- Every point's block of a weight array is the array. -/
theorem w1blk_apply (c : Dev nD) (t : Fin cfg0.N) (a : Fin 128) (b : Fin 128) :
    w1blk V c t (ix2 a b) = w1arr V c (ix2 a b) := by
  obtain ⟨-, -, e0, e1, -⟩ := idx_facts t
  show V c main_arg8 (((cfg0.win 1).blk t).view.emb (ix2 a b)) = V c main_arg8 (ix2 a b)
  refine congrArg (V c main_arg8) (funext fun d => Fin.ext ?_)
  match d with
  | ⟨0, _⟩ => show win0_1.index t (0 : Fin 2) * 128 + 1 * a.val = a.val; omega
  | ⟨1, _⟩ => show win0_1.index t (1 : Fin 2) * 128 + 1 * b.val = b.val; omega

theorem b1blk_apply (c : Dev nD) (t : Fin cfg0.N) (a : Fin 1) (b : Fin 128) :
    b1blk V c t (ix2 a b) = b1arr V c (ix2 a b) := by
  obtain ⟨-, -, -, -, e0, e1, -⟩ := idx_facts t
  show V c main_v4 (((cfg0.win 2).blk t).view.emb (ix2 a b)) = V c main_v4 (ix2 a b)
  refine congrArg (V c main_v4) (funext fun d => Fin.ext ?_)
  match d with
  | ⟨0, _⟩ => show win0_2.index t (0 : Fin 2) * 1 + 1 * a.val = a.val; omega
  | ⟨1, _⟩ => show win0_2.index t (1 : Fin 2) * 128 + 1 * b.val = b.val; omega

theorem w2blk_apply (c : Dev nD) (t : Fin cfg0.N) (a : Fin 128) (b : Fin 384) :
    w2blk V c t (ix2 a b) = w2arr V c (ix2 a b) := by
  obtain ⟨-, -, -, -, -, -, e0, e1, -⟩ := idx_facts t
  show V c main_arg10 (((cfg0.win 3).blk t).view.emb (ix2 a b)) = V c main_arg10 (ix2 a b)
  refine congrArg (V c main_arg10) (funext fun d => Fin.ext ?_)
  match d with
  | ⟨0, _⟩ => show win0_3.index t (0 : Fin 2) * 128 + 1 * a.val = a.val; omega
  | ⟨1, _⟩ => show win0_3.index t (1 : Fin 2) * 384 + 1 * b.val = b.val; omega

theorem b2blk_apply (c : Dev nD) (t : Fin cfg0.N) (a : Fin 1) (b : Fin 384) :
    b2blk V c t (ix2 a b) = b2arr V c (ix2 a b) := by
  obtain ⟨-, -, -, -, -, -, -, -, e0, e1, -⟩ := idx_facts t
  show V c main_v5 (((cfg0.win 4).blk t).view.emb (ix2 a b)) = V c main_v5 (ix2 a b)
  refine congrArg (V c main_v5) (funext fun d => Fin.ext ?_)
  match d with
  | ⟨0, _⟩ => show win0_4.index t (0 : Fin 2) * 1 + 1 * a.val = a.val; omega
  | ⟨1, _⟩ => show win0_4.index t (1 : Fin 2) * 384 + 1 * b.val = b.val; omega

/-! ## The whole array -/

/-- What the x array ends holding: at (n, k) the context net of row `n` of q. -/
def G (c : Dev nD) : S20000x384.Idx → EReal := fun i =>
  Spec.xRow (fun k' => qarr V c (ix2 (i 0) k')) (fun a b => w1arr V c (ix2 a b)) (fun j => b1arr V c (ix2 0 j))
    (fun a b => w2arr V c (ix2 a b)) (fun j => b2arr V c (ix2 0 j)) (i 1)

/-- What point `t` stores at (p, k) of its x block is `G` at (2000 t + p, k). -/
theorem body_at (c : Dev nD) (t : Fin cfg0.N) (p : Fin 2000) (k : Fin 384) (n : Fin 20000)
    (hn : n.val = 2000 * t.val + p.val) :
    out0_5 (qblk V c t) (w1blk V c t) (b1blk V c t) (w2blk V c t) (b2blk V c t) (ix2 p k) = G V c (ix2 n k) := by
  refine (BodyA.out_x (qblk V c t) (w1blk V c t) (b1blk V c t) (w2blk V c t) (b2blk V c t) p k).trans ?_
  have e0 : (fun k' => qblk V c t (ix2 p k')) = fun k' => qarr V c (ix2 n k') :=
    funext fun k' => qblk_apply V c t p k' n hn
  have e1 : (fun a b => w1blk V c t (ix2 a b)) = fun a b => w1arr V c (ix2 a b) :=
    funext fun a => funext fun b => w1blk_apply V c t a b
  have e2 : (fun j => b1blk V c t (ix2 0 j)) = fun j => b1arr V c (ix2 0 j) :=
    funext fun j => b1blk_apply V c t 0 j
  have e3 : (fun a b => w2blk V c t (ix2 a b)) = fun a b => w2arr V c (ix2 a b) :=
    funext fun a => funext fun b => w2blk_apply V c t a b
  have e4 : (fun j => b2blk V c t (ix2 0 j)) = fun j => b2arr V c (ix2 0 j) :=
    funext fun j => b2blk_apply V c t 0 j
  rw [e0, e1, e2, e3, e4]
  rfl

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  obtain ⟨-, -, -, -, -, -, -, -, -, -, e0, e1⟩ := idx_facts t
  funext j
  have hN : cfg0.N = 10 := N_0
  have ht : t.val < 10 := hN ▸ t.isLt
  have hp : (j 0).val < 2000 := (j 0).isLt
  have hk : (j 1).val < 384 := (j 1).isLt
  have hn : 2000 * t.val + (j 0).val < 20000 := by omega
  have hx : (cfg0.win 5).xinj (grid0.coords t) j = ix2 (⟨(j 0).val, hp⟩ : Fin 2000) (⟨(j 1).val, hk⟩ : Fin 384) :=
    funext fun a => match a with | ⟨0, _⟩ => rfl | ⟨1, _⟩ => rfl
  have hi : ((cfg0.win 5).blk t).view.emb j
      = ix2 (⟨2000 * t.val + (j 0).val, hn⟩ : Fin 20000) (⟨(j 1).val, hk⟩ : Fin 384) := by
    funext a; apply Fin.ext
    match a with
    | ⟨0, _⟩ => show win0_5.index t (0 : Fin 2) * 2000 + 1 * (j 0).val = 2000 * t.val + (j 0).val; omega
    | ⟨1, _⟩ => show win0_5.index t (1 : Fin 2) * 384 + 1 * (j 1).val = (j 1).val; omega
  show out0_5 (qblk V c t) (w1blk V c t) (b1blk V c t) (w2blk V c t) (b2blk V c t) ((cfg0.win 5).xinj (grid0.coords t) j)
      = G V c (((cfg0.win 5).blk t).view.emb j)
  rw [hx, hi]
  exact body_at V c t ⟨(j 0).val, hp⟩ ⟨(j 1).val, hk⟩ ⟨2000 * t.val + (j 0).val, hn⟩ rfl

/-! ## The blocks tile the array -/

/-- An index of the array is in point `t`'s block iff each coordinate is in the block's range on its axis. -/
theorem mem_blk (t : Fin cfg0.N) (i : S20000x384.Idx) :
    i ∈ ((cfg0.win 5).blk t).view.set ↔ ∀ a : Fin 2, win0_5.index t a * S2000x384.size a ≤ (i a).val
      ∧ (i a).val < win0_5.index t a * S2000x384.size a + S2000x384.size a := by
  show i ∈ ((View.whole main_v6).slice (win0_5.rect t)).set ↔ _
  rw [View.set_slice_whole, Rect.mem_set_unit]
  exact Iff.rfl

/-- Row `r` lies in the block of point r / 2000, and every point writes its block back. -/
theorem cover (i : S20000x384.Idx) :
    ∃ t : Fin cfg0.N, (cfg0.win 5).flush t = true ∧ i ∈ ((cfg0.win 5).blk t).view.set := by
  have hN : cfg0.N = 10 := N_0
  have hi0 : (i 0).val < 20000 := (i 0).isLt
  have hi1 : (i 1).val < 384 := (i 1).isLt
  obtain ⟨t, htv⟩ : ∃ t : Fin cfg0.N, t.val = (i 0).val / 2000 := ⟨⟨(i 0).val / 2000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 384 ≤ (i 1).val ∧ (i 1).val < win0_5.index t (1 : Fin 2) * 384 + 384
    omega

/-- THE ARRAY after the region: `G` everywhere. -/
theorem final (c : Dev nD) : (dat0 V c).arrAt 5 cfg0.N = G V c :=
  (dat0 V c).arrAt_eq_of_cover 5 (G V c) (fun t _ => flushed_eq V c t) cover

/-- The x array after region A, at node `n`, column `k`: grid point n / 2000 wrote it, from rows of its q block. -/
theorem arr_x (c : Dev nD) (n : Fin 20000) (k : Fin 384) :
    ((dat0 V c).arrAt 5 cfg0.N : S20000x384.Idx → EReal) (ix2 n k)
      = Spec.xRow (fun k' => (V c main_arg0 : S20000x128.Idx → EReal) (ix2 n k')) (fun a b => (V c main_arg8 : S128x128.Idx → EReal) (ix2 a b))
          (fun j => (V c main_v4 : S1x128.Idx → EReal) (ix2 0 j)) (fun a b => (V c main_arg10 : S128x384.Idx → EReal) (ix2 a b))
          (fun j => (V c main_v5 : S1x384.Idx → EReal) (ix2 0 j)) k :=
  congrFun (final V c) (ix2 n k)

end Cert.KernelIdeal.CoverA

end
-- ==== Proof.BodyB.lean ====
/-
  Region B's body at an index: what one grid point stores into the dq_e and dmu_e blocks, row by row.
-/
import proofs.«417512_j54400055771905_1_alg».proof.Proof.Gen.KernelIdeal.Frame
import proofs.«417512_j54400055771905_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyB

open Cert.KernelIdeal Cert.KernelIdeal.Gen Idealize.ShloMosaic Idealize.ShloMosaic.TcCoe Idealize.ShloMosaic.ValueIdx Idealize.SL.Sem

/-! ## The indicator of a one-bit comparison -/

/-- A one-bit word widened to 32 bits and read as a signed integer is the bit itself. -/
theorem bit_toInt (b : BitVec 1) : (((b.setWidth 32).toInt : ℝ) : EReal) = ((b.toNat : ℝ) : EReal) := by
  rcases BitVec.eq_zero_or_eq_one b with h | h <;> subst h <;> norm_num

/-! ## The filter's contraction at an index -/

theorem lhs_ax0 (i : S2000x384.Idx) (q : dot_S2000x20_S20x384_S2000x384_1_0_0_1_n_n.contr.Idx) :
    (dot_S2000x20_S20x384_S2000x384_1_0_0_1_n_n.lhsIdx i q 0).val = (i 0).val := by
  unfold DotDims.lhsIdx
  rw [dif_neg (show ¬(0 : Fin S2000x20.rank) ∈ dot_S2000x20_S20x384_S2000x384_1_0_0_1_n_n.lhsBatch by decide), dif_pos (show (0 : Fin S2000x20.rank) ∈ dot_S2000x20_S20x384_S2000x384_1_0_0_1_n_n.lhsNonContracting by decide)]
  rfl
theorem lhs_ax1 (i : S2000x384.Idx) (q : dot_S2000x20_S20x384_S2000x384_1_0_0_1_n_n.contr.Idx) :
    (dot_S2000x20_S20x384_S2000x384_1_0_0_1_n_n.lhsIdx i q 1).val = (q ⟨0, by decide⟩).val :=
  dot_S2000x20_S20x384_S2000x384_1_0_0_1_n_n.lhsIdx_val_of_single rfl i q
theorem rhs_ax0 (i : S2000x384.Idx) (q : dot_S2000x20_S20x384_S2000x384_1_0_0_1_n_n.contr.Idx) :
    (dot_S2000x20_S20x384_S2000x384_1_0_0_1_n_n.rhsIdx i q 0).val = (q ⟨0, by decide⟩).val :=
  dot_S2000x20_S20x384_S2000x384_1_0_0_1_n_n.rhsIdx_val_of_single rfl i q
theorem rhs_ax1 (i : S2000x384.Idx) (q : dot_S2000x20_S20x384_S2000x384_1_0_0_1_n_n.contr.Idx) :
    (dot_S2000x20_S20x384_S2000x384_1_0_0_1_n_n.rhsIdx i q 1).val = (i 1).val := by
  unfold DotDims.rhsIdx
  rw [dif_neg (show ¬(1 : Fin S20x384.rank) ∈ dot_S2000x20_S20x384_S2000x384_1_0_0_1_n_n.rhsBatch by decide), dif_pos (show (1 : Fin S20x384.rank) ∈ dot_S2000x20_S20x384_S2000x384_1_0_0_1_n_n.rhsNonContracting by decide)]
  rfl

/-- The [2000,20] x [20,384] product into the zero accumulator, read at (p, c): the sum over the 20 basis functions. -/
theorem mm_apply (a : FVec Ideal S2000x20 .bf16) (b : FVec Ideal S20x384 .bf16) (p : Fin 2000) (c : Fin 384) :
    matmul dot_S2000x20_S20x384_S2000x384_1_0_0_1_n_n none a b (constant (F := Ideal) S2000x384 .f32 0x00000000#32) (ix2 p c)
      = ∑ k : Fin 20, a (ix2 p k) * b (ix2 k c) := by
  refine (Ideal.matmul_constant_zero_apply dot_S2000x20_S20x384_S2000x384_1_0_0_1_n_n none a b (ix2 p c)).trans ?_
  rw [← Equiv.sum_comp (contrEquiv1 dot_S2000x20_S20x384_S2000x384_1_0_0_1_n_n 20 rfl rfl).symm]
  refine Finset.sum_congr rfl fun k _ => ?_
  have hk := contrEquiv1_symm_val dot_S2000x20_S20x384_S2000x384_1_0_0_1_n_n 20 rfl rfl k
  have el : dot_S2000x20_S20x384_S2000x384_1_0_0_1_n_n.lhsIdx (ix2 p c) ((contrEquiv1 dot_S2000x20_S20x384_S2000x384_1_0_0_1_n_n 20 rfl rfl).symm k) = ix2 p k := funext fun ax => Fin.ext (by
    match ax with
    | ⟨0, _⟩ => exact lhs_ax0 _ _
    | ⟨1, _⟩ => exact (lhs_ax1 _ _).trans hk)
  have er : dot_S2000x20_S20x384_S2000x384_1_0_0_1_n_n.rhsIdx (ix2 p c) ((contrEquiv1 dot_S2000x20_S20x384_S2000x384_1_0_0_1_n_n 20 rfl rfl).symm k) = ix2 k c := funext fun ax => Fin.ext (by
    match ax with
    | ⟨0, _⟩ => exact (rhs_ax0 _ _).trans hk
    | ⟨1, _⟩ => exact rhs_ax1 _ _)
  rw [el, er]

/-! ## The column broadcast -/

/-- A [2000,1] column broadcast to [2000,384] reads, at (p, c), the column's row p. -/
theorem bcol_apply {α : Type} (x : S2000x1.Idx → α) (p : Fin 2000) (c : Fin 384) :
    broadcastTo S2000x384 x broadcasts_S2000x1_S2000x384 (ix2 p c) = x (ix2 p (0 : Fin 1)) := by
  refine broadcastTo_apply x broadcasts_S2000x1_S2000x384 (ix2 p c) (ix2 p (0 : Fin 1)) fun ax => ?_
  match ax with
  | ⟨0, _⟩ => show p.val = if (2000 : Nat) = 1 then 0 else p.val; rw [if_neg (by decide)]
  | ⟨1, _⟩ => rfl

/-- The same column broadcast to [2000,128]. -/
theorem bcol128_apply {α : Type} (x : S2000x1.Idx → α) (p : Fin 2000) (c : Fin 128) :
    broadcastTo S2000x128 x broadcasts_S2000x1_S2000x128 (ix2 p c) = x (ix2 p (0 : Fin 1)) := by
  refine broadcastTo_apply x broadcasts_S2000x1_S2000x128 (ix2 p c) (ix2 p (0 : Fin 1)) fun ax => ?_
  match ax with
  | ⟨0, _⟩ => show p.val = if (2000 : Nat) = 1 then 0 else p.val; rw [if_neg (by decide)]
  | ⟨1, _⟩ => rfl

/-! ## The cosine cutoff column -/

/-- The cutoff column of the body, as a function of the edge-length column. -/
def cutCol (w : FVec Ideal S2000x1 .f32) : FVec Ideal S2000x1 .f32 :=
  mulf (mulf (broadcast S2000x1 (Scalar.ofBits (F := Ideal) .f32 0x3F000000#32))
      (addf (cos (divf (mulf (broadcast S2000x1 (Scalar.ofBits (F := Ideal) .f32 0x40490FDB#32)) w) (broadcast S2000x1 (Scalar.ofBits (F := Ideal) .f32 0x40A00000#32))))
        (broadcast S2000x1 (Scalar.ofBits (F := Ideal) .f32 0x3F800000#32))))
    (sitofp .f32 (extui 32 (cmpf .olt w (broadcast S2000x1 (Scalar.ofBits (F := Ideal) .f32 0x40A00000#32))) natLt_1_32))

/-- Row p of the cutoff column is the cutoff of the row's length. -/
theorem cutCol_apply (w : FVec Ideal S2000x1 .f32) (i : S2000x1.Idx) : cutCol w i = Spec.fcut (w i) := by
  show (Spec.cHalf * (Ideal.cos (Ideal.div (Spec.cPi * w i) Spec.c5) + Spec.c1))
      * ((((Ideal.cmp .olt (w i) Spec.c5).setWidth 32).toInt : ℝ) : EReal) = _
  rw [bit_toInt]
  rfl

/-! ## The modulated context at an index -/

/-- The body's modulated context with its cutoff column named. -/
theorem pay5_eq (v0 : Vec Ideal S2000x20 .f32) (v1 : Vec Ideal S2000x1 .f32) (v4 : Vec Ideal S2000x384 .f32)
    (v8 : Vec Ideal S20x384 .f32) (v9 : Vec Ideal S1x384 .f32) :
    k1_pay5 v0 v1 v4 v8 v9
      = mulf v4 (mulf (addf (matmul dot_S2000x20_S20x384_S2000x384_1_0_0_1_n_n none (truncf .bf16 v0 bitsLt_bf16_f32)
            (truncf .bf16 v8 bitsLt_bf16_f32) (constant (F := Ideal) S2000x384 .f32 0x00000000#32))
          (broadcastTo S2000x384 v9 broadcasts_S1x384_S2000x384))
        (broadcastTo S2000x384 (cutCol v1) broadcasts_S2000x1_S2000x384)) := by
  unfold k1_pay5 cutCol
  simp only [shapeCast_self]

/-- Row p, column c of the modulated context: the gathered context times the filter. -/
theorem pay5_apply (v0 : Vec Ideal S2000x20 .f32) (v1 : Vec Ideal S2000x1 .f32) (v4 : Vec Ideal S2000x384 .f32)
    (v8 : Vec Ideal S20x384 .f32) (v9 : Vec Ideal S1x384 .f32) (p : Fin 2000) (c : Fin 384) :
    k1_pay5 v0 v1 v4 v8 v9 (ix2 p c)
      = Spec.xjmod (fun c' => v4 (ix2 p c')) (fun k => v0 (ix2 p k)) (fun k c' => v8 (ix2 k c')) (fun c' => v9 (ix2 0 c'))
          (v1 (ix2 p 0)) c := by
  rw [pay5_eq]
  rw [mulf_apply, mulf_apply, addf_apply, mm_apply, broadcastTo_1b_ab_apply, bcol_apply, cutCol_apply]
  rfl

/-- The three 128-wide thirds of the modulated context. -/
theorem pay6_apply (v0 : Vec Ideal S2000x20 .f32) (v1 : Vec Ideal S2000x1 .f32) (v4 : Vec Ideal S2000x384 .f32)
    (v8 : Vec Ideal S20x384 .f32) (v9 : Vec Ideal S1x384 .f32) (p : Fin 2000) (c : Fin 128) :
    k1_pay6 v0 v1 v4 v8 v9 (ix2 p c)
      = Spec.xjmod (fun c' => v4 (ix2 p c')) (fun k => v0 (ix2 p k)) (fun k c' => v8 (ix2 k c')) (fun c' => v9 (ix2 0 c'))
          (v1 (ix2 p 0)) (Spec.at0 c) := by
  unfold k1_pay6
  refine (slice2_axis1_apply 0 (k1_pay5 v0 v1 v4 v8 v9) slices_S2000x384_o0_0_S2000x128 p c (Spec.at0 c) (Nat.zero_add _).symm).trans ?_
  exact pay5_apply v0 v1 v4 v8 v9 p (Spec.at0 c)

theorem pay7_apply (v0 : Vec Ideal S2000x20 .f32) (v1 : Vec Ideal S2000x1 .f32) (v4 : Vec Ideal S2000x384 .f32)
    (v8 : Vec Ideal S20x384 .f32) (v9 : Vec Ideal S1x384 .f32) (p : Fin 2000) (c : Fin 128) :
    k1_pay7 v0 v1 v4 v8 v9 (ix2 p c)
      = Spec.xjmod (fun c' => v4 (ix2 p c')) (fun k => v0 (ix2 p k)) (fun k c' => v8 (ix2 k c')) (fun c' => v9 (ix2 0 c'))
          (v1 (ix2 p 0)) (Spec.at1 c) := by
  unfold k1_pay7
  refine (slice2_axis1_apply 128 (k1_pay5 v0 v1 v4 v8 v9) slices_S2000x384_o0_128_S2000x128 p c (Spec.at1 c) rfl).trans ?_
  exact pay5_apply v0 v1 v4 v8 v9 p (Spec.at1 c)

theorem pay8_apply (v0 : Vec Ideal S2000x20 .f32) (v1 : Vec Ideal S2000x1 .f32) (v4 : Vec Ideal S2000x384 .f32)
    (v8 : Vec Ideal S20x384 .f32) (v9 : Vec Ideal S1x384 .f32) (p : Fin 2000) (c : Fin 128) :
    k1_pay8 v0 v1 v4 v8 v9 (ix2 p c)
      = Spec.xjmod (fun c' => v4 (ix2 p c')) (fun k => v0 (ix2 p k)) (fun k c' => v8 (ix2 k c')) (fun c' => v9 (ix2 0 c'))
          (v1 (ix2 p 0)) (Spec.at2 c) := by
  unfold k1_pay8
  refine (slice2_axis1_apply 256 (k1_pay5 v0 v1 v4 v8 v9) slices_S2000x384_o0_256_S2000x128 p c (Spec.at2 c) rfl).trans ?_
  exact pay5_apply v0 v1 v4 v8 v9 p (Spec.at2 c)

/-! ## The dq_e block -/

/-- Row `p`, column `c` of the dq_e block. -/
theorem out_dqe (x0 : Vec Ideal S2000x20 .f32) (x1 : Vec Ideal S2000x1 .f32) (x2 : Vec Ideal S2000x3 .f32)
    (x3 : Vec Ideal S2000x384 .f32) (x4 : Vec Ideal S2000x3x128 .f32) (x5 : Vec Ideal S20x384 .f32) (x6 : Vec Ideal S1x384 .f32) (p : Fin 2000) (c : Fin 128) :
    out1_7 x0 x1 x2 x3 x4 x5 x6 (ix2 p c)
      = Spec.dqeRow (fun c' => x3 (ix2 p c')) (fun k => x0 (ix2 p k)) (fun k c' => x5 (ix2 k c')) (fun c' => x6 (ix2 0 c'))
          (x1 (ix2 p 0)) c := by
  have hz2 : (![0, 0] : Fin 2 → Nat) = fun _ => 0 := by funext a; match a with | ⟨0, _⟩ => rfl | ⟨1, _⟩ => rfl
  unfold out1_7
  rw [View.canon_unit_zero hz2]
  simp only [View.ld_unit_zero (S := S2000x20) hz2, View.ld_unit_zero (S := S2000x1) hz2, View.ld_unit_zero (S := S2000x384) hz2,
    View.ld_unit_zero (S := S20x384) hz2, View.ld_unit_zero (S := S1x384) hz2]
  exact pay6_apply x0 x1 x3 x5 x6 p c

/-! ## One direction slab of the dmu_e block -/

/-- The slab the body stores for direction `v` (offset `o = v`): the second third along the edge's direction plus the
    third third times the sender's vector, read at (p, 0, c). -/
theorem slab_apply (o : Nat) (h2 : S2000x3.Slices ![0, o] S2000x1) (h3 : S2000x3x128.Slices ![0, o, 0] S2000x1x128)
    (v3 : Vec Ideal S2000x3 .f32) (v7 : FVec Ideal S2000x3x128 .f32) (v34 v35 : FVec Ideal S2000x128 .f32)
    (p : Fin 2000) (c : Fin 128) (v : Fin 3) (hv : v.val = o) :
    shapeCast S2000x1x128
        (addf (mulf v34 (broadcastTo S2000x128 (extractStridedSlice S2000x1 ![0, o] v3 h2) broadcasts_S2000x1_S2000x128))
          (mulf v35 (shapeCast S2000x128 (extractStridedSlice S2000x1x128 ![0, o, 0] v7 h3) shapeCasts_S2000x1x128_S2000x128)))
        shapeCasts_S2000x128_S2000x1x128 (ix3 p (0 : Fin 1) c)
      = v34 (ix2 p c) * v3 (ix2 p v) + v35 (ix2 p c) * v7 (ix3 p v c) := by
  refine (shapeCast_apply _ shapeCasts_S2000x128_S2000x1x128 (ix3 p (0 : Fin 1) c) (ix2 p c) ?_).trans ?_
  · rw [Shape.rowMajor_val_two, Shape.rowMajor_val_three]
    show p.val * 128 + c.val = (p.val * 1 + 0) * 128 + c.val
    omega
  have e : shapeCast S2000x128 (extractStridedSlice S2000x1x128 ![0, o, 0] v7 h3) shapeCasts_S2000x1x128_S2000x128 (ix2 p c)
      = v7 (ix3 p v c) := by
    refine (shapeCast_apply _ shapeCasts_S2000x1x128_S2000x128 (ix2 p c) (ix3 p (0 : Fin 1) c) ?_).trans ?_
    · rw [Shape.rowMajor_val_two, Shape.rowMajor_val_three]
      show (p.val * 1 + 0) * 128 + c.val = p.val * 128 + c.val
      omega
    exact slice3_axis1_apply o v7 h3 p (0 : Fin 1) c v (by show v.val = o + 0; omega)
  rw [addf_apply, mulf_apply, mulf_apply, bcol128_apply, e,
    slice2_axis1_apply o v3 h2 p (0 : Fin 1) v (by show v.val = o + 0; omega)]

theorem pay1_apply (v3 : Vec Ideal S2000x3 .f32) (v7 : FVec Ideal S2000x3x128 .f32) (v34 v35 : FVec Ideal S2000x128 .f32)
    (p : Fin 2000) (c : Fin 128) :
    k1_pay1 v3 v7 v34 v35 (ix3 p (0 : Fin 1) c)
      = v34 (ix2 p c) * v3 (ix2 p (0 : Fin 3)) + v35 (ix2 p c) * v7 (ix3 p (0 : Fin 3) c) := by
  unfold k1_pay1
  exact slab_apply 0 slices_S2000x3_o0_0_S2000x1 slices_S2000x3x128_o0_0_0_S2000x1x128 v3 v7 v34 v35 p c 0 rfl

theorem pay2_apply (v3 : Vec Ideal S2000x3 .f32) (v7 : FVec Ideal S2000x3x128 .f32) (v34 v35 : FVec Ideal S2000x128 .f32)
    (p : Fin 2000) (c : Fin 128) :
    k1_pay2 v3 v7 v34 v35 (ix3 p (0 : Fin 1) c)
      = v34 (ix2 p c) * v3 (ix2 p (1 : Fin 3)) + v35 (ix2 p c) * v7 (ix3 p (1 : Fin 3) c) := by
  unfold k1_pay2
  exact slab_apply 1 slices_S2000x3_o0_1_S2000x1 slices_S2000x3x128_o0_1_0_S2000x1x128 v3 v7 v34 v35 p c 1 rfl

theorem pay3_apply (v3 : Vec Ideal S2000x3 .f32) (v7 : FVec Ideal S2000x3x128 .f32) (v34 v35 : FVec Ideal S2000x128 .f32)
    (p : Fin 2000) (c : Fin 128) :
    k1_pay3 v3 v7 v34 v35 (ix3 p (0 : Fin 1) c)
      = v34 (ix2 p c) * v3 (ix2 p (2 : Fin 3)) + v35 (ix2 p c) * v7 (ix3 p (2 : Fin 3) c) := by
  unfold k1_pay3
  exact slab_apply 2 slices_S2000x3_o0_2_S2000x1 slices_S2000x3x128_o0_2_0_S2000x1x128 v3 v7 v34 v35 p c 2 rfl

/-! ## The three slabs tile the direction axis -/

/-- Direction 2 is under the last store. -/
theorem canon3_at2 (P3 P2 P1 : Vec Ideal S2000x1x128 .f32) (p : Fin 2000) (c : Fin 128) :
    View.canon ([⟨r1_10, P3⟩, ⟨r1_9, P2⟩, ⟨r1_8, P1⟩] : List (View.Piece (Elt Ideal) S2000x3x128 .f32)) (ix3 p (2 : Fin 3) c)
      = P3 (ix3 p (0 : Fin 1) c) := by
  have e : ix3 p (2 : Fin 3) c = r1_10.emb (ix3 p (0 : Fin 1) c) := funext fun a => Fin.ext (by
    match a with
    | ⟨0, _⟩ => show p.val = 0 + 1 * p.val; omega
    | ⟨1, _⟩ => rfl
    | ⟨2, _⟩ => show c.val = 0 + 1 * c.val; omega)
  rw [e]
  exact View.canon_cons_emb r1_10 P3 _ _

/-- Direction 1 is off the last store and under the one before. -/
theorem canon3_at1 (P3 P2 P1 : Vec Ideal S2000x1x128 .f32) (p : Fin 2000) (c : Fin 128) :
    View.canon ([⟨r1_10, P3⟩, ⟨r1_9, P2⟩, ⟨r1_8, P1⟩] : List (View.Piece (Elt Ideal) S2000x3x128 .f32)) (ix3 p (1 : Fin 3) c)
      = P2 (ix3 p (0 : Fin 1) c) := by
  have n10 : ix3 p (1 : Fin 3) c ∉ r1_10.set := by
    rw [Rect.mem_set_unit]
    intro h
    have h1 : (2 : Nat) ≤ 1 := (h (1 : Fin 3)).1
    omega
  refine (View.canon_cons_of_not_mem (⟨r1_10, P3⟩ : View.Piece (Elt Ideal) S2000x3x128 .f32)
    ([⟨r1_9, P2⟩, ⟨r1_8, P1⟩] : List (View.Piece (Elt Ideal) S2000x3x128 .f32)) n10).trans ?_
  have e : ix3 p (1 : Fin 3) c = r1_9.emb (ix3 p (0 : Fin 1) c) := funext fun a => Fin.ext (by
    match a with
    | ⟨0, _⟩ => show p.val = 0 + 1 * p.val; omega
    | ⟨1, _⟩ => rfl
    | ⟨2, _⟩ => show c.val = 0 + 1 * c.val; omega)
  rw [e]
  exact View.canon_cons_emb r1_9 P2 _ _

/-- Direction 0 is off the last two stores and under the first. -/
theorem canon3_at0 (P3 P2 P1 : Vec Ideal S2000x1x128 .f32) (p : Fin 2000) (c : Fin 128) :
    View.canon ([⟨r1_10, P3⟩, ⟨r1_9, P2⟩, ⟨r1_8, P1⟩] : List (View.Piece (Elt Ideal) S2000x3x128 .f32)) (ix3 p (0 : Fin 3) c)
      = P1 (ix3 p (0 : Fin 1) c) := by
  have n10 : ix3 p (0 : Fin 3) c ∉ r1_10.set := by
    rw [Rect.mem_set_unit]
    intro h
    have h1 : (2 : Nat) ≤ 0 := (h (1 : Fin 3)).1
    omega
  have n9 : ix3 p (0 : Fin 3) c ∉ r1_9.set := by
    rw [Rect.mem_set_unit]
    intro h
    have h1 : (1 : Nat) ≤ 0 := (h (1 : Fin 3)).1
    omega
  refine (View.canon_cons_of_not_mem (⟨r1_10, P3⟩ : View.Piece (Elt Ideal) S2000x3x128 .f32)
    ([⟨r1_9, P2⟩, ⟨r1_8, P1⟩] : List (View.Piece (Elt Ideal) S2000x3x128 .f32)) n10).trans ?_
  refine (View.canon_cons_of_not_mem (⟨r1_9, P2⟩ : View.Piece (Elt Ideal) S2000x3x128 .f32)
    ([⟨r1_8, P1⟩] : List (View.Piece (Elt Ideal) S2000x3x128 .f32)) n9).trans ?_
  have e : ix3 p (0 : Fin 3) c = r1_8.emb (ix3 p (0 : Fin 1) c) := funext fun a => Fin.ext (by
    match a with
    | ⟨0, _⟩ => show p.val = 0 + 1 * p.val; omega
    | ⟨1, _⟩ => rfl
    | ⟨2, _⟩ => show c.val = 0 + 1 * c.val; omega)
  rw [e]
  exact View.canon_cons_emb r1_8 P1 _ _

/-! ## The dmu_e block -/

/-- Row `p`, direction `v`, column `c` of the dmu_e block (its three stores tile the direction axis). -/
theorem out_dmue (x0 : Vec Ideal S2000x20 .f32) (x1 : Vec Ideal S2000x1 .f32) (x2 : Vec Ideal S2000x3 .f32)
    (x3 : Vec Ideal S2000x384 .f32) (x4 : Vec Ideal S2000x3x128 .f32) (x5 : Vec Ideal S20x384 .f32) (x6 : Vec Ideal S1x384 .f32) (p : Fin 2000) (v : Fin 3) (c : Fin 128) :
    out1_8 x0 x1 x2 x3 x4 x5 x6 (ix3 p v c)
      = Spec.dmueRow (fun c' => x3 (ix2 p c')) (fun k => x0 (ix2 p k)) (fun k c' => x5 (ix2 k c')) (fun c' => x6 (ix2 0 c'))
          (x1 (ix2 p 0)) (fun v' => x2 (ix2 p v')) (fun v' c' => x4 (ix3 p v' c')) v c := by
  have hz2 : (![0, 0] : Fin 2 → Nat) = fun _ => 0 := by funext a; match a with | ⟨0, _⟩ => rfl | ⟨1, _⟩ => rfl
  have hz3 : (![0, 0, 0] : Fin 3 → Nat) = fun _ => 0 := by
    funext a; match a with | ⟨0, _⟩ => rfl | ⟨1, _⟩ => rfl | ⟨2, _⟩ => rfl
  have h4 : k1_pay4 x4 = x4 := by unfold k1_pay4; exact shapeCast_self _ _
  unfold out1_8
  simp only [View.ld_unit_zero (S := S2000x20) hz2, View.ld_unit_zero (S := S2000x1) hz2, View.ld_unit_zero (S := S2000x3) hz2,
    View.ld_unit_zero (S := S2000x384) hz2, View.ld_unit_zero (S := S2000x3x128) hz3, View.ld_unit_zero (S := S20x384) hz2,
    View.ld_unit_zero (S := S1x384) hz2, h4]
  unfold Spec.dmueRow
  match v with
  | ⟨0, _⟩ =>
    refine (canon3_at0 _ _ _ p c).trans ?_
    rw [pay1_apply, pay7_apply, pay8_apply]
    rfl
  | ⟨1, _⟩ =>
    refine (canon3_at1 _ _ _ p c).trans ?_
    rw [pay2_apply, pay7_apply, pay8_apply]
    rfl
  | ⟨2, _⟩ =>
    refine (canon3_at2 _ _ _ p c).trans ?_
    rw [pay3_apply, pay7_apply, pay8_apply]
    rfl

end Cert.KernelIdeal.BodyB

end
-- ==== Proof.CoverB.lean ====
/-
  Region B, blocks to array: after the region, dq_e and dmu_e at edge e are the gated messages of edge e's rows as the region found them.

  Each of the 160 grid points t handles edges 2000 t … 2000 t + 1999: its blocks of the per-edge arrays are those rows, the two
  weight arrays come whole. So a block read at row p is the array read at edge 2000 t + p, what the point writes back is its block
  of ONE whole-array function (the row formula of each edge's own rows), and the blocks tile the edge axis: edge e lies in the
  block of point e / 2000.
-/
import proofs.«417512_j54400055771905_1_alg».proof.Proof.Gen.KernelIdeal.Frame
import proofs.«417512_j54400055771905_1_alg».proof.Proof.Spec
import proofs.«417512_j54400055771905_1_alg».proof.Proof.BodyB
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.CoverB

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The printed index maps, once over the grid -/

/-- The tiled windows sit at block (t, 0) or (t, 0, 0); the two weight windows at block (0, 0). -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = t.val ∧ win1_3.index t (1 : Fin 2) = 0
  ∧ win1_4.index t (0 : Fin 3) = t.val ∧ win1_4.index t (1 : Fin 3) = 0 ∧ win1_4.index t (2 : Fin 3) = 0
  ∧ win1_5.index t (0 : Fin 2) = 0 ∧ win1_5.index t (1 : Fin 2) = 0
  ∧ win1_6.index t (0 : Fin 2) = 0 ∧ win1_6.index t (1 : Fin 2) = 0
  ∧ win1_7.index t (0 : Fin 2) = t.val ∧ win1_7.index t (1 : Fin 2) = 0
  ∧ win1_8.index t (0 : Fin 3) = t.val ∧ win1_8.index t (1 : Fin 3) = 0 ∧ win1_8.index t (2 : Fin 3) = 0 :=
  (by decide +kernel : ∀ t : Fin grid1.N, _)

/-! ## Each input block, read at a row, is the array read at edge 2000 t + row -/

/-- The radial basis block. -/
theorem blk0_apply (c : Dev nD) (t : Fin cfg1.N) (p : Fin 2000) (k : Fin 20) (e : Fin 320000) (he : e.val = 2000 * t.val + p.val) :
    (iblk1 V c 0 t : Vec Ideal S2000x20 .f32) (ix2 p k) = (V c main_arg5 : S320000x20.Idx → EReal) (ix2 e k) := by
  obtain ⟨h00, h01, h10, h11, h20, h21, h30, h31, h40, h41, h42, h50, h51, h60, h61, h70, h71, h80, h81, h82⟩ := idx_facts t
  unfold iblk1
  rw [View.read_apply]
  show V c main_arg5 _ = V c main_arg5 _
  congr 1
  funext a
  apply Fin.ext
  match a with
  | ⟨0, _⟩ => show win1_0.index t (0 : Fin 2) * 2000 + 1 * p.val = e.val; omega
  | ⟨1, _⟩ => show win1_0.index t (1 : Fin 2) * 20 + 1 * k.val = k.val; omega

/-- The edge length block. -/
theorem blk1_apply (c : Dev nD) (t : Fin cfg1.N) (p : Fin 2000) (k : Fin 1) (e : Fin 320000) (he : e.val = 2000 * t.val + p.val) :
    (iblk1 V c 1 t : Vec Ideal S2000x1 .f32) (ix2 p k) = (V c main_v9 : S320000x1.Idx → EReal) (ix2 e k) := by
  obtain ⟨h00, h01, h10, h11, h20, h21, h30, h31, h40, h41, h42, h50, h51, h60, h61, h70, h71, h80, h81, h82⟩ := idx_facts t
  unfold iblk1
  rw [View.read_apply]
  show V c main_v9 _ = V c main_v9 _
  congr 1
  funext a
  apply Fin.ext
  match a with
  | ⟨0, _⟩ => show win1_1.index t (0 : Fin 2) * 2000 + 1 * p.val = e.val; omega
  | ⟨1, _⟩ => show win1_1.index t (1 : Fin 2) * 1 + 1 * k.val = k.val; omega

/-- The edge direction block. -/
theorem blk2_apply (c : Dev nD) (t : Fin cfg1.N) (p : Fin 2000) (k : Fin 3) (e : Fin 320000) (he : e.val = 2000 * t.val + p.val) :
    (iblk1 V c 2 t : Vec Ideal S2000x3 .f32) (ix2 p k) = (V c main_arg4 : S320000x3.Idx → EReal) (ix2 e k) := by
  obtain ⟨h00, h01, h10, h11, h20, h21, h30, h31, h40, h41, h42, h50, h51, h60, h61, h70, h71, h80, h81, h82⟩ := idx_facts t
  unfold iblk1
  rw [View.read_apply]
  show V c main_arg4 _ = V c main_arg4 _
  congr 1
  funext a
  apply Fin.ext
  match a with
  | ⟨0, _⟩ => show win1_2.index t (0 : Fin 2) * 2000 + 1 * p.val = e.val; omega
  | ⟨1, _⟩ => show win1_2.index t (1 : Fin 2) * 3 + 1 * k.val = k.val; omega

/-- The gathered context block. -/
theorem blk3_apply (c : Dev nD) (t : Fin cfg1.N) (p : Fin 2000) (k : Fin 384) (e : Fin 320000) (he : e.val = 2000 * t.val + p.val) :
    (iblk1 V c 3 t : Vec Ideal S2000x384 .f32) (ix2 p k) = (V c main_v7 : S320000x384.Idx → EReal) (ix2 e k) := by
  obtain ⟨h00, h01, h10, h11, h20, h21, h30, h31, h40, h41, h42, h50, h51, h60, h61, h70, h71, h80, h81, h82⟩ := idx_facts t
  unfold iblk1
  rw [View.read_apply]
  show V c main_v7 _ = V c main_v7 _
  congr 1
  funext a
  apply Fin.ext
  match a with
  | ⟨0, _⟩ => show win1_3.index t (0 : Fin 2) * 2000 + 1 * p.val = e.val; omega
  | ⟨1, _⟩ => show win1_3.index t (1 : Fin 2) * 384 + 1 * k.val = k.val; omega

/-- The gathered sender vector block. -/
theorem blk4_apply (c : Dev nD) (t : Fin cfg1.N) (p : Fin 2000) (v : Fin 3) (k : Fin 128) (e : Fin 320000) (he : e.val = 2000 * t.val + p.val) :
    (iblk1 V c 4 t : Vec Ideal S2000x3x128 .f32) (ix3 p v k) = (V c main_v8 : S320000x3x128.Idx → EReal) (ix3 e v k) := by
  obtain ⟨h00, h01, h10, h11, h20, h21, h30, h31, h40, h41, h42, h50, h51, h60, h61, h70, h71, h80, h81, h82⟩ := idx_facts t
  unfold iblk1
  rw [View.read_apply]
  show V c main_v8 _ = V c main_v8 _
  congr 1
  funext a
  apply Fin.ext
  match a with
  | ⟨0, _⟩ => show win1_4.index t (0 : Fin 3) * 2000 + 1 * p.val = e.val; omega
  | ⟨1, _⟩ => show win1_4.index t (1 : Fin 3) * 3 + 1 * v.val = v.val; omega
  | ⟨2, _⟩ => show win1_4.index t (2 : Fin 3) * 128 + 1 * k.val = k.val; omega

/-- The filter weights: the one block is the array. -/
theorem blk5_apply (c : Dev nD) (t : Fin cfg1.N) (j : Fin 20) (k : Fin 384) :
    (iblk1 V c 5 t : Vec Ideal S20x384 .f32) (ix2 j k) = (V c main_arg6 : S20x384.Idx → EReal) (ix2 j k) := by
  obtain ⟨h00, h01, h10, h11, h20, h21, h30, h31, h40, h41, h42, h50, h51, h60, h61, h70, h71, h80, h81, h82⟩ := idx_facts t
  unfold iblk1
  rw [View.read_apply]
  show V c main_arg6 _ = V c main_arg6 _
  congr 1
  funext a
  apply Fin.ext
  match a with
  | ⟨0, _⟩ => show win1_5.index t (0 : Fin 2) * 20 + 1 * j.val = j.val; omega
  | ⟨1, _⟩ => show win1_5.index t (1 : Fin 2) * 384 + 1 * k.val = k.val; omega

/-- The filter bias: the one block is the array. -/
theorem blk6_apply (c : Dev nD) (t : Fin cfg1.N) (j : Fin 1) (k : Fin 384) :
    (iblk1 V c 6 t : Vec Ideal S1x384 .f32) (ix2 j k) = (V c main_v10 : S1x384.Idx → EReal) (ix2 j k) := by
  obtain ⟨h00, h01, h10, h11, h20, h21, h30, h31, h40, h41, h42, h50, h51, h60, h61, h70, h71, h80, h81, h82⟩ := idx_facts t
  unfold iblk1
  rw [View.read_apply]
  show V c main_v10 _ = V c main_v10 _
  congr 1
  funext a
  apply Fin.ext
  match a with
  | ⟨0, _⟩ => show win1_6.index t (0 : Fin 2) * 1 + 1 * j.val = j.val; omega
  | ⟨1, _⟩ => show win1_6.index t (1 : Fin 2) * 384 + 1 * k.val = k.val; omega

/-! ## Window 7: dq_e -/

/-- The row formula depends on its operands only through their values. -/
theorem dqeRow_congr {xj xj' : Fin 384 → EReal} {ea ea' : Fin 20 → EReal} {Wf Wf' : Fin 20 → Fin 384 → EReal}
    {bf bf' : Fin 384 → EReal} {w w' : EReal} (h1 : xj = xj') (h2 : ea = ea') (h3 : Wf = Wf') (h4 : bf = bf') (h5 : w = w')
    (k : Fin 128) : Spec.dqeRow xj ea Wf bf w k = Spec.dqeRow xj' ea' Wf' bf' w' k := by
  subst h1 h2 h3 h4 h5; rfl

theorem dmueRow_congr {xj xj' : Fin 384 → EReal} {ea ea' : Fin 20 → EReal} {Wf Wf' : Fin 20 → Fin 384 → EReal}
    {bf bf' : Fin 384 → EReal} {w w' : EReal} {ev ev' : Fin 3 → EReal} {muj muj' : Fin 3 → Fin 128 → EReal}
    (h1 : xj = xj') (h2 : ea = ea') (h3 : Wf = Wf') (h4 : bf = bf') (h5 : w = w') (h6 : ev = ev') (h7 : muj = muj')
    (v : Fin 3) (k : Fin 128) : Spec.dmueRow xj ea Wf bf w ev muj v k = Spec.dmueRow xj' ea' Wf' bf' w' ev' muj' v k := by
  subst h1 h2 h3 h4 h5 h6 h7; rfl

/-- The whole dq_e array as one function of the arrays the region found: at (e, k), the gated message of edge e's rows. -/
abbrev G7 (c : Dev nD) : S320000x128.Idx → EReal := fun i =>
  Spec.dqeRow (fun c' => (V c main_v7 : S320000x384.Idx → EReal) (ix2 (i 0 : Fin 320000) c'))
    (fun j => (V c main_arg5 : S320000x20.Idx → EReal) (ix2 (i 0 : Fin 320000) j))
    (fun j c' => (V c main_arg6 : S20x384.Idx → EReal) (ix2 j c')) (fun c' => (V c main_v10 : S1x384.Idx → EReal) (ix2 0 c'))
    ((V c main_v9 : S320000x1.Idx → EReal) (ix2 (i 0 : Fin 320000) 0)) (i 1 : Fin 128)

/-- What point t leaves at row p, column k of the dq_e block is the row formula of edge 2000 t + p. -/
theorem out7_pt (c : Dev nD) (t : Fin cfg1.N) (p : Fin 2000) (k : Fin 128) (e : Fin 320000) (he : e.val = 2000 * t.val + p.val) :
    out1_7 (iblk1 V c 0 t) (iblk1 V c 1 t) (iblk1 V c 2 t) (iblk1 V c 3 t) (iblk1 V c 4 t) (iblk1 V c 5 t) (iblk1 V c 6 t) (ix2 p k)
      = Spec.dqeRow (fun c' => (V c main_v7 : S320000x384.Idx → EReal) (ix2 e c')) (fun j => (V c main_arg5 : S320000x20.Idx → EReal) (ix2 e j))
          (fun j c' => (V c main_arg6 : S20x384.Idx → EReal) (ix2 j c')) (fun c' => (V c main_v10 : S1x384.Idx → EReal) (ix2 0 c'))
          ((V c main_v9 : S320000x1.Idx → EReal) (ix2 e 0)) k := by
  refine (BodyB.out_dqe (iblk1 V c 0 t) (iblk1 V c 1 t) (iblk1 V c 2 t) (iblk1 V c 3 t) (iblk1 V c 4 t) (iblk1 V c 5 t) (iblk1 V c 6 t) p k).trans ?_
  exact dqeRow_congr (funext fun c' => blk3_apply V c t p c' e he) (funext fun j => blk0_apply V c t p j e he)
    (funext fun j => funext fun c' => blk5_apply V c t j c') (funext fun c' => blk6_apply V c t 0 c') (blk1_apply V c t p 0 e he) k

/-- The same at an index of the block and the index of the array it sits at. -/
theorem out7_blk (c : Dev nD) (t : Fin cfg1.N) (j : S2000x128.Idx) (i : S320000x128.Idx)
    (h0 : (i 0).val = 2000 * t.val + (j 0).val) (h1 : (i 1).val = (j 1).val) :
    out1_7 (iblk1 V c 0 t) (iblk1 V c 1 t) (iblk1 V c 2 t) (iblk1 V c 3 t) (iblk1 V c 4 t) (iblk1 V c 5 t) (iblk1 V c 6 t) j = G7 V c i := by
  have h1' : (j 1 : Fin 128) = (i 1 : Fin 128) := Fin.ext h1.symm
  rw [eq_ix2 j]
  refine (out7_pt V c t (j 0) (j 1) (i 0) h0).trans ?_
  show Spec.dqeRow _ _ _ _ _ (j 1 : Fin 128) = Spec.dqeRow _ _ _ _ _ (i 1 : Fin 128)
  rw [h1']

/-- What point t writes back is block t of G7. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  obtain ⟨h00, h01, h10, h11, h20, h21, h30, h31, h40, h41, h42, h50, h51, h60, h61, h70, h71, h80, h81, h82⟩ := idx_facts t
  funext j
  show out1_7 (iblk1 V c 0 t) (iblk1 V c 1 t) (iblk1 V c 2 t) (iblk1 V c 3 t) (iblk1 V c 4 t) (iblk1 V c 5 t) (iblk1 V c 6 t) j
    = G7 V c (((cfg1.win 7).blk t).view.emb j)
  refine out7_blk V c t j (((cfg1.win 7).blk t).view.emb j) ?_ ?_
  · show win1_7.index t (0 : Fin 2) * 2000 + 1 * (j 0).val = 2000 * t.val + (j 0).val; omega
  · show win1_7.index t (1 : Fin 2) * 128 + 1 * (j 1).val = (j 1).val; omega

/-- An index of the array is in point t's block iff each coordinate is in the block's range on its axis. -/
theorem mem_blk7 (t : Fin cfg1.N) (i : S320000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v11_0).slice (win1_7.rect t)).set ↔ _
  rw [View.set_slice_whole, Rect.mem_set_unit]
  exact Iff.rfl

/-- Edge e is covered by the point e / 2000. -/
theorem cover7 (i : S320000x128.Idx) :
    ∃ t : Fin cfg1.N, (cfg1.win 7).flush t = true ∧ i ∈ ((cfg1.win 7).blk t).view.set := by
  have hi0 : (i 0).val < 320000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 160) N_1.symm⟩, rfl⟩
  obtain ⟨h00, h01, h10, h11, h20, h21, h30, h31, h40, h41, h42, h50, h51, h60, h61, h70, h71, h80, h81, h82⟩ := idx_facts t
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The dq_e array after the region is G7. -/
theorem final7 (c : Dev nD) : (dat1 V c).arrAt 7 cfg1.N = G7 V c :=
  (dat1 V c).arrAt_eq_of_cover 7 (G7 V c) (fun t _ => flushed7_eq V c t) cover7

/-- The dq_e array after region B, at edge `e`, column `k`. -/
theorem arr_dqe (c : Dev nD) (e : Fin 320000) (k : Fin 128) :
    ((dat1 V c).arrAt 7 cfg1.N : S320000x128.Idx → EReal) (ix2 e k)
      = Spec.dqeRow (fun c' => (V c main_v7 : S320000x384.Idx → EReal) (ix2 e c')) (fun j => (V c main_arg5 : S320000x20.Idx → EReal) (ix2 e j))
          (fun j c' => (V c main_arg6 : S20x384.Idx → EReal) (ix2 j c')) (fun c' => (V c main_v10 : S1x384.Idx → EReal) (ix2 0 c'))
          ((V c main_v9 : S320000x1.Idx → EReal) (ix2 e 0)) k := by
  exact congrFun (final7 V c) (ix2 e k)

/-! ## Window 8: dmu_e -/

/-- The whole dmu_e array as one function of the arrays the region found: at (e, v, k), the gated vector message of edge e's rows. -/
abbrev G8 (c : Dev nD) : S320000x3x128.Idx → EReal := fun i =>
  Spec.dmueRow (fun c' => (V c main_v7 : S320000x384.Idx → EReal) (ix2 (i 0 : Fin 320000) c'))
    (fun j => (V c main_arg5 : S320000x20.Idx → EReal) (ix2 (i 0 : Fin 320000) j))
    (fun j c' => (V c main_arg6 : S20x384.Idx → EReal) (ix2 j c')) (fun c' => (V c main_v10 : S1x384.Idx → EReal) (ix2 0 c'))
    ((V c main_v9 : S320000x1.Idx → EReal) (ix2 (i 0 : Fin 320000) 0))
    (fun v' => (V c main_arg4 : S320000x3.Idx → EReal) (ix2 (i 0 : Fin 320000) v'))
    (fun v' c' => (V c main_v8 : S320000x3x128.Idx → EReal) (ix3 (i 0 : Fin 320000) v' c')) (i 1 : Fin 3) (i 2 : Fin 128)

/-- What point t leaves at row p, direction v, column k of the dmu_e block is the row formula of edge 2000 t + p. -/
theorem out8_pt (c : Dev nD) (t : Fin cfg1.N) (p : Fin 2000) (v : Fin 3) (k : Fin 128) (e : Fin 320000) (he : e.val = 2000 * t.val + p.val) :
    out1_8 (iblk1 V c 0 t) (iblk1 V c 1 t) (iblk1 V c 2 t) (iblk1 V c 3 t) (iblk1 V c 4 t) (iblk1 V c 5 t) (iblk1 V c 6 t) (ix3 p v k)
      = Spec.dmueRow (fun c' => (V c main_v7 : S320000x384.Idx → EReal) (ix2 e c')) (fun j => (V c main_arg5 : S320000x20.Idx → EReal) (ix2 e j))
          (fun j c' => (V c main_arg6 : S20x384.Idx → EReal) (ix2 j c')) (fun c' => (V c main_v10 : S1x384.Idx → EReal) (ix2 0 c'))
          ((V c main_v9 : S320000x1.Idx → EReal) (ix2 e 0))
          (fun v' => (V c main_arg4 : S320000x3.Idx → EReal) (ix2 e v')) (fun v' c' => (V c main_v8 : S320000x3x128.Idx → EReal) (ix3 e v' c')) v k := by
  refine (BodyB.out_dmue (iblk1 V c 0 t) (iblk1 V c 1 t) (iblk1 V c 2 t) (iblk1 V c 3 t) (iblk1 V c 4 t) (iblk1 V c 5 t) (iblk1 V c 6 t) p v k).trans ?_
  exact dmueRow_congr (funext fun c' => blk3_apply V c t p c' e he) (funext fun j => blk0_apply V c t p j e he)
    (funext fun j => funext fun c' => blk5_apply V c t j c') (funext fun c' => blk6_apply V c t 0 c') (blk1_apply V c t p 0 e he)
    (funext fun v' => blk2_apply V c t p v' e he) (funext fun v' => funext fun c' => blk4_apply V c t p v' c' e he) v k

/-- The same at an index of the block and the index of the array it sits at. -/
theorem out8_blk (c : Dev nD) (t : Fin cfg1.N) (j : S2000x3x128.Idx) (i : S320000x3x128.Idx)
    (h0 : (i 0).val = 2000 * t.val + (j 0).val) (h1 : (i 1).val = (j 1).val) (h2 : (i 2).val = (j 2).val) :
    out1_8 (iblk1 V c 0 t) (iblk1 V c 1 t) (iblk1 V c 2 t) (iblk1 V c 3 t) (iblk1 V c 4 t) (iblk1 V c 5 t) (iblk1 V c 6 t) j = G8 V c i := by
  have h1' : (j 1 : Fin 3) = (i 1 : Fin 3) := Fin.ext h1.symm
  have h2' : (j 2 : Fin 128) = (i 2 : Fin 128) := Fin.ext h2.symm
  rw [eq_ix3 j]
  refine (out8_pt V c t (j 0) (j 1) (j 2) (i 0) h0).trans ?_
  show Spec.dmueRow _ _ _ _ _ _ _ (j 1 : Fin 3) (j 2 : Fin 128) = Spec.dmueRow _ _ _ _ _ _ _ (i 1 : Fin 3) (i 2 : Fin 128)
  rw [h1', h2']

/-- What point t writes back is block t of G8. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  obtain ⟨h00, h01, h10, h11, h20, h21, h30, h31, h40, h41, h42, h50, h51, h60, h61, h70, h71, h80, h81, h82⟩ := idx_facts t
  funext j
  show out1_8 (iblk1 V c 0 t) (iblk1 V c 1 t) (iblk1 V c 2 t) (iblk1 V c 3 t) (iblk1 V c 4 t) (iblk1 V c 5 t) (iblk1 V c 6 t) j
    = G8 V c (((cfg1.win 8).blk t).view.emb j)
  refine out8_blk V c t j (((cfg1.win 8).blk t).view.emb j) ?_ ?_ ?_
  · show win1_8.index t (0 : Fin 3) * 2000 + 1 * (j 0).val = 2000 * t.val + (j 0).val; omega
  · show win1_8.index t (1 : Fin 3) * 3 + 1 * (j 1).val = (j 1).val; omega
  · show win1_8.index t (2 : Fin 3) * 128 + 1 * (j 2).val = (j 2).val; omega

/-- An index of the array is in point t's block iff each coordinate is in the block's range on its axis. -/
theorem mem_blk8 (t : Fin cfg1.N) (i : S320000x3x128.Idx) :
    i ∈ ((cfg1.win 8).blk t).view.set ↔ ∀ a : Fin 3, win1_8.index t a * S2000x3x128.size a ≤ (i a).val ∧ (i a).val < win1_8.index t a * S2000x3x128.size a + S2000x3x128.size a := by
  show i ∈ ((View.whole main_v11_1).slice (win1_8.rect t)).set ↔ _
  rw [View.set_slice_whole, Rect.mem_set_unit]
  exact Iff.rfl

/-- Edge e is covered by the point e / 2000. -/
theorem cover8 (i : S320000x3x128.Idx) :
    ∃ t : Fin cfg1.N, (cfg1.win 8).flush t = true ∧ i ∈ ((cfg1.win 8).blk t).view.set := by
  have hi0 : (i 0).val < 320000 := (i 0).isLt
  have hi1 : (i 1).val < 3 := (i 1).isLt
  have hi2 : (i 2).val < 128 := (i 2).isLt
  obtain ⟨t, ht⟩ : ∃ t : Fin cfg1.N, t.val = (i 0).val / 2000 :=
    ⟨⟨(i 0).val / 2000, lt_of_lt_of_eq (by omega : (i 0).val / 2000 < 160) N_1.symm⟩, rfl⟩
  obtain ⟨h00, h01, h10, h11, h20, h21, h30, h31, h40, h41, h42, h50, h51, h60, h61, h70, h71, h80, h81, h82⟩ := idx_facts t
  refine ⟨t, flush1_8 t, ?_⟩
  rw [mem_blk8]
  intro a
  match a with
  | ⟨0, _⟩ => show win1_8.index t (0 : Fin 3) * 2000 ≤ (i 0).val ∧ (i 0).val < win1_8.index t (0 : Fin 3) * 2000 + 2000; omega
  | ⟨1, _⟩ => show win1_8.index t (1 : Fin 3) * 3 ≤ (i 1).val ∧ (i 1).val < win1_8.index t (1 : Fin 3) * 3 + 3; omega
  | ⟨2, _⟩ => show win1_8.index t (2 : Fin 3) * 128 ≤ (i 2).val ∧ (i 2).val < win1_8.index t (2 : Fin 3) * 128 + 128; omega

/-- The dmu_e array after the region is G8. -/
theorem final8 (c : Dev nD) : (dat1 V c).arrAt 8 cfg1.N = G8 V c :=
  (dat1 V c).arrAt_eq_of_cover 8 (G8 V c) (fun t _ => flushed8_eq V c t) cover8

/-- The dmu_e array after region B, at edge `e`, direction `v`, column `k`. -/
theorem arr_dmue (c : Dev nD) (e : Fin 320000) (v : Fin 3) (k : Fin 128) :
    ((dat1 V c).arrAt 8 cfg1.N : S320000x3x128.Idx → EReal) (ix3 e v k)
      = Spec.dmueRow (fun c' => (V c main_v7 : S320000x384.Idx → EReal) (ix2 e c')) (fun j => (V c main_arg5 : S320000x20.Idx → EReal) (ix2 e j))
          (fun j c' => (V c main_arg6 : S20x384.Idx → EReal) (ix2 j c')) (fun c' => (V c main_v10 : S1x384.Idx → EReal) (ix2 0 c'))
          ((V c main_v9 : S320000x1.Idx → EReal) (ix2 e 0))
          (fun v' => (V c main_arg4 : S320000x3.Idx → EReal) (ix2 e v')) (fun v' c' => (V c main_v8 : S320000x3x128.Idx → EReal) (ix3 e v' c')) v k := by
  exact congrFun (final8 V c) (ix3 e v k)

end Cert.KernelIdeal.CoverB

end
-- ==== Proof.BodyC.lean ====
/-
  Region C's body at an index, first output: what one grid point stores into the q_out block, row by row.
-/
import proofs.«417512_j54400055771905_1_alg».proof.Proof.Gen.KernelIdeal.Frame
import proofs.«417512_j54400055771905_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyC

open Cert.KernelIdeal Cert.KernelIdeal.Gen Idealize.ShloMosaic Idealize.ShloMosaic.TcCoe Idealize.ShloMosaic.ValueIdx Idealize.SL.Sem

/-! ## The three matrix products at an index

Each product contracts the left operand's columns against the right operand's rows into the zero accumulator, so its
element at (p, d) is the sum over k of left (p, k) times right (k, d). -/

/-! ### [1000,128] · [128,256] -/

theorem lhsA_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhsA_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhsA_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhsA_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The mixing product at (p, d). -/
theorem mmA_apply (L : FVec Ideal S1000x128 .bf16) (W : FVec Ideal S128x256 .bf16) (p : Fin 1000) (d : Fin 256) :
    matmul dot_S1000x128_S128x256_S1000x256_1_0_0_1_n_n none L W (constant (F := Ideal) S1000x256 .f32 0x00000000#32) (ix2 p d)
      = ∑ k : Fin 128, L (ix2 p k) * W (ix2 k d) := by
  refine (Ideal.matmul_constant_zero_apply dot_S1000x128_S128x256_S1000x256_1_0_0_1_n_n none L W (ix2 p d)).trans ?_
  rw [← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p d) ((ValueIdx.contrEquiv1 dot_S1000x128_S128x256_S1000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S1000x128_S128x256_S1000x256_1_0_0_1_n_n.rhsIdx (ix2 p d) ((ValueIdx.contrEquiv1 dot_S1000x128_S128x256_S1000x256_1_0_0_1_n_n 128 rfl rfl).symm k) = ix2 k d := funext fun a => Fin.ext (by
    match a with
    | ⟨0, _⟩ => exact (rhsA_0 _ _).trans hk
    | ⟨1, _⟩ => exact rhsA_1 _ _)
  rw [el, er]

/-! ### [1000,256] · [256,128] -/

theorem lhsB_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhsB_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhsB_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhsB_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The first product of the update net at (p, j). -/
theorem mmB_apply (L : FVec Ideal S1000x256 .bf16) (W : FVec Ideal S256x128 .bf16) (p : Fin 1000) (j : Fin 128) :
    matmul dot_S1000x256_S256x128_S1000x128_1_0_0_1_n_n none L W (constant (F := Ideal) S1000x128 .f32 0x00000000#32) (ix2 p j)
      = ∑ d : Fin 256, L (ix2 p d) * W (ix2 d j) := by
  refine (Ideal.matmul_constant_zero_apply dot_S1000x256_S256x128_S1000x128_1_0_0_1_n_n none L W (ix2 p j)).trans ?_
  rw [← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p j) ((ValueIdx.contrEquiv1 dot_S1000x256_S256x128_S1000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S1000x256_S256x128_S1000x128_1_0_0_1_n_n.rhsIdx (ix2 p j) ((ValueIdx.contrEquiv1 dot_S1000x256_S256x128_S1000x128_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ### [1000,128] · [128,384] -/

theorem lhsC_0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem lhsC_1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem rhsC_0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem rhsC_1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- The second product of the update net at (p, c). -/
theorem mmC_apply (L : FVec Ideal S1000x128 .bf16) (W : FVec Ideal S128x384 .bf16) (p : Fin 1000) (c : Fin 384) :
    matmul dot_S1000x128_S128x384_S1000x384_1_0_0_1_n_n none L W (constant (F := Ideal) S1000x384 .f32 0x00000000#32) (ix2 p c)
      = ∑ j : Fin 128, L (ix2 p j) * W (ix2 j c) := by
  refine (Ideal.matmul_constant_zero_apply dot_S1000x128_S128x384_S1000x384_1_0_0_1_n_n none L W (ix2 p c)).trans ?_
  rw [← Equiv.sum_comp (ValueIdx.contrEquiv1 dot_S1000x128_S128x384_S1000x384_1_0_0_1_n_n 128 rfl rfl).symm]
  refine Finset.sum_congr rfl fun k _ => ?_
  have hk := ValueIdx.contrEquiv1_symm_val dot_S1000x128_S128x384_S1000x384_1_0_0_1_n_n 128 rfl rfl k
  have el : dot_S1000x128_S128x384_S1000x384_1_0_0_1_n_n.lhsIdx (ix2 p c) ((ValueIdx.contrEquiv1 dot_S1000x128_S128x384_S1000x384_1_0_0_1_n_n 128 rfl rfl).symm k) = ix2 p k := funext fun a => Fin.ext (by
    match a with
    | ⟨0, _⟩ => exact lhsC_0 _ _
    | ⟨1, _⟩ => exact (lhsC_1 _ _).trans hk)
  have er : dot_S1000x128_S128x384_S1000x384_1_0_0_1_n_n.rhsIdx (ix2 p c) ((ValueIdx.contrEquiv1 dot_S1000x128_S128x384_S1000x384_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The layout steps at an index -/

/-- A [1000,1,128] slab viewed as a [1000,128] matrix reads (p, 0, k) at (p, k). -/
theorem slab_apply (X : FVec Ideal S1000x1x128 .f32) (p : Fin 1000) (k : Fin 128) :
    shapeCast S1000x128 X shapeCasts_S1000x1x128_S1000x128 (ix2 p k) = X (ix3 p (0 : Fin 1) k) := by
  refine shapeCast_apply X shapeCasts_S1000x1x128_S1000x128 (ix2 p k) (ix3 p (0 : Fin 1) k) ?_
  rw [Shape.rowMajor_val_three, Shape.rowMajor_val_two]
  show (p.val * 1 + 0) * 128 + k.val = p.val * 128 + k.val
  omega

/-- Component `v` of a [1000,3,128] array, cut out as a slab and viewed as a matrix, reads (p, v, k) at (p, k). -/
theorem comp_apply (M : FVec Ideal S1000x3x128 .f32) (o : Nat) (h : S1000x3x128.Slices ![0, o, 0] S1000x1x128) (v : Fin 3) (hv : v.val = o)
    (p : Fin 1000) (k : Fin 128) :
    shapeCast S1000x128 (extractStridedSlice S1000x1x128 ![0, o, 0] M h) shapeCasts_S1000x1x128_S1000x128 (ix2 p k) = M (ix3 p v k) := by
  rw [slab_apply]
  exact slice3_axis1_apply o M h p (0 : Fin 1) k v (by show v.val = o + 0; omega)

/-- The node's vector plus its update, at (p, v, k). -/
theorem mu'_apply (x2 x3 : Vec Ideal S1000x3x128 .f32) (p : Fin 1000) (v : Fin 3) (k : Fin 128) :
    k2_pay6 x2 x3 (ix3 p v k) = x2 (ix3 p v k) + x3 (ix3 p v k) := by
  unfold k2_pay6
  rw [shapeCast_self]
  rfl

/-- The node's scalar features plus their update, at (p, k). -/
theorem q'_apply (x0 x1 : Vec Ideal S1000x128 .f32) (p : Fin 1000) (k : Fin 128) :
    k2_pay5 x0 x1 (ix2 p k) = x0 (ix2 p k) + x1 (ix2 p k) := by
  unfold k2_pay5
  rw [shapeCast_self]
  rfl

/-! ## The mixed vectors -/

/-- One component of the node's vector through the mixing matrix, at (p, d). -/
theorem mix_apply (M : FVec Ideal S1000x3x128 .f32) (W : Vec Ideal S128x256 .f32) (o : Nat) (h : S1000x3x128.Slices ![0, o, 0] S1000x1x128)
    (v : Fin 3) (hv : v.val = o) (p : Fin 1000) (d : Fin 256) :
    matmul dot_S1000x128_S128x256_S1000x256_1_0_0_1_n_n none
        (truncf .bf16 (shapeCast S1000x128 (extractStridedSlice S1000x1x128 ![0, o, 0] M h) shapeCasts_S1000x1x128_S1000x128) bitsLt_bf16_f32)
        (truncf .bf16 W bitsLt_bf16_f32) (constant (F := Ideal) S1000x256 .f32 0x00000000#32) (ix2 p d)
      = Spec.mixRow (fun v' k => M (ix3 p v' k)) (fun k d' => W (ix2 k d')) v d := by
  refine (mmA_apply _ _ p d).trans ?_
  unfold Spec.mixRow
  refine Finset.sum_congr rfl fun k _ => ?_
  rw [truncf_apply, truncf_apply, comp_apply M o h v hv p k]

theorem mix0_apply (x2 x3 : Vec Ideal S1000x3x128 .f32) (x4 : Vec Ideal S128x256 .f32) (p : Fin 1000) (d : Fin 256) :
    k2_pay7 x2 x3 x4 (ix2 p d) = Spec.mixRow (fun v' k => k2_pay6 x2 x3 (ix3 p v' k)) (fun k d' => x4 (ix2 k d')) 0 d := by
  unfold k2_pay7
  exact mix_apply (k2_pay6 x2 x3) x4 0 slices_S1000x3x128_o0_0_0_S1000x1x128 0 rfl p d

theorem mix1_apply (x2 x3 : Vec Ideal S1000x3x128 .f32) (x4 : Vec Ideal S128x256 .f32) (p : Fin 1000) (d : Fin 256) :
    k2_pay12 x2 x3 x4 (ix2 p d) = Spec.mixRow (fun v' k => k2_pay6 x2 x3 (ix3 p v' k)) (fun k d' => x4 (ix2 k d')) 1 d := by
  unfold k2_pay12
  exact mix_apply (k2_pay6 x2 x3) x4 1 slices_S1000x3x128_o0_1_0_S1000x1x128 1 rfl p d

theorem mix2_apply (x4 : Vec Ideal S128x256 .f32) (M : FVec Ideal S1000x3x128 .f32) (p : Fin 1000) (d : Fin 256) :
    k2_pay15 x4 M (ix2 p d) = Spec.mixRow (fun v' k => M (ix3 p v' k)) (fun k d' => x4 (ix2 k d')) 2 d := by
  unfold k2_pay15
  exact mix_apply M x4 2 slices_S1000x3x128_o0_2_0_S1000x1x128 2 rfl p d

/-! ## The halves of a 256-wide row and the thirds of a 384-wide row -/

theorem lo_apply (X : FVec Ideal S1000x256 .f32) (p : Fin 1000) (c : Fin 128) :
    extractStridedSlice S1000x128 ![0, 0] X slices_S1000x256_o0_0_S1000x128 (ix2 p c) = X (ix2 p (Spec.lo c)) :=
  slice2_axis1_apply 0 X slices_S1000x256_o0_0_S1000x128 p c (Spec.lo c) (by show c.val = 0 + c.val; omega)

theorem hi_apply (X : FVec Ideal S1000x256 .f32) (p : Fin 1000) (c : Fin 128) :
    extractStridedSlice S1000x128 ![0, 128] X slices_S1000x256_o0_128_S1000x128 (ix2 p c) = X (ix2 p (Spec.hi c)) :=
  slice2_axis1_apply 128 X slices_S1000x256_o0_128_S1000x128 p c (Spec.hi c) rfl

theorem at0_apply (Y : FVec Ideal S1000x384 .f32) (p : Fin 1000) (c : Fin 128) :
    extractStridedSlice S1000x128 ![0, 0] Y slices_S1000x384_o0_0_S1000x128 (ix2 p c) = Y (ix2 p (Spec.at0 c)) :=
  slice2_axis1_apply 0 Y slices_S1000x384_o0_0_S1000x128 p c (Spec.at0 c) (by show c.val = 0 + c.val; omega)

theorem at2_apply (Y : FVec Ideal S1000x384 .f32) (p : Fin 1000) (c : Fin 128) :
    extractStridedSlice S1000x128 ![0, 256] Y slices_S1000x384_o0_256_S1000x128 (ix2 p c) = Y (ix2 p (Spec.at2 c)) :=
  slice2_axis1_apply 256 Y slices_S1000x384_o0_256_S1000x128 p c (Spec.at2 c) rfl

/-! ## V and W of each component: the lower and the upper half of the mixed vector -/

theorem V0_apply (x2 x3 : Vec Ideal S1000x3x128 .f32) (x4 : Vec Ideal S128x256 .f32) (p : Fin 1000) (c : Fin 128) :
    k2_pay8 x2 x3 x4 (ix2 p c) = Spec.mixRow (fun v' k => k2_pay6 x2 x3 (ix3 p v' k)) (fun k d' => x4 (ix2 k d')) 0 (Spec.lo c) :=
  (lo_apply (k2_pay7 x2 x3 x4) p c).trans (mix0_apply x2 x3 x4 p (Spec.lo c))

theorem W0_apply (x2 x3 : Vec Ideal S1000x3x128 .f32) (x4 : Vec Ideal S128x256 .f32) (p : Fin 1000) (c : Fin 128) :
    k2_pay9 x2 x3 x4 (ix2 p c) = Spec.mixRow (fun v' k => k2_pay6 x2 x3 (ix3 p v' k)) (fun k d' => x4 (ix2 k d')) 0 (Spec.hi c) :=
  (hi_apply (k2_pay7 x2 x3 x4) p c).trans (mix0_apply x2 x3 x4 p (Spec.hi c))

theorem V1_apply (x2 x3 : Vec Ideal S1000x3x128 .f32) (x4 : Vec Ideal S128x256 .f32) (p : Fin 1000) (c : Fin 128) :
    k2_pay13 x2 x3 x4 (ix2 p c) = Spec.mixRow (fun v' k => k2_pay6 x2 x3 (ix3 p v' k)) (fun k d' => x4 (ix2 k d')) 1 (Spec.lo c) :=
  (lo_apply (k2_pay12 x2 x3 x4) p c).trans (mix1_apply x2 x3 x4 p (Spec.lo c))

theorem W1_apply (x2 x3 : Vec Ideal S1000x3x128 .f32) (x4 : Vec Ideal S128x256 .f32) (p : Fin 1000) (c : Fin 128) :
    k2_pay14 x2 x3 x4 (ix2 p c) = Spec.mixRow (fun v' k => k2_pay6 x2 x3 (ix3 p v' k)) (fun k d' => x4 (ix2 k d')) 1 (Spec.hi c) :=
  (hi_apply (k2_pay12 x2 x3 x4) p c).trans (mix1_apply x2 x3 x4 p (Spec.hi c))

theorem V2_apply (x4 : Vec Ideal S128x256 .f32) (M : FVec Ideal S1000x3x128 .f32) (p : Fin 1000) (c : Fin 128) :
    k2_pay16 x4 M (ix2 p c) = Spec.mixRow (fun v' k => M (ix3 p v' k)) (fun k d' => x4 (ix2 k d')) 2 (Spec.lo c) :=
  (lo_apply (k2_pay15 x4 M) p c).trans (mix2_apply x4 M p (Spec.lo c))

theorem W2_apply (x4 : Vec Ideal S128x256 .f32) (M : FVec Ideal S1000x3x128 .f32) (p : Fin 1000) (c : Fin 128) :
    k2_pay17 x4 M (ix2 p c) = Spec.mixRow (fun v' k => M (ix3 p v' k)) (fun k d' => x4 (ix2 k d')) 2 (Spec.hi c) :=
  (hi_apply (k2_pay15 x4 M) p c).trans (mix2_apply x4 M p (Spec.hi c))

/-! ## The two sums over the components

The body accumulates from the zero word: ((0 + t₀) + t₁) + t₂, which is the sum of the three terms. -/

theorem sq0_apply (x2 x3 : Vec Ideal S1000x3x128 .f32) (x4 : Vec Ideal S128x256 .f32) (p : Fin 1000) (c : Fin 128) :
    k2_pay10 x2 x3 x4 (ix2 p c) = k2_pay8 x2 x3 x4 (ix2 p c) * k2_pay8 x2 x3 x4 (ix2 p c) := by
  unfold k2_pay10
  show Ideal.ofBits .f32 0x00000000#32 + k2_pay8 x2 x3 x4 (ix2 p c) * k2_pay8 x2 x3 x4 (ix2 p c) = _
  rw [Ideal.ofBits_zero_f32, zero_add]

theorem pr0_apply (x2 x3 : Vec Ideal S1000x3x128 .f32) (x4 : Vec Ideal S128x256 .f32) (p : Fin 1000) (c : Fin 128) :
    k2_pay11 x2 x3 x4 (ix2 p c) = k2_pay8 x2 x3 x4 (ix2 p c) * k2_pay9 x2 x3 x4 (ix2 p c) := by
  unfold k2_pay11
  show Ideal.ofBits .f32 0x00000000#32 + k2_pay8 x2 x3 x4 (ix2 p c) * k2_pay9 x2 x3 x4 (ix2 p c) = _
  rw [Ideal.ofBits_zero_f32, zero_add]

/-- Σ_v V[v]² as the body accumulates it. -/
theorem sumVV_apply (x2 x3 : Vec Ideal S1000x3x128 .f32) (x4 : Vec Ideal S128x256 .f32) (p : Fin 1000) (c : Fin 128) :
    (k2_pay10 x2 x3 x4 (ix2 p c) + k2_pay13 x2 x3 x4 (ix2 p c) * k2_pay13 x2 x3 x4 (ix2 p c))
        + k2_pay16 x4 (k2_pay6 x2 x3) (ix2 p c) * k2_pay16 x4 (k2_pay6 x2 x3) (ix2 p c)
      = Spec.sumVV (fun v' k => k2_pay6 x2 x3 (ix3 p v' k)) (fun k d' => x4 (ix2 k d')) c := by
  rw [sq0_apply, V0_apply, V1_apply, V2_apply]
  unfold Spec.sumVV
  rw [Fin.sum_univ_three]

/-- Σ_v V[v] W[v] as the body accumulates it. -/
theorem sumVW_apply (x2 x3 : Vec Ideal S1000x3x128 .f32) (x4 : Vec Ideal S128x256 .f32) (p : Fin 1000) (c : Fin 128) :
    (k2_pay11 x2 x3 x4 (ix2 p c) + k2_pay13 x2 x3 x4 (ix2 p c) * k2_pay14 x2 x3 x4 (ix2 p c))
        + k2_pay16 x4 (k2_pay6 x2 x3) (ix2 p c) * k2_pay17 x4 (k2_pay6 x2 x3) (ix2 p c)
      = Spec.sumVW (fun v' k => k2_pay6 x2 x3 (ix3 p v' k)) (fun k d' => x4 (ix2 k d')) c := by
  rw [pr0_apply, V0_apply, W0_apply, V1_apply, W1_apply, V2_apply, W2_apply]
  unfold Spec.sumVW
  rw [Fin.sum_univ_three]

/-! ## The update net -/

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- The one-row bias vectors are read as they were loaded. -/
theorem b1_apply (x6 : Vec Ideal S1x128 .f32) (j : Fin 128) : k2_pay3 x6 (ix2 (0 : Fin 1) j) = x6 (ix2 0 j) := by
  unfold k2_pay3
  rw [shapeCast_self]
theorem b2_apply (x8 : Vec Ideal S1x384 .f32) (c : Fin 384) : k2_pay4 x8 (ix2 (0 : Fin 1) c) = x8 (ix2 0 c) := by
  unfold k2_pay4
  rw [shapeCast_self]

/-- Two [1000,128] matrices side by side: columns below 128 read the first, the others the second 128 columns back. -/
theorem ctx_apply (Q S : FVec Ideal S1000x128 .f32) (p : Fin 1000) (d : Fin 256) :
    concatenate S1000x256 1 [⟨S1000x128, Q⟩, ⟨S1000x128, S⟩] concatenates_S1000x128_S1000x128_S1000x256_d1 (ix2 p d)
      = if h : d.val < 128 then Q (ix2 p ⟨d.val, h⟩) else S (ix2 p ⟨d.val - 128, by omega⟩) := by
  by_cases h : d.val < 128
  · rw [dif_pos h]
    exact concatenate_pair_apply_left (1 : Fin S1000x256.rank) Q S concatenates_S1000x128_S1000x128_S1000x256_d1 (ix2 p d) rfl
      (ix2 p ⟨d.val, h⟩) (fun b => by
        match b with
        | ⟨0, _⟩ => rfl
        | ⟨1, _⟩ => rfl)
  · rw [dif_neg h]
    exact concatenate_pair_apply_right (1 : Fin S1000x256.rank) Q S concatenates_S1000x128_S1000x128_S1000x256_d1 (ix2 p d) rfl rfl
      (ix2 p ⟨d.val - 128, by omega⟩) (fun b => by
        match b with
        | ⟨0, _⟩ => exact fun _ => rfl
        | ⟨1, _⟩ => exact fun hne => absurd rfl hne)
      (by show (d.val - 128) + 128 = d.val; omega)

/-- The hidden layer before its activation, at (p, j). -/
theorem hid_apply (C : FVec Ideal S1000x256 .f32) (x5 : Vec Ideal S256x128 .f32) (b1 : FVec Ideal S1x128 .f32) (p : Fin 1000) (j : Fin 128) :
    addf (matmul dot_S1000x256_S256x128_S1000x128_1_0_0_1_n_n none (truncf .bf16 C bitsLt_bf16_f32) (truncf .bf16 x5 bitsLt_bf16_f32)
        (constant (F := Ideal) S1000x128 .f32 0x00000000#32)) (broadcastTo S1000x128 b1 broadcasts_S1x128_S1000x128) (ix2 p j)
      = (∑ d : Fin 256, C (ix2 p d) * x5 (ix2 d j)) + b1 (ix2 0 j) := by
  rw [addf_apply, mmB_apply, broadcastTo_1b_ab_apply]
  rfl

/-- The output layer, at (p, c): silu of the hidden layer through the second matrix, plus the bias. -/
theorem outl_apply (H : FVec Ideal S1000x128 .f32) (x7 : Vec Ideal S128x384 .f32) (b2 : FVec Ideal S1x384 .f32) (p : Fin 1000) (c : Fin 384) :
    addf (matmul dot_S1000x128_S128x384_S1000x384_1_0_0_1_n_n none (truncf .bf16 (mulf H (logistic H)) bitsLt_bf16_f32) (truncf .bf16 x7 bitsLt_bf16_f32)
        (constant (F := Ideal) S1000x384 .f32 0x00000000#32)) (broadcastTo S1000x384 b2 broadcasts_S1x384_S1000x384) (ix2 p c)
      = (∑ j : Fin 128, Spec.silu (H (ix2 p j)) * x7 (ix2 j c)) + b2 (ix2 0 c) := by
  rw [addf_apply, mmC_apply, broadcastTo_1b_ab_apply]
  rfl

/-- y at (p, c). -/
theorem y_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32) (p : Fin 1000) (c : Fin 384) :
    k2_pay18 x4 x5 (k2_pay3 x6) x7 (k2_pay4 x8) (k2_pay5 x0 x1) (k2_pay6 x2 x3) (k2_pay10 x2 x3 x4) (k2_pay13 x2 x3 x4) (ix2 p c)
      = Spec.yRow (fun k => k2_pay5 x0 x1 (ix2 p k)) (fun v' k => k2_pay6 x2 x3 (ix3 p v' k)) (fun k d => x4 (ix2 k d)) (fun d j => x5 (ix2 d j))
          (fun j => x6 (ix2 0 j)) (fun j c' => x7 (ix2 j c')) (fun c' => x8 (ix2 0 c')) c := by
  unfold k2_pay18
  refine (outl_apply _ x7 (k2_pay4 x8) p c).trans ?_
  unfold Spec.yRow
  rw [b2_apply]
  refine congrArg (fun z => z + x8 (ix2 0 c)) (Finset.sum_congr rfl fun j _ => ?_)
  refine congrArg (fun z => Spec.silu z * x7 (ix2 j c)) ?_
  refine (hid_apply _ x5 (k2_pay3 x6) p j).trans ?_
  rw [b1_apply]
  refine congrArg (fun z => z + x6 (ix2 0 j)) (Finset.sum_congr rfl fun d _ => ?_)
  refine congrArg (fun z => z * x5 (ix2 d j)) ?_
  refine (ctx_apply _ _ p d).trans ?_
  unfold Spec.ctxRow
  by_cases h : d.val < 128
  · rw [dif_pos h, dif_pos h]
  · rw [dif_neg h, dif_neg h]
    refine congrArg Ideal.sqrt ?_
    exact congrArg (fun z => z + Spec.cEps) (sumVV_apply x2 x3 x4 p ⟨d.val - 128, by omega⟩)

/-- The stored value at (p, c) from y and the two sums. -/
theorem pay20_apply (v6 : Vec Ideal S128x256 .f32) (v7 : Vec Ideal S256x128 .f32) (v9 : FVec Ideal S1x128 .f32) (v10 : Vec Ideal S128x384 .f32)
    (v12 : FVec Ideal S1x384 .f32) (v13 : FVec Ideal S1000x128 .f32) (v14 : FVec Ideal S1000x3x128 .f32) (v25 v27 v33 v34 : FVec Ideal S1000x128 .f32)
    (p : Fin 1000) (c : Fin 128) :
    k2_pay20 v6 v7 v9 v10 v12 v13 v14 v25 v27 v33 v34 (ix2 p c)
      = (v13 (ix2 p c) + k2_pay18 v6 v7 v9 v10 v12 v13 v14 v25 v33 (ix2 p (Spec.at0 c)))
          + k2_pay18 v6 v7 v9 v10 v12 v13 v14 v25 v33 (ix2 p (Spec.at2 c))
            * ((v27 (ix2 p c) + v33 (ix2 p c) * v34 (ix2 p c)) + k2_pay16 v6 v14 (ix2 p c) * k2_pay17 v6 v14 (ix2 p c)) := by
  unfold k2_pay20
  show (v13 (ix2 p c) + extractStridedSlice S1000x128 ![0, 0] (k2_pay18 v6 v7 v9 v10 v12 v13 v14 v25 v33) slices_S1000x384_o0_0_S1000x128 (ix2 p c))
      + extractStridedSlice S1000x128 ![0, 256] (k2_pay18 v6 v7 v9 v10 v12 v13 v14 v25 v33) slices_S1000x384_o0_256_S1000x128 (ix2 p c)
        * ((v27 (ix2 p c) + v33 (ix2 p c) * v34 (ix2 p c)) + k2_pay16 v6 v14 (ix2 p c) * k2_pay17 v6 v14 (ix2 p c)) = _
  rw [at0_apply, at2_apply]

/-- Row `p`, column `c` of the q_out block. -/
theorem out_qout (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32) (p : Fin 1000) (c : Fin 128) :
    out2_9 x0 x1 x2 x3 x4 x5 x6 x7 x8 (ix2 p c)
      = Spec.qoutRow (fun k => x0 (ix2 p k)) (fun k => x1 (ix2 p k)) (fun v' k => x2 (ix3 p v' k)) (fun v' k => x3 (ix3 p v' k))
          (fun k d => x4 (ix2 k d)) (fun d j => x5 (ix2 d j)) (fun j => x6 (ix2 0 j)) (fun j c' => x7 (ix2 j c')) (fun c' => x8 (ix2 0 c')) c := by
  unfold out2_9
  rw [View.canon_unit_zero hz2]
  simp only [View.ld_unit_zero (S := S1000x128) hz2, View.ld_unit_zero (S := S1000x3x128) hz3, View.ld_unit_zero (S := S128x256) hz2,
    View.ld_unit_zero (S := S256x128) hz2, View.ld_unit_zero (S := S1x128) hz2, View.ld_unit_zero (S := S128x384) hz2,
    View.ld_unit_zero (S := S1x384) hz2]
  rw [pay20_apply, y_apply, y_apply, sumVW_apply, q'_apply]
  unfold Spec.qoutRow
  have hq : (fun k => k2_pay5 x0 x1 (ix2 p k)) = fun k => x0 (ix2 p k) + x1 (ix2 p k) := funext fun k => q'_apply x0 x1 p k
  have hm : (fun v' k => k2_pay6 x2 x3 (ix3 p v' k)) = fun v' k => x2 (ix3 p v' k) + x3 (ix3 p v' k) :=
    funext fun v' => funext fun k => mu'_apply x2 x3 p v' k
  rw [hq, hm]

end Cert.KernelIdeal.BodyC

end
-- ==== Proof.BodyCmu.lean ====
/-
  Region C's body at an index, second output: what one grid point stores into the mu_out block, row by row.
-/
import proofs.«417512_j54400055771905_1_alg».proof.Proof.Gen.KernelIdeal.Frame
import proofs.«417512_j54400055771905_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyCmu

open Cert.KernelIdeal Cert.KernelIdeal.Gen Idealize.ShloMosaic Idealize.ShloMosaic.TcCoe Idealize.ShloMosaic.ValueIdx Idealize.SL.Sem

variable {α : Type}

/-! ## Layout reads at explicit coordinates -/

/-- An `[a, 1, b]` array cast to `[a, b]` reads, at `(i, j)`, the operand at `(i, 0, j)`. -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The slab of a `[1000, 3, 128]` array at direction `o`, as a `[1000, 128]` matrix, reads row `p`, direction `o`,
    column `k` of the array. -/
theorem slab_apply (o : Nat) (M : S1000x3x128.Idx → α) (h : S1000x3x128.Slices ![0, o, 0] S1000x1x128)
    (h' : S1000x1x128.ShapeCasts S1000x128) (v : Fin 3) (hv : v.val = o) (p : Fin 1000) (k : Fin 128) :
    shapeCast S1000x128 (extractStridedSlice S1000x1x128 ![0, o, 0] M h) h' (ix2 p k) = M (ix3 p v k) :=
  (cast_a1b_ab _ h' p k).trans (slice3_axis1_apply o M h p (0 : Fin 1) k v (by rw [hv]; rfl))

/-! ## The three contractions read at an index

Each contraction into the zero accumulator pairs the left operand's columns with the right operand's rows: at
`(p, d)` it is the sum over `k` of `L[p, k] · R[k, d]`. -/

theorem lhsA_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhsA_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhsA_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhsA_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The mixing contraction `[1000,128] · [128,256]`. -/
theorem matmulA_apply (L : FVec Ideal S1000x128 .bf16) (R : FVec Ideal S128x256 .bf16) (p : Fin 1000) (d : Fin 256) :
    matmul dot_S1000x128_S128x256_S1000x256_1_0_0_1_n_n none L R (constant S1000x256 .f32 0x00000000#32) (ix2 p d)
      = ∑ k : Fin 128, L (ix2 p k) * R (ix2 k d) := by
  refine (Ideal.matmul_constant_zero_apply dot_S1000x128_S128x256_S1000x256_1_0_0_1_n_n none L R (ix2 p d)).trans ?_
  rw [← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 p d) ((contrEquiv1 dot_S1000x128_S128x256_S1000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S1000x128_S128x256_S1000x256_1_0_0_1_n_n.rhsIdx (ix2 p d) ((contrEquiv1 dot_S1000x128_S128x256_S1000x256_1_0_0_1_n_n 128 rfl rfl).symm k) = ix2 k d := funext fun a => Fin.ext (by
    match a with
    | ⟨0, _⟩ => exact (rhsA_0 _ _).trans hk
    | ⟨1, _⟩ => exact rhsA_1 _ _)
  rw [el, er]

theorem lhsB_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhsB_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhsB_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhsB_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The hidden layer's contraction `[1000,256] · [256,128]`. -/
theorem matmulB_apply (L : FVec Ideal S1000x256 .bf16) (R : FVec Ideal S256x128 .bf16) (p : Fin 1000) (d : Fin 128) :
    matmul dot_S1000x256_S256x128_S1000x128_1_0_0_1_n_n none L R (constant S1000x128 .f32 0x00000000#32) (ix2 p d)
      = ∑ k : Fin 256, L (ix2 p k) * R (ix2 k d) := by
  refine (Ideal.matmul_constant_zero_apply dot_S1000x256_S256x128_S1000x128_1_0_0_1_n_n none L R (ix2 p d)).trans ?_
  rw [← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p d) ((contrEquiv1 dot_S1000x256_S256x128_S1000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S1000x256_S256x128_S1000x128_1_0_0_1_n_n.rhsIdx (ix2 p d) ((contrEquiv1 dot_S1000x256_S256x128_S1000x128_1_0_0_1_n_n 256 rfl rfl).symm k) = ix2 k d := funext fun a => Fin.ext (by
    match a with
    | ⟨0, _⟩ => exact (rhsB_0 _ _).trans hk
    | ⟨1, _⟩ => exact rhsB_1 _ _)
  rw [el, er]

theorem lhsC_0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem lhsC_1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem rhsC_0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem rhsC_1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- The output layer's contraction `[1000,128] · [128,384]`. -/
theorem matmulC_apply (L : FVec Ideal S1000x128 .bf16) (R : FVec Ideal S128x384 .bf16) (p : Fin 1000) (d : Fin 384) :
    matmul dot_S1000x128_S128x384_S1000x384_1_0_0_1_n_n none L R (constant S1000x384 .f32 0x00000000#32) (ix2 p d)
      = ∑ k : Fin 128, L (ix2 p k) * R (ix2 k d) := by
  refine (Ideal.matmul_constant_zero_apply dot_S1000x128_S128x384_S1000x384_1_0_0_1_n_n none L R (ix2 p d)).trans ?_
  rw [← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 p d) ((contrEquiv1 dot_S1000x128_S128x384_S1000x384_1_0_0_1_n_n 128 rfl rfl).symm k) = ix2 p k := funext fun a => Fin.ext (by
    match a with
    | ⟨0, _⟩ => exact lhsC_0 _ _
    | ⟨1, _⟩ => exact (lhsC_1 _ _).trans hk)
  have er : dot_S1000x128_S128x384_S1000x384_1_0_0_1_n_n.rhsIdx (ix2 p d) ((contrEquiv1 dot_S1000x128_S128x384_S1000x384_1_0_0_1_n_n 128 rfl rfl).symm k) = ix2 k d := funext fun a => Fin.ext (by
    match a with
    | ⟨0, _⟩ => exact (rhsC_0 _ _).trans hk
    | ⟨1, _⟩ => exact rhsC_1 _ _)
  rw [el, er]

/-! ## The row's operands

Row `p` of q' = q + dq and of mu' = mu + dmu, and the weights as functions of their coordinates. -/

abbrev qn (x0 x1 : Vec Ideal S1000x128 .f32) (p : Fin 1000) : Fin 128 → EReal :=
  fun k => (x0 (ix2 p k) : EReal) + x1 (ix2 p k)
abbrev mun (x2 x3 : Vec Ideal S1000x3x128 .f32) (p : Fin 1000) : Fin 3 → Fin 128 → EReal :=
  fun v k => (x2 (ix3 p v k) : EReal) + x3 (ix3 p v k)
abbrev wmix (x4 : Vec Ideal S128x256 .f32) : Fin 128 → Fin 256 → EReal := fun k d => x4 (ix2 k d)
abbrev wm1 (x5 : Vec Ideal S256x128 .f32) : Fin 256 → Fin 128 → EReal := fun d j => x5 (ix2 d j)
abbrev bm1 (x6 : Vec Ideal S1x128 .f32) : Fin 128 → EReal := fun j => x6 (ix2 0 j)
abbrev wm2 (x7 : Vec Ideal S128x384 .f32) : Fin 128 → Fin 384 → EReal := fun j c => x7 (ix2 j c)
abbrev bm2 (x8 : Vec Ideal S1x384 .f32) : Fin 384 → EReal := fun c => x8 (ix2 0 c)

/-! ## The sums q' = q + dq and mu' = mu + dmu, and the two biases -/

theorem pay5_apply (x0 x1 : Vec Ideal S1000x128 .f32) (i : S1000x128.Idx) :
    k2_pay5 x0 x1 i = (x0 i : EReal) + x1 i := by
  unfold k2_pay5
  exact congrArg (fun y : FVec Ideal S1000x128 .f32 => (x0 i : EReal) + y i) (shapeCast_self x1 _)

theorem pay6_apply (x2 x3 : Vec Ideal S1000x3x128 .f32) (i : S1000x3x128.Idx) :
    k2_pay6 x2 x3 i = (x2 i : EReal) + x3 i := by
  unfold k2_pay6
  exact congrArg (fun y : FVec Ideal S1000x3x128 .f32 => (x2 i : EReal) + y i) (shapeCast_self x3 _)

theorem pay3_eq (x6 : Vec Ideal S1x128 .f32) : k2_pay3 x6 = x6 := by
  unfold k2_pay3
  exact shapeCast_self x6 _

theorem pay4_eq (x8 : Vec Ideal S1x384 .f32) : k2_pay4 x8 = x8 := by
  unfold k2_pay4
  exact shapeCast_self x8 _

/-! ## The mixed vectors (V | W)[v] = mu'[v] · Wmix -/

/-- The direction-`o` slab of `M` times the mixing weights, at `(p, d)`. -/
theorem mix_apply (o : Nat) (h : S1000x3x128.Slices ![0, o, 0] S1000x1x128) (M : FVec Ideal S1000x3x128 .f32)
    (x4 : Vec Ideal S128x256 .f32) (v : Fin 3) (hv : v.val = o) (p : Fin 1000) (d : Fin 256) :
    matmul dot_S1000x128_S128x256_S1000x256_1_0_0_1_n_n none
        (truncf .bf16 (shapeCast S1000x128 (extractStridedSlice S1000x1x128 ![0, o, 0] M h) shapeCasts_S1000x1x128_S1000x128) bitsLt_bf16_f32)
        (truncf .bf16 x4 bitsLt_bf16_f32) (constant S1000x256 .f32 0x00000000#32) (ix2 p d)
      = ∑ k : Fin 128, (M (ix3 p v k) : EReal) * x4 (ix2 k d) := by
  refine (matmulA_apply _ _ p d).trans ?_
  refine Finset.sum_congr rfl fun k _ => ?_
  exact congrArg (fun z : EReal => z * x4 (ix2 k d)) (slab_apply o M h _ v hv p k)

/-- With `M` = mu' it is the specification's mixed row. -/
theorem mixRow_of_pay6 (x2 x3 : Vec Ideal S1000x3x128 .f32) (x4 : Vec Ideal S128x256 .f32) (v : Fin 3) (p : Fin 1000) (d : Fin 256) :
    (∑ k : Fin 128, (k2_pay6 x2 x3 (ix3 p v k) : EReal) * x4 (ix2 k d)) = Spec.mixRow (mun x2 x3 p) (wmix x4) v d :=
  Finset.sum_congr rfl fun k _ => congrArg (fun z : EReal => z * x4 (ix2 k d)) (pay6_apply x2 x3 _)

theorem pay7_apply (x2 x3 : Vec Ideal S1000x3x128 .f32) (x4 : Vec Ideal S128x256 .f32) (p : Fin 1000) (d : Fin 256) :
    k2_pay7 x2 x3 x4 (ix2 p d) = Spec.mixRow (mun x2 x3 p) (wmix x4) 0 d := by
  unfold k2_pay7
  exact (mix_apply 0 _ (k2_pay6 x2 x3) x4 0 rfl p d).trans (mixRow_of_pay6 x2 x3 x4 0 p d)

theorem pay12_apply (x2 x3 : Vec Ideal S1000x3x128 .f32) (x4 : Vec Ideal S128x256 .f32) (p : Fin 1000) (d : Fin 256) :
    k2_pay12 x2 x3 x4 (ix2 p d) = Spec.mixRow (mun x2 x3 p) (wmix x4) 1 d := by
  unfold k2_pay12
  exact (mix_apply 1 _ (k2_pay6 x2 x3) x4 1 rfl p d).trans (mixRow_of_pay6 x2 x3 x4 1 p d)

theorem pay15_apply (x2 x3 : Vec Ideal S1000x3x128 .f32) (x4 : Vec Ideal S128x256 .f32) (p : Fin 1000) (d : Fin 256) :
    k2_pay15 x4 (k2_pay6 x2 x3) (ix2 p d) = Spec.mixRow (mun x2 x3 p) (wmix x4) 2 d := by
  unfold k2_pay15
  exact (mix_apply 2 _ (k2_pay6 x2 x3) x4 2 rfl p d).trans (mixRow_of_pay6 x2 x3 x4 2 p d)

/-- The lower and the upper half of a 256-wide row, the middle third of a 384-wide row. -/
theorem lo_apply (X : FVec Ideal S1000x256 .f32) (p : Fin 1000) (c : Fin 128) :
    extractStridedSlice S1000x128 ![0, 0] X slices_S1000x256_o0_0_S1000x128 (ix2 p c) = X (ix2 p (Spec.lo c)) :=
  slice2_axis1_apply 0 X _ p c (Spec.lo c) (Nat.zero_add _).symm
theorem hi_apply (X : FVec Ideal S1000x256 .f32) (p : Fin 1000) (c : Fin 128) :
    extractStridedSlice S1000x128 ![0, 128] X slices_S1000x256_o0_128_S1000x128 (ix2 p c) = X (ix2 p (Spec.hi c)) :=
  slice2_axis1_apply 128 X _ p c (Spec.hi c) rfl
theorem at1_apply (Y : FVec Ideal S1000x384 .f32) (p : Fin 1000) (c : Fin 128) :
    extractStridedSlice S1000x128 ![0, 128] Y slices_S1000x384_o0_128_S1000x128 (ix2 p c) = Y (ix2 p (Spec.at1 c)) :=
  slice2_axis1_apply 128 Y _ p c (Spec.at1 c) rfl

theorem pay8_apply (x2 x3 : Vec Ideal S1000x3x128 .f32) (x4 : Vec Ideal S128x256 .f32) (p : Fin 1000) (c : Fin 128) :
    k2_pay8 x2 x3 x4 (ix2 p c) = Spec.mixRow (mun x2 x3 p) (wmix x4) 0 (Spec.lo c) := by
  unfold k2_pay8
  exact (lo_apply _ p c).trans (pay7_apply x2 x3 x4 p _)
theorem pay9_apply (x2 x3 : Vec Ideal S1000x3x128 .f32) (x4 : Vec Ideal S128x256 .f32) (p : Fin 1000) (c : Fin 128) :
    k2_pay9 x2 x3 x4 (ix2 p c) = Spec.mixRow (mun x2 x3 p) (wmix x4) 0 (Spec.hi c) := by
  unfold k2_pay9
  exact (hi_apply _ p c).trans (pay7_apply x2 x3 x4 p _)
theorem pay13_apply (x2 x3 : Vec Ideal S1000x3x128 .f32) (x4 : Vec Ideal S128x256 .f32) (p : Fin 1000) (c : Fin 128) :
    k2_pay13 x2 x3 x4 (ix2 p c) = Spec.mixRow (mun x2 x3 p) (wmix x4) 1 (Spec.lo c) := by
  unfold k2_pay13
  exact (lo_apply _ p c).trans (pay12_apply x2 x3 x4 p _)
theorem pay14_apply (x2 x3 : Vec Ideal S1000x3x128 .f32) (x4 : Vec Ideal S128x256 .f32) (p : Fin 1000) (c : Fin 128) :
    k2_pay14 x2 x3 x4 (ix2 p c) = Spec.mixRow (mun x2 x3 p) (wmix x4) 1 (Spec.hi c) := by
  unfold k2_pay14
  exact (hi_apply _ p c).trans (pay12_apply x2 x3 x4 p _)
theorem pay16_apply (x2 x3 : Vec Ideal S1000x3x128 .f32) (x4 : Vec Ideal S128x256 .f32) (p : Fin 1000) (c : Fin 128) :
    k2_pay16 x4 (k2_pay6 x2 x3) (ix2 p c) = Spec.mixRow (mun x2 x3 p) (wmix x4) 2 (Spec.lo c) := by
  unfold k2_pay16
  exact (lo_apply _ p c).trans (pay15_apply x2 x3 x4 p _)
theorem pay17_apply (x2 x3 : Vec Ideal S1000x3x128 .f32) (x4 : Vec Ideal S128x256 .f32) (p : Fin 1000) (c : Fin 128) :
    k2_pay17 x4 (k2_pay6 x2 x3) (ix2 p c) = Spec.mixRow (mun x2 x3 p) (wmix x4) 2 (Spec.hi c) := by
  unfold k2_pay17
  exact (hi_apply _ p c).trans (pay15_apply x2 x3 x4 p _)

/-! ## Σ_v V[v]², accumulated from zero one direction at a time -/

theorem sumVV_apply (x2 x3 : Vec Ideal S1000x3x128 .f32) (x4 : Vec Ideal S128x256 .f32) (p : Fin 1000) (e : Fin 128) :
    ((k2_pay10 x2 x3 x4 (ix2 p e) + k2_pay13 x2 x3 x4 (ix2 p e) * k2_pay13 x2 x3 x4 (ix2 p e))
        + k2_pay16 x4 (k2_pay6 x2 x3) (ix2 p e) * k2_pay16 x4 (k2_pay6 x2 x3) (ix2 p e) : EReal)
      = Spec.sumVV (mun x2 x3 p) (wmix x4) e := by
  have h10 : k2_pay10 x2 x3 x4 (ix2 p e)
      = (Ideal.ofBits .f32 0x00000000#32 : EReal) + k2_pay8 x2 x3 x4 (ix2 p e) * k2_pay8 x2 x3 x4 (ix2 p e) := rfl
  rw [h10, pay8_apply, pay13_apply, pay16_apply, Ideal.ofBits_zero_f32, zero_add]
  unfold Spec.sumVV
  rw [Fin.sum_univ_three]

/-! ## The context [q' | sqrt (Σ_v V² + ε)] -/

/-- Two 128-wide matrices side by side: the columns below 128 read the first, the others the second. -/
theorem concat_apply (A B : FVec Ideal S1000x128 .f32) (p : Fin 1000) (d : Fin 256) :
    concatenate S1000x256 1 [⟨S1000x128, A⟩, ⟨S1000x128, B⟩] concatenates_S1000x128_S1000x128_S1000x256_d1 (ix2 p d)
      = if h : d.val < 128 then A (ix2 p ⟨d.val, h⟩) else B (ix2 p ⟨d.val - 128, by omega⟩) := by
  split
  · next h =>
    exact concatenate_pair_apply_left 1 A B _ (ix2 p d) rfl (ix2 p ⟨d.val, h⟩) (fun b => by
      match b with
      | ⟨0, _⟩ => rfl
      | ⟨1, _⟩ => rfl)
  · next h =>
    exact concatenate_pair_apply_right 1 A B _ (ix2 p d) rfl rfl (ix2 p ⟨d.val - 128, by omega⟩) (fun b hb => by
      match b, hb with
      | ⟨0, _⟩, _ => rfl
      | ⟨1, _⟩, hb => exact absurd rfl hb) (by show d.val - 128 + 128 = d.val; omega)

/-- The context row: q' in the lower half, sqrt (Σ_v V² + ε) in the upper. -/
theorem ctx_apply (A T : FVec Ideal S1000x128 .f32) (q : Fin 128 → EReal) (mu : Fin 3 → Fin 128 → EReal) (W : Fin 128 → Fin 256 → EReal)
    (p : Fin 1000) (hA : ∀ k, A (ix2 p k) = q k) (hT : ∀ e, T (ix2 p e) = Spec.sumVV mu W e) (d : Fin 256) :
    concatenate S1000x256 1 [⟨S1000x128, A⟩, ⟨S1000x128, sqrt (addf T (broadcast S1000x128 (Scalar.ofBits .f32 0x322BCC77#32)))⟩]
        concatenates_S1000x128_S1000x128_S1000x256_d1 (ix2 p d)
      = Spec.ctxRow q mu W d := by
  refine (concat_apply _ _ p d).trans ?_
  unfold Spec.ctxRow
  by_cases h : d.val < 128
  · rw [dif_pos h, dif_pos h]; exact hA _
  · rw [dif_neg h, dif_neg h]
    exact congrArg (fun z : EReal => Ideal.sqrt (z + Spec.cEps)) (hT _)

/-! ## The two dense layers -/

/-- The hidden layer before its activation, at `(p, j)`. -/
theorem hidden_apply (X : FVec Ideal S1000x256 .f32) (x5 : Vec Ideal S256x128 .f32) (b : FVec Ideal S1x128 .f32) (p : Fin 1000) (j : Fin 128) :
    addf (matmul dot_S1000x256_S256x128_S1000x128_1_0_0_1_n_n none (truncf .bf16 X bitsLt_bf16_f32) (truncf .bf16 x5 bitsLt_bf16_f32) (constant S1000x128 .f32 0x00000000#32))
        (broadcastTo S1000x128 b broadcasts_S1x128_S1000x128) (ix2 p j)
      = (∑ d : Fin 256, (X (ix2 p d) : EReal) * x5 (ix2 d j)) + b (ix2 0 j) :=
  congrArg₂ (fun y z : EReal => y + z) (matmulB_apply _ _ p j) (broadcastTo_1b_ab_apply b _ p j)

/-- The output layer of the silu of `H`, at `(p, c)`. -/
theorem outer_apply (H : FVec Ideal S1000x128 .f32) (x7 : Vec Ideal S128x384 .f32) (b : FVec Ideal S1x384 .f32) (p : Fin 1000) (c : Fin 384) :
    addf (matmul dot_S1000x128_S128x384_S1000x384_1_0_0_1_n_n none (truncf .bf16 (mulf H (logistic H)) bitsLt_bf16_f32) (truncf .bf16 x7 bitsLt_bf16_f32) (constant S1000x384 .f32 0x00000000#32))
        (broadcastTo S1000x384 b broadcasts_S1x384_S1000x384) (ix2 p c)
      = (∑ j : Fin 128, Spec.silu (H (ix2 p j)) * x7 (ix2 j c)) + b (ix2 0 c) :=
  congrArg₂ (fun y z : EReal => y + z) (matmulC_apply _ _ p c) (broadcastTo_1b_ab_apply b _ p c)

/-! ## y = silu ([q' | sqrt (Σ_v V² + ε)] · Wm1 + bm1) · Wm2 + bm2 -/

theorem pay18_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32) (p : Fin 1000) (c : Fin 384) :
    k2_pay18 x4 x5 (k2_pay3 x6) x7 (k2_pay4 x8) (k2_pay5 x0 x1) (k2_pay6 x2 x3) (k2_pay10 x2 x3 x4) (k2_pay13 x2 x3 x4) (ix2 p c)
      = Spec.yRow (qn x0 x1 p) (mun x2 x3 p) (wmix x4) (wm1 x5) (bm1 x6) (wm2 x7) (bm2 x8) c := by
  unfold k2_pay18
  refine (outer_apply _ x7 (k2_pay4 x8) p c).trans ?_
  unfold Spec.yRow
  refine congrArg₂ (fun y z : EReal => y + z) (Finset.sum_congr rfl fun j _ => ?_) (by rw [pay4_eq])
  refine congrArg (fun z : EReal => Spec.silu z * x7 (ix2 j c)) ?_
  refine (hidden_apply _ x5 (k2_pay3 x6) p j).trans ?_
  refine congrArg₂ (fun y z : EReal => y + z) (Finset.sum_congr rfl fun d _ => ?_) (by rw [pay3_eq])
  exact congrArg (fun z : EReal => z * x5 (ix2 d j))
    (ctx_apply _ _ (qn x0 x1 p) (mun x2 x3 p) (wmix x4) p (fun k => pay5_apply x0 x1 _) (fun e => sumVV_apply x2 x3 x4 p e) d)

/-- Its middle third, the gate of the vector channel. -/
theorem pay19_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32) (p : Fin 1000) (c : Fin 128) :
    k2_pay19 x4 x5 (k2_pay3 x6) x7 (k2_pay4 x8) (k2_pay5 x0 x1) (k2_pay6 x2 x3) (k2_pay10 x2 x3 x4) (k2_pay13 x2 x3 x4) (ix2 p c)
      = Spec.yRow (qn x0 x1 p) (mun x2 x3 p) (wmix x4) (wm1 x5) (bm1 x6) (wm2 x7) (bm2 x8) (Spec.at1 c) := by
  unfold k2_pay19
  exact (at1_apply _ p c).trans (pay18_apply x0 x1 x2 x3 x4 x5 x6 x7 x8 p _)

/-! ## The three slabs of mu_out -/

/-- The block as one function of its coordinates. -/
abbrev rowG (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (p : Fin 1000) (v : Fin 3) (c : Fin 128) : EReal :=
  Spec.muoutRow (fun k => x0 (ix2 p k)) (fun k => x1 (ix2 p k)) (fun v' k => x2 (ix3 p v' k)) (fun v' k => x3 (ix3 p v' k))
    (fun k d => x4 (ix2 k d)) (fun d j => x5 (ix2 d j)) (fun j => x6 (ix2 0 j)) (fun j c' => x7 (ix2 j c')) (fun c' => x8 (ix2 0 c')) v c

/-- Direction 0: mu'[0] + y[128:256] ⊙ W[0]. -/
theorem slab0_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (p : Fin 1000) (u : Fin 1) (c : Fin 128) :
    k2_pay21 x4 x5 (k2_pay3 x6) x7 (k2_pay4 x8) (k2_pay5 x0 x1) (k2_pay6 x2 x3) (k2_pay9 x2 x3 x4) (k2_pay10 x2 x3 x4) (k2_pay13 x2 x3 x4) (ix3 p u c)
      = rowG x0 x1 x2 x3 x4 x5 x6 x7 x8 p 0 c := by
  unfold k2_pay21
  refine (cast_ab_a1b _ _ p u c).trans ?_
  unfold rowG Spec.muoutRow
  refine congrArg₂ (fun y z : EReal => y + z) ((slab_apply 0 (k2_pay6 x2 x3) _ _ 0 rfl p c).trans (pay6_apply x2 x3 _)) ?_
  exact congrArg₂ (fun y z : EReal => y * z) (pay19_apply x0 x1 x2 x3 x4 x5 x6 x7 x8 p c) (pay9_apply x2 x3 x4 p c)

/-- Direction 1: mu'[1] + y[128:256] ⊙ W[1]. -/
theorem slab1_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (p : Fin 1000) (u : Fin 1) (c : Fin 128) :
    k2_pay1 (k2_pay22 x4 x5 (k2_pay3 x6) x7 (k2_pay4 x8) (k2_pay5 x0 x1) (k2_pay6 x2 x3) (k2_pay10 x2 x3 x4) (k2_pay13 x2 x3 x4) (k2_pay14 x2 x3 x4)) (ix3 p u c)
      = rowG x0 x1 x2 x3 x4 x5 x6 x7 x8 p 1 c := by
  unfold k2_pay1
  refine (cast_ab_a1b _ _ p u c).trans ?_
  unfold k2_pay22 rowG Spec.muoutRow
  refine congrArg₂ (fun y z : EReal => y + z) ((slab_apply 1 (k2_pay6 x2 x3) _ _ 1 rfl p c).trans (pay6_apply x2 x3 _)) ?_
  exact congrArg₂ (fun y z : EReal => y * z) (pay19_apply x0 x1 x2 x3 x4 x5 x6 x7 x8 p c) (pay14_apply x2 x3 x4 p c)

/-- Direction 2: mu'[2] + y[128:256] ⊙ W[2]. -/
theorem slab2_apply (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (p : Fin 1000) (u : Fin 1) (c : Fin 128) :
    k2_pay2 (k2_pay6 x2 x3) (k2_pay17 x4 (k2_pay6 x2 x3)) (k2_pay19 x4 x5 (k2_pay3 x6) x7 (k2_pay4 x8) (k2_pay5 x0 x1) (k2_pay6 x2 x3) (k2_pay10 x2 x3 x4) (k2_pay13 x2 x3 x4)) (ix3 p u c)
      = rowG x0 x1 x2 x3 x4 x5 x6 x7 x8 p 2 c := by
  unfold k2_pay2
  refine (cast_ab_a1b _ _ p u c).trans ?_
  unfold rowG Spec.muoutRow
  refine congrArg₂ (fun y z : EReal => y + z) ((slab_apply 2 (k2_pay6 x2 x3) _ _ 2 rfl p c).trans (pay6_apply x2 x3 _)) ?_
  exact congrArg₂ (fun y z : EReal => y * z) (pay19_apply x0 x1 x2 x3 x4 x5 x6 x7 x8 p c) (pay17_apply x2 x3 x4 p c)

/-! ## The stores tile the direction axis -/

/-- The slab rectangle at direction `o` places its local index `(a, u, e)` at `(a, o, e)`. -/
theorem emb_slab (o : Nat) (inb : ∀ a, (![0, o, 0] : Fin 3 → Nat) a + S1000x1x128.size a ≤ S1000x3x128.size a)
    (v : Fin 3) (hv : v.val = o) (a : Fin 1000) (u : Fin 1) (e : Fin 128) :
    (Rect.unit (s := S1000x3x128) ![0, o, 0] S1000x1x128.size inb).emb (ix3 a u e) = ix3 a v e := by
  funext b
  apply Fin.ext
  match b with
  | ⟨0, _⟩ => show 0 + 1 * a.val = a.val; omega
  | ⟨1, _⟩ => show o + 1 * u.val = v.val; omega
  | ⟨2, _⟩ => show 0 + 1 * e.val = e.val; omega

theorem piece0 (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (x : S1000x1x128.Idx) :
    k2_pay21 x4 x5 (k2_pay3 x6) x7 (k2_pay4 x8) (k2_pay5 x0 x1) (k2_pay6 x2 x3) (k2_pay9 x2 x3 x4) (k2_pay10 x2 x3 x4) (k2_pay13 x2 x3 x4) x
      = (fun i : S1000x3x128.Idx => rowG x0 x1 x2 x3 x4 x5 x6 x7 x8 (i 0) (i 1) (i 2)) (r2_7.emb x) := by
  obtain ⟨a, u, e, rfl⟩ : ∃ (a : Fin 1000) (u : Fin 1) (e : Fin 128), x = ix3 a u e := ⟨x 0, x 1, x 2, eq_ix3 x⟩
  rw [emb_slab 0 _ 0 rfl a u e]
  exact slab0_apply x0 x1 x2 x3 x4 x5 x6 x7 x8 a u e

theorem piece1 (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (x : S1000x1x128.Idx) :
    k2_pay1 (k2_pay22 x4 x5 (k2_pay3 x6) x7 (k2_pay4 x8) (k2_pay5 x0 x1) (k2_pay6 x2 x3) (k2_pay10 x2 x3 x4) (k2_pay13 x2 x3 x4) (k2_pay14 x2 x3 x4)) x
      = (fun i : S1000x3x128.Idx => rowG x0 x1 x2 x3 x4 x5 x6 x7 x8 (i 0) (i 1) (i 2)) (r2_8.emb x) := by
  obtain ⟨a, u, e, rfl⟩ : ∃ (a : Fin 1000) (u : Fin 1) (e : Fin 128), x = ix3 a u e := ⟨x 0, x 1, x 2, eq_ix3 x⟩
  rw [emb_slab 1 _ 1 rfl a u e]
  exact slab1_apply x0 x1 x2 x3 x4 x5 x6 x7 x8 a u e

theorem piece2 (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32)
    (x : S1000x1x128.Idx) :
    k2_pay2 (k2_pay6 x2 x3) (k2_pay17 x4 (k2_pay6 x2 x3)) (k2_pay19 x4 x5 (k2_pay3 x6) x7 (k2_pay4 x8) (k2_pay5 x0 x1) (k2_pay6 x2 x3) (k2_pay10 x2 x3 x4) (k2_pay13 x2 x3 x4)) x
      = (fun i : S1000x3x128.Idx => rowG x0 x1 x2 x3 x4 x5 x6 x7 x8 (i 0) (i 1) (i 2)) (r2_9.emb x) := by
  obtain ⟨a, u, e, rfl⟩ : ∃ (a : Fin 1000) (u : Fin 1) (e : Fin 128), x = ix3 a u e := ⟨x 0, x 1, x 2, eq_ix3 x⟩
  rw [emb_slab 2 _ 2 rfl a u e]
  exact slab2_apply x0 x1 x2 x3 x4 x5 x6 x7 x8 a u e

/-- Row `p`, direction `v`, column `c` of the mu_out block (its three stores tile the direction axis). -/
theorem out_muout (x0 x1 : Vec Ideal S1000x128 .f32) (x2 x3 : Vec Ideal S1000x3x128 .f32) (x4 : Vec Ideal S128x256 .f32)
    (x5 : Vec Ideal S256x128 .f32) (x6 : Vec Ideal S1x128 .f32) (x7 : Vec Ideal S128x384 .f32) (x8 : Vec Ideal S1x384 .f32) (p : Fin 1000) (v : Fin 3) (c : Fin 128) :
    out2_10 x0 x1 x2 x3 x4 x5 x6 x7 x8 (ix3 p v c)
      = Spec.muoutRow (fun k => x0 (ix2 p k)) (fun k => x1 (ix2 p k)) (fun v' k => x2 (ix3 p v' k)) (fun v' k => x3 (ix3 p v' k))
          (fun k d => x4 (ix2 k d)) (fun d j => x5 (ix2 d j)) (fun j => x6 (ix2 0 j)) (fun j c' => x7 (ix2 j c')) (fun c' => x8 (ix2 0 c')) v c := by
  have hz2 : (![0, 0] : Fin 2 → Nat) = fun _ => 0 := funext fun a => by
    match a with
    | ⟨0, _⟩ => rfl
    | ⟨1, _⟩ => rfl
  have hz3 : (![0, 0, 0] : Fin 3 → Nat) = fun _ => 0 := funext fun a => by
    match a with
    | ⟨0, _⟩ => rfl
    | ⟨1, _⟩ => rfl
    | ⟨2, _⟩ => rfl
  unfold out2_10
  simp only [View.ld_unit_zero (S := S1000x128) hz2, View.ld_unit_zero (S := S1000x3x128) hz3, View.ld_unit_zero (S := S128x256) hz2,
    View.ld_unit_zero (S := S256x128) hz2, View.ld_unit_zero (S := S1x128) hz2, View.ld_unit_zero (S := S128x384) hz2,
    View.ld_unit_zero (S := S1x384) hz2]
  refine (View.canon_apply_of_pieces (fun i : S1000x3x128.Idx => rowG x0 x1 x2 x3 x4 x5 x6 x7 x8 (i 0) (i 1) (i 2)) _ ?_ (ix3 p v c)
    (cover2_10 _ _ _ _)).trans rfl
  intro q hq
  simp only [List.mem_cons, List.not_mem_nil, or_false] at hq
  rcases hq with rfl | rfl | rfl
  · exact piece2 x0 x1 x2 x3 x4 x5 x6 x7 x8
  · exact piece1 x0 x1 x2 x3 x4 x5 x6 x7 x8
  · exact piece0 x0 x1 x2 x3 x4 x5 x6 x7 x8

end Cert.KernelIdeal.BodyCmu

end
-- ==== Proof.CoverC.lean ====
/-
  Region C, blocks to array: after the region, q_out and mu_out at node n are the mixing of node n's rows as the region found them.
-/
import proofs.«417512_j54400055771905_1_alg».proof.Proof.Gen.KernelIdeal.Frame
import proofs.«417512_j54400055771905_1_alg».proof.Proof.Spec
import proofs.«417512_j54400055771905_1_alg».proof.Proof.BodyC
import proofs.«417512_j54400055771905_1_alg».proof.Proof.BodyCmu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.CoverC

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arrays the region found and the blocks a grid point reads, each by its literal type -/

abbrev qarr (c : Dev nD) : Vec Ideal S20000x128 .f32 := V c main_arg0
abbrev dqarr (c : Dev nD) : Vec Ideal S20000x128 .f32 := V c main_v14
abbrev muarr (c : Dev nD) : Vec Ideal S20000x3x128 .f32 := V c main_arg1
abbrev dmuarr (c : Dev nD) : Vec Ideal S20000x3x128 .f32 := V c main_v17
abbrev wmixarr (c : Dev nD) : Vec Ideal S128x256 .f32 := V c main_arg12
abbrev wm1arr (c : Dev nD) : Vec Ideal S256x128 .f32 := V c main_arg13
abbrev bm1arr (c : Dev nD) : Vec Ideal S1x128 .f32 := V c main_v18
abbrev wm2arr (c : Dev nD) : Vec Ideal S128x384 .f32 := V c main_arg15
abbrev bm2arr (c : Dev nD) : Vec Ideal S1x384 .f32 := V c main_v19

abbrev qblk (c : Dev nD) (t : Fin cfg2.N) : Vec Ideal S1000x128 .f32 := iblk2 V c 0 t
abbrev dqblk (c : Dev nD) (t : Fin cfg2.N) : Vec Ideal S1000x128 .f32 := iblk2 V c 1 t
abbrev mublk (c : Dev nD) (t : Fin cfg2.N) : Vec Ideal S1000x3x128 .f32 := iblk2 V c 2 t
abbrev dmublk (c : Dev nD) (t : Fin cfg2.N) : Vec Ideal S1000x3x128 .f32 := iblk2 V c 3 t
abbrev wmixblk (c : Dev nD) (t : Fin cfg2.N) : Vec Ideal S128x256 .f32 := iblk2 V c 4 t
abbrev wm1blk (c : Dev nD) (t : Fin cfg2.N) : Vec Ideal S256x128 .f32 := iblk2 V c 5 t
abbrev bm1blk (c : Dev nD) (t : Fin cfg2.N) : Vec Ideal S1x128 .f32 := iblk2 V c 6 t
abbrev wm2blk (c : Dev nD) (t : Fin cfg2.N) : Vec Ideal S128x384 .f32 := iblk2 V c 7 t
abbrev bm2blk (c : Dev nD) (t : Fin cfg2.N) : Vec Ideal S1x384 .f32 := iblk2 V c 8 t

/-! ## The printed index maps over the grid: the node windows move with the point along the rows, the weights stay -/

theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_9.index t (0 : Fin 2) = t.val ∧ win2_9.index t (1 : Fin 2) = 0
    ∧ win2_10.index t (0 : Fin 3) = t.val ∧ win2_10.index t (1 : Fin 3) = 0 ∧ win2_10.index t (2 : Fin 3) = 0 :=
  (by decide +kernel : ∀ t : Fin grid2.N, _)

theorem idx_weights : ∀ t : Fin cfg2.N,
    win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem grid_points : cfg2.N = 20 := N_2

/-! ## A block read inside the block is the array read at block index × block size + the coordinate -/

/-- Row `p` of point `t`'s block of q is row `1000 t + p` of q. -/
theorem qblk_apply (c : Dev nD) (t : Fin cfg2.N) (p : Fin 1000) (k : Fin 128) (n : Fin 20000)
    (hn : n.val = 1000 * t.val + p.val) : qblk V c t (ix2 p k) = qarr V c (ix2 n k) := by
  obtain ⟨e0, e1, -⟩ := idx_rows t
  show (((cfg2.win 0).blk t).view.read (Elt Ideal) (V c (Pipeline.arrRef spec2 0))) (ix2 p k) = _
  rw [View.read_apply]
  show V c main_arg0 _ = V c main_arg0 _
  congr 1
  funext a; apply Fin.ext
  match a with
  | ⟨0, _⟩ => show win2_0.index t (0 : Fin 2) * 1000 + 1 * p.val = n.val; rw [e0, hn]; omega
  | ⟨1, _⟩ => show win2_0.index t (1 : Fin 2) * 128 + 1 * k.val = k.val; rw [e1]; omega

/-- Row `p` of point `t`'s block of dq is row `1000 t + p` of dq. -/
theorem dqblk_apply (c : Dev nD) (t : Fin cfg2.N) (p : Fin 1000) (k : Fin 128) (n : Fin 20000)
    (hn : n.val = 1000 * t.val + p.val) : dqblk V c t (ix2 p k) = dqarr V c (ix2 n k) := by
  obtain ⟨-, -, e0, e1, -⟩ := idx_rows t
  show (((cfg2.win 1).blk t).view.read (Elt Ideal) (V c (Pipeline.arrRef spec2 1))) (ix2 p k) = _
  rw [View.read_apply]
  show V c main_v14 _ = V c main_v14 _
  congr 1
  funext a; apply Fin.ext
  match a with
  | ⟨0, _⟩ => show win2_1.index t (0 : Fin 2) * 1000 + 1 * p.val = n.val; rw [e0, hn]; omega
  | ⟨1, _⟩ => show win2_1.index t (1 : Fin 2) * 128 + 1 * k.val = k.val; rw [e1]; omega

/-- Row `p` of point `t`'s block of mu is row `1000 t + p` of mu. -/
theorem mublk_apply (c : Dev nD) (t : Fin cfg2.N) (p : Fin 1000) (v : Fin 3) (k : Fin 128) (n : Fin 20000)
    (hn : n.val = 1000 * t.val + p.val) : mublk V c t (ix3 p v k) = muarr V c (ix3 n v k) := by
  obtain ⟨-, -, -, -, e0, e1, e2, -⟩ := idx_rows t
  show (((cfg2.win 2).blk t).view.read (Elt Ideal) (V c (Pipeline.arrRef spec2 2))) (ix3 p v k) = _
  rw [View.read_apply]
  show V c main_arg1 _ = V c main_arg1 _
  congr 1
  funext a; apply Fin.ext
  match a with
  | ⟨0, _⟩ => show win2_2.index t (0 : Fin 3) * 1000 + 1 * p.val = n.val; rw [e0, hn]; omega
  | ⟨1, _⟩ => show win2_2.index t (1 : Fin 3) * 3 + 1 * v.val = v.val; rw [e1]; omega
  | ⟨2, _⟩ => show win2_2.index t (2 : Fin 3) * 128 + 1 * k.val = k.val; rw [e2]; omega

/-- Row `p` of point `t`'s block of dmu is row `1000 t + p` of dmu. -/
theorem dmublk_apply (c : Dev nD) (t : Fin cfg2.N) (p : Fin 1000) (v : Fin 3) (k : Fin 128) (n : Fin 20000)
    (hn : n.val = 1000 * t.val + p.val) : dmublk V c t (ix3 p v k) = dmuarr V c (ix3 n v k) := by
  obtain ⟨-, -, -, -, -, -, -, e0, e1, e2, -⟩ := idx_rows t
  show (((cfg2.win 3).blk t).view.read (Elt Ideal) (V c (Pipeline.arrRef spec2 3))) (ix3 p v k) = _
  rw [View.read_apply]
  show V c main_v17 _ = V c main_v17 _
  congr 1
  funext a; apply Fin.ext
  match a with
  | ⟨0, _⟩ => show win2_3.index t (0 : Fin 3) * 1000 + 1 * p.val = n.val; rw [e0, hn]; omega
  | ⟨1, _⟩ => show win2_3.index t (1 : Fin 3) * 3 + 1 * v.val = v.val; rw [e1]; omega
  | ⟨2, _⟩ => show win2_3.index t (2 : Fin 3) * 128 + 1 * k.val = k.val; rw [e2]; omega

/-- The weights' blocks are the weights: each window's one block is its whole array. -/
theorem wmixblk_apply (c : Dev nD) (t : Fin cfg2.N) (a : Fin 128) (d : Fin 256) :
    wmixblk V c t (ix2 a d) = wmixarr V c (ix2 a d) := by
  obtain ⟨e0, e1, -⟩ := idx_weights t
  show (((cfg2.win 4).blk t).view.read (Elt Ideal) (V c (Pipeline.arrRef spec2 4))) (ix2 a d) = _
  rw [View.read_apply]
  show V c main_arg12 _ = V c main_arg12 _
  congr 1
  funext b; apply Fin.ext
  match b with
  | ⟨0, _⟩ => show win2_4.index t (0 : Fin 2) * 128 + 1 * a.val = a.val; rw [e0]; omega
  | ⟨1, _⟩ => show win2_4.index t (1 : Fin 2) * 256 + 1 * d.val = d.val; rw [e1]; omega

theorem wm1blk_apply (c : Dev nD) (t : Fin cfg2.N) (d : Fin 256) (j : Fin 128) :
    wm1blk V c t (ix2 d j) = wm1arr V c (ix2 d j) := by
  obtain ⟨-, -, e0, e1, -⟩ := idx_weights t
  show (((cfg2.win 5).blk t).view.read (Elt Ideal) (V c (Pipeline.arrRef spec2 5))) (ix2 d j) = _
  rw [View.read_apply]
  show V c main_arg13 _ = V c main_arg13 _
  congr 1
  funext b; apply Fin.ext
  match b with
  | ⟨0, _⟩ => show win2_5.index t (0 : Fin 2) * 256 + 1 * d.val = d.val; rw [e0]; omega
  | ⟨1, _⟩ => show win2_5.index t (1 : Fin 2) * 128 + 1 * j.val = j.val; rw [e1]; omega

theorem bm1blk_apply (c : Dev nD) (t : Fin cfg2.N) (z : Fin 1) (j : Fin 128) :
    bm1blk V c t (ix2 z j) = bm1arr V c (ix2 z j) := by
  obtain ⟨-, -, -, -, e0, e1, -⟩ := idx_weights t
  show (((cfg2.win 6).blk t).view.read (Elt Ideal) (V c (Pipeline.arrRef spec2 6))) (ix2 z j) = _
  rw [View.read_apply]
  show V c main_v18 _ = V c main_v18 _
  congr 1
  funext b; apply Fin.ext
  match b with
  | ⟨0, _⟩ => show win2_6.index t (0 : Fin 2) * 1 + 1 * z.val = z.val; rw [e0]; omega
  | ⟨1, _⟩ => show win2_6.index t (1 : Fin 2) * 128 + 1 * j.val = j.val; rw [e1]; omega

theorem wm2blk_apply (c : Dev nD) (t : Fin cfg2.N) (j : Fin 128) (c' : Fin 384) :
    wm2blk V c t (ix2 j c') = wm2arr V c (ix2 j c') := by
  obtain ⟨-, -, -, -, -, -, e0, e1, -⟩ := idx_weights t
  show (((cfg2.win 7).blk t).view.read (Elt Ideal) (V c (Pipeline.arrRef spec2 7))) (ix2 j c') = _
  rw [View.read_apply]
  show V c main_arg15 _ = V c main_arg15 _
  congr 1
  funext b; apply Fin.ext
  match b with
  | ⟨0, _⟩ => show win2_7.index t (0 : Fin 2) * 128 + 1 * j.val = j.val; rw [e0]; omega
  | ⟨1, _⟩ => show win2_7.index t (1 : Fin 2) * 384 + 1 * c'.val = c'.val; rw [e1]; omega

theorem bm2blk_apply (c : Dev nD) (t : Fin cfg2.N) (z : Fin 1) (c' : Fin 384) :
    bm2blk V c t (ix2 z c') = bm2arr V c (ix2 z c') := by
  obtain ⟨-, -, -, -, -, -, -, -, e0, e1⟩ := idx_weights t
  show (((cfg2.win 8).blk t).view.read (Elt Ideal) (V c (Pipeline.arrRef spec2 8))) (ix2 z c') = _
  rw [View.read_apply]
  show V c main_v19 _ = V c main_v19 _
  congr 1
  funext b; apply Fin.ext
  match b with
  | ⟨0, _⟩ => show win2_8.index t (0 : Fin 2) * 1 + 1 * z.val = z.val; rw [e0]; omega
  | ⟨1, _⟩ => show win2_8.index t (1 : Fin 2) * 384 + 1 * c'.val = c'.val; rw [e1]; omega

/-! ## The two results over the whole arrays, and what a point writes back -/

/-- q_out over all nodes: the mixing of each node's own rows. -/
abbrev Gq (c : Dev nD) : Vec Ideal S20000x128 .f32 := fun i =>
  Spec.qoutRow (fun k' => qarr V c (ix2 (i 0) k')) (fun k' => dqarr V c (ix2 (i 0) k'))
    (fun v' k' => muarr V c (ix3 (i 0) v' k')) (fun v' k' => dmuarr V c (ix3 (i 0) v' k'))
    (fun a d => wmixarr V c (ix2 a d)) (fun d j => wm1arr V c (ix2 d j)) (fun j => bm1arr V c (ix2 0 j))
    (fun j c' => wm2arr V c (ix2 j c')) (fun c' => bm2arr V c (ix2 0 c')) (i 1)

/-- mu_out over all nodes. -/
abbrev Gmu (c : Dev nD) : Vec Ideal S20000x3x128 .f32 := fun i =>
  Spec.muoutRow (fun k' => qarr V c (ix2 (i 0) k')) (fun k' => dqarr V c (ix2 (i 0) k'))
    (fun v' k' => muarr V c (ix3 (i 0) v' k')) (fun v' k' => dmuarr V c (ix3 (i 0) v' k'))
    (fun a d => wmixarr V c (ix2 a d)) (fun d j => wm1arr V c (ix2 d j)) (fun j => bm1arr V c (ix2 0 j))
    (fun j c' => wm2arr V c (ix2 j c')) (fun c' => bm2arr V c (ix2 0 c')) (i 1) (i 2)

/-- Row `p` of what point `t` leaves in the q_out block is row `1000 t + p` of `Gq`. -/
theorem qout_at (c : Dev nD) (t : Fin cfg2.N) (p : Fin 1000) (k : Fin 128) (n : Fin 20000)
    (hn : n.val = 1000 * t.val + p.val) :
    out2_9 (qblk V c t) (dqblk V c t) (mublk V c t) (dmublk V c t) (wmixblk V c t) (wm1blk V c t) (bm1blk V c t)
        (wm2blk V c t) (bm2blk V c t) (ix2 p k) = Gq V c (ix2 n k) := by
  refine (BodyC.out_qout (qblk V c t) (dqblk V c t) (mublk V c t) (dmublk V c t) (wmixblk V c t) (wm1blk V c t)
    (bm1blk V c t) (wm2blk V c t) (bm2blk V c t) p k).trans ?_
  show Spec.qoutRow _ _ _ _ _ _ _ _ _ k = Spec.qoutRow _ _ _ _ _ _ _ _ _ k
  congr 1
  · funext k'; exact qblk_apply V c t p k' n hn
  · funext k'; exact dqblk_apply V c t p k' n hn
  · funext v' k'; exact mublk_apply V c t p v' k' n hn
  · funext v' k'; exact dmublk_apply V c t p v' k' n hn
  · funext a d; exact wmixblk_apply V c t a d
  · funext d j; exact wm1blk_apply V c t d j
  · funext j; exact bm1blk_apply V c t 0 j
  · funext j c'; exact wm2blk_apply V c t j c'
  · funext c'; exact bm2blk_apply V c t 0 c'

/-- Row `p`, direction `v` of what point `t` leaves in the mu_out block is row `1000 t + p` of `Gmu`. -/
theorem muout_at (c : Dev nD) (t : Fin cfg2.N) (p : Fin 1000) (v : Fin 3) (k : Fin 128) (n : Fin 20000)
    (hn : n.val = 1000 * t.val + p.val) :
    out2_10 (qblk V c t) (dqblk V c t) (mublk V c t) (dmublk V c t) (wmixblk V c t) (wm1blk V c t) (bm1blk V c t)
        (wm2blk V c t) (bm2blk V c t) (ix3 p v k) = Gmu V c (ix3 n v k) := by
  refine (BodyCmu.out_muout (qblk V c t) (dqblk V c t) (mublk V c t) (dmublk V c t) (wmixblk V c t) (wm1blk V c t)
    (bm1blk V c t) (wm2blk V c t) (bm2blk V c t) p v k).trans ?_
  show Spec.muoutRow _ _ _ _ _ _ _ _ _ v k = Spec.muoutRow _ _ _ _ _ _ _ _ _ v k
  congr 1
  · funext k'; exact qblk_apply V c t p k' n hn
  · funext k'; exact dqblk_apply V c t p k' n hn
  · funext v' k'; exact mublk_apply V c t p v' k' n hn
  · funext v' k'; exact dmublk_apply V c t p v' k' n hn
  · funext a d; exact wmixblk_apply V c t a d
  · funext d j; exact wm1blk_apply V c t d j
  · funext j; exact bm1blk_apply V c t 0 j
  · funext j c'; exact wm2blk_apply V c t j c'
  · funext c'; exact bm2blk_apply V c t 0 c'

/-- A point of the grid is one of twenty. -/
theorem point_lt (t : Fin cfg2.N) : t.val < 20 := lt_of_lt_of_eq t.isLt grid_points

/-- WHAT POINT `t` WRITES BACK into q_out is block `t` of `Gq`. -/
theorem flushed_qout (c : Dev nD) (t : Fin cfg2.N) :
    (dat2 V c).flushed 9 t = ((cfg2.win 9).blk t).view.read (Elt Ideal) (Gq V c) := by
  show (cfg2.win 9).cut (grid2.coords t) ((dat2 V c).after 9 t) = _
  rw [after2_9]
  obtain ⟨-, -, -, -, -, -, -, -, -, -, e0, e1, -⟩ := idx_rows t
  have ht := point_lt t
  refine funext fun j => ?_
  rw [View.read_apply]
  have hj0 : (j 0).val < 1000 := (j 0).isLt
  have hj1 : (j 1).val < 128 := (j 1).isLt
  have hy : (cfg2.win 9).xinj (grid2.coords t) j = ix2 (⟨(j 0).val, hj0⟩ : Fin 1000) (⟨(j 1).val, hj1⟩ : Fin 128) :=
    funext fun a => match a with | ⟨0, _⟩ => rfl | ⟨1, _⟩ => rfl
  have hi : ((cfg2.win 9).blk t).view.emb j
      = ix2 (⟨1000 * t.val + (j 0).val, by omega⟩ : Fin 20000) (⟨(j 1).val, hj1⟩ : Fin 128) := by
    funext a; apply Fin.ext
    match a with
    | ⟨0, _⟩ => show win2_9.index t (0 : Fin 2) * 1000 + 1 * (j 0).val = 1000 * t.val + (j 0).val; rw [e0]; omega
    | ⟨1, _⟩ => show win2_9.index t (1 : Fin 2) * 128 + 1 * (j 1).val = (j 1).val; rw [e1]; omega
  show out2_9 (qblk V c t) (dqblk V c t) (mublk V c t) (dmublk V c t) (wmixblk V c t) (wm1blk V c t) (bm1blk V c t)
      (wm2blk V c t) (bm2blk V c t) ((cfg2.win 9).xinj (grid2.coords t) j) = Gq V c (((cfg2.win 9).blk t).view.emb j)
  rw [hy, hi]
  exact qout_at V c t _ _ _ rfl

/-- WHAT POINT `t` WRITES BACK into mu_out is block `t` of `Gmu`. -/
theorem flushed_muout (c : Dev nD) (t : Fin cfg2.N) :
    (dat2 V c).flushed 10 t = ((cfg2.win 10).blk t).view.read (Elt Ideal) (Gmu V c) := by
  show (cfg2.win 10).cut (grid2.coords t) ((dat2 V c).after 10 t) = _
  rw [after2_10]
  obtain ⟨-, -, -, -, -, -, -, -, -, -, -, -, e0, e1, e2⟩ := idx_rows t
  have ht := point_lt t
  refine funext fun j => ?_
  rw [View.read_apply]
  have hj0 : (j 0).val < 1000 := (j 0).isLt
  have hj1 : (j 1).val < 3 := (j 1).isLt
  have hj2 : (j 2).val < 128 := (j 2).isLt
  have hy : (cfg2.win 10).xinj (grid2.coords t) j
      = ix3 (⟨(j 0).val, hj0⟩ : Fin 1000) (⟨(j 1).val, hj1⟩ : Fin 3) (⟨(j 2).val, hj2⟩ : Fin 128) :=
    funext fun a => match a with | ⟨0, _⟩ => rfl | ⟨1, _⟩ => rfl | ⟨2, _⟩ => rfl
  have hi : ((cfg2.win 10).blk t).view.emb j
      = ix3 (⟨1000 * t.val + (j 0).val, by omega⟩ : Fin 20000) (⟨(j 1).val, hj1⟩ : Fin 3) (⟨(j 2).val, hj2⟩ : Fin 128) := by
    funext a; apply Fin.ext
    match a with
    | ⟨0, _⟩ => show win2_10.index t (0 : Fin 3) * 1000 + 1 * (j 0).val = 1000 * t.val + (j 0).val; rw [e0]; omega
    | ⟨1, _⟩ => show win2_10.index t (1 : Fin 3) * 3 + 1 * (j 1).val = (j 1).val; rw [e1]; omega
    | ⟨2, _⟩ => show win2_10.index t (2 : Fin 3) * 128 + 1 * (j 2).val = (j 2).val; rw [e2]; omega
  show out2_10 (qblk V c t) (dqblk V c t) (mublk V c t) (dmublk V c t) (wmixblk V c t) (wm1blk V c t) (bm1blk V c t)
      (wm2blk V c t) (bm2blk V c t) ((cfg2.win 10).xinj (grid2.coords t) j) = Gmu V c (((cfg2.win 10).blk t).view.emb j)
  rw [hy, hi]
  exact muout_at V c t _ _ _ _ rfl

/-! ## The cover: row `r` lies in the block of point `r / 1000` -/

/-- An index of q_out is in point `t`'s block iff each coordinate is in the block's range on its axis. -/
theorem mem_blk_q (t : Fin cfg2.N) (i : S20000x128.Idx) :
    i ∈ ((cfg2.win 9).blk t).view.set ↔ ∀ a : Fin 2, win2_9.index t a * S1000x128.size a ≤ (i a).val
      ∧ (i a).val < win2_9.index t a * S1000x128.size a + S1000x128.size a := by
  show i ∈ ((View.whole main_v20_0).slice (win2_9.rect t)).set ↔ _
  rw [View.set_slice_whole, Rect.mem_set_unit]
  exact Iff.rfl

/-- An index of mu_out is in point `t`'s block iff each coordinate is in the block's range on its axis. -/
theorem mem_blk_mu (t : Fin cfg2.N) (i : S20000x3x128.Idx) :
    i ∈ ((cfg2.win 10).blk t).view.set ↔ ∀ a : Fin 3, win2_10.index t a * S1000x3x128.size a ≤ (i a).val
      ∧ (i a).val < win2_10.index t a * S1000x3x128.size a + S1000x3x128.size a := by
  show i ∈ ((View.whole main_v20_1).slice (win2_10.rect t)).set ↔ _
  rw [View.set_slice_whole, Rect.mem_set_unit]
  exact Iff.rfl

/-- Every index of q_out is in some point's block. -/
theorem cover_q (i : S20000x128.Idx) :
    ∃ t : Fin cfg2.N, (cfg2.win 9).flush t = true ∧ i ∈ ((cfg2.win 9).blk t).view.set := by
  have hi0 : (i 0).val < 20000 := (i 0).isLt
  have hi1 : (i 1).val < 128 := (i 1).isLt
  obtain ⟨t, ht⟩ : ∃ t : Fin cfg2.N, t.val = (i 0).val / 1000 :=
    ⟨⟨(i 0).val / 1000, by rw [grid_points]; omega⟩, rfl⟩
  obtain ⟨-, -, -, -, -, -, -, -, -, -, e0, e1, -⟩ := idx_rows t
  refine ⟨t, flush2_9 t, ?_⟩
  rw [mem_blk_q]
  intro a
  match a with
  | ⟨0, _⟩ =>
    show win2_9.index t (0 : Fin 2) * 1000 ≤ (i 0).val ∧ (i 0).val < win2_9.index t (0 : Fin 2) * 1000 + 1000
    rw [e0, ht]; omega
  | ⟨1, _⟩ =>
    show win2_9.index t (1 : Fin 2) * 128 ≤ (i 1).val ∧ (i 1).val < win2_9.index t (1 : Fin 2) * 128 + 128
    rw [e1]; omega

/-- Every index of mu_out is in some point's block. -/
theorem cover_mu (i : S20000x3x128.Idx) :
    ∃ t : Fin cfg2.N, (cfg2.win 10).flush t = true ∧ i ∈ ((cfg2.win 10).blk t).view.set := by
  have hi0 : (i 0).val < 20000 := (i 0).isLt
  have hi1 : (i 1).val < 3 := (i 1).isLt
  have hi2 : (i 2).val < 128 := (i 2).isLt
  obtain ⟨t, ht⟩ : ∃ t : Fin cfg2.N, t.val = (i 0).val / 1000 :=
    ⟨⟨(i 0).val / 1000, by rw [grid_points]; omega⟩, rfl⟩
  obtain ⟨-, -, -, -, -, -, -, -, -, -, -, -, e0, e1, e2⟩ := idx_rows t
  refine ⟨t, flush2_10 t, ?_⟩
  rw [mem_blk_mu]
  intro a
  match a with
  | ⟨0, _⟩ =>
    show win2_10.index t (0 : Fin 3) * 1000 ≤ (i 0).val ∧ (i 0).val < win2_10.index t (0 : Fin 3) * 1000 + 1000
    rw [e0, ht]; omega
  | ⟨1, _⟩ =>
    show win2_10.index t (1 : Fin 3) * 3 ≤ (i 1).val ∧ (i 1).val < win2_10.index t (1 : Fin 3) * 3 + 3
    rw [e1]; omega
  | ⟨2, _⟩ =>
    show win2_10.index t (2 : Fin 3) * 128 ≤ (i 2).val ∧ (i 2).val < win2_10.index t (2 : Fin 3) * 128 + 128
    rw [e2]; omega

/-! ## The arrays after the region -/

/-- q_out ends holding `Gq`: the twenty blocks tile it. -/
theorem final_q (c : Dev nD) : (dat2 V c).arrAt 9 cfg2.N = Gq V c :=
  (dat2 V c).arrAt_eq_of_cover 9 (Gq V c) (fun t _ => flushed_qout V c t) cover_q

/-- mu_out ends holding `Gmu`. -/
theorem final_mu (c : Dev nD) : (dat2 V c).arrAt 10 cfg2.N = Gmu V c :=
  (dat2 V c).arrAt_eq_of_cover 10 (Gmu V c) (fun t _ => flushed_muout V c t) cover_mu

/-- The q_out array after region C, at node `n`, column `k`. -/
theorem arr_qout (c : Dev nD) (n : Fin 20000) (k : Fin 128) :
    ((dat2 V c).arrAt 9 cfg2.N : S20000x128.Idx → EReal) (ix2 n k)
      = Spec.qoutRow (fun k' => (V c main_arg0 : S20000x128.Idx → EReal) (ix2 n k')) (fun k' => (V c main_v14 : S20000x128.Idx → EReal) (ix2 n k'))
          (fun v' k' => (V c main_arg1 : S20000x3x128.Idx → EReal) (ix3 n v' k')) (fun v' k' => (V c main_v17 : S20000x3x128.Idx → EReal) (ix3 n v' k'))
          (fun a d => (V c main_arg12 : S128x256.Idx → EReal) (ix2 a d)) (fun d j => (V c main_arg13 : S256x128.Idx → EReal) (ix2 d j))
          (fun j => (V c main_v18 : S1x128.Idx → EReal) (ix2 0 j)) (fun j c' => (V c main_arg15 : S128x384.Idx → EReal) (ix2 j c'))
          (fun c' => (V c main_v19 : S1x384.Idx → EReal) (ix2 0 c')) k := by
  exact congrFun (final_q V c) (ix2 n k)

/-- The mu_out array after region C, at node `n`, direction `v`, column `k`. -/
theorem arr_muout (c : Dev nD) (n : Fin 20000) (v : Fin 3) (k : Fin 128) :
    ((dat2 V c).arrAt 10 cfg2.N : S20000x3x128.Idx → EReal) (ix3 n v k)
      = Spec.muoutRow (fun k' => (V c main_arg0 : S20000x128.Idx → EReal) (ix2 n k')) (fun k' => (V c main_v14 : S20000x128.Idx → EReal) (ix2 n k'))
          (fun v' k' => (V c main_arg1 : S20000x3x128.Idx → EReal) (ix3 n v' k')) (fun v' k' => (V c main_v17 : S20000x3x128.Idx → EReal) (ix3 n v' k'))
          (fun a d => (V c main_arg12 : S128x256.Idx → EReal) (ix2 a d)) (fun d j => (V c main_arg13 : S256x128.Idx → EReal) (ix2 d j))
          (fun j => (V c main_v18 : S1x128.Idx → EReal) (ix2 0 j)) (fun j c' => (V c main_arg15 : S128x384.Idx → EReal) (ix2 j c'))
          (fun c' => (V c main_v19 : S1x384.Idx → EReal) (ix2 0 c')) v k := by
  exact congrFun (final_mu V c) (ix3 n v k)

end Cert.KernelIdeal.CoverC

end
-- ==== Proof.PreIdx.lean ====
/-
  The precondition read back: every sender index names a node, and then the filled take's row mask is 1 on every edge.
-/
import proofs.«417512_j54400055771905_1_alg».proof.Pre_finite_inputs
import proofs.«417512_j54400055771905_1_alg».proof.Proof.Gen.Pre_finite_inputs
import proofs.«417512_j54400055771905_1_alg».proof.Proof.Arr
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.PreIdx

open Cert.KernelIdeal Cert.KernelIdeal.Gen Idealize.ShloMosaic Idealize.ShloMosaic.ValueIdx

/-- The scalar shape has one index. -/
instance subsingleton_scalar_idx : Subsingleton Cert.Pre_finite_inputs.S_.Idx := ⟨fun a b => funext fun d => d.elim0⟩

/-- The printed precondition's last two conjuncts say 0 ≤ idx_j[e] and idx_j[e] < 20000 at every edge. -/
theorem inRange_of_pre (a0 : FVec Ideal S20000x128 .f32) (a1 : FVec Ideal S20000x3x128 .f32) (a2 : IVec S2x320000 32) (a3 : FVec Ideal S320000 .f32) (a4 : FVec Ideal S320000x3 .f32) (a5 : FVec Ideal S320000x20 .f32) (a6 : FVec Ideal S20x384 .f32) (a7 : FVec Ideal S384 .f32) (a8 : FVec Ideal S128x128 .f32) (a9 : FVec Ideal S128 .f32) (a10 : FVec Ideal S128x384 .f32) (a11 : FVec Ideal S384 .f32) (a12 : FVec Ideal S128x256 .f32) (a13 : FVec Ideal S256x128 .f32) (a14 : FVec Ideal S128 .f32) (a15 : FVec Ideal S128x384 .f32) (a16 : FVec Ideal S384 .f32)
    (h : Cert.Pre_finite_inputs.fn (F := Ideal) a0 a1 a2 a3 a4 a5 a6 a7 a8 a9 a10 a11 a12 a13 a14 a15 a16 = fun _ => 1#1) : Cert.Arr.InRange a2 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h1, hlt⟩ := IntOp.andi_eq_one.1 h0
  obtain ⟨-, hge⟩ := IntOp.andi_eq_one.1 h1
  intro i
  have ege := Host.reduce_andi_all _ _ _ _ _ hge i
  have elt := Host.reduce_andi_all _ _ _ _ _ hlt i
  exact ⟨ege, elt⟩

/-- A word in [0, 20000) signed is below 20000 unsigned. -/
theorem toNat_lt (w : BitVec 32) (h0 : IntOp.cmpi .sge w 0#32 = 1#1) (h1 : IntOp.cmpi .slt w 20000#32 = 1#1) :
    w.toNat < 20000 := by
  unfold IntOp.cmpi at h0 h1
  rw [StableHlo.Predicate.ofBool_eq_one_iff] at h0 h1
  simp only [BitVec.slt, BitVec.sle, decide_eq_true_eq] at h0 h1
  have hw := w.isLt
  have z : (0#32 : BitVec 32).toInt = 0 := by decide
  have t : (20000#32 : BitVec 32).toInt = 20000 := by decide
  rw [z, BitVec.toInt_eq_toNat_cond] at h0
  rw [t, BitVec.toInt_eq_toNat_cond] at h1
  split at h1 <;> split at h0 <;> omega

/-- On a word in [0, 20000) the wrap by 20000 is the identity, and the word lies in [0, 19999]. -/
theorem word_ok (w : BitVec 32) (h0 : IntOp.cmpi .sge w 0#32 = 1#1) (h1 : IntOp.cmpi .slt w 20000#32 = 1#1) :
    IntOp.andi (IntOp.cmpi .sge (Scalar.select (IntOp.cmpi .slt w 0#32) (IntOp.addi w 20000#32) w) 0#32)
      (IntOp.cmpi .sle (Scalar.select (IntOp.cmpi .slt w 0#32) (IntOp.addi w 20000#32) w) 19999#32) = 1#1 := by
  have hw := toNat_lt w h0 h1
  have hw31 : w.toNat < 2 ^ 31 := by omega
  have z31 : (0#32 : BitVec 32).toNat < 2 ^ 31 := by decide
  have n31 : (19999#32 : BitVec 32).toNat < 2 ^ 31 := by decide
  have hneg : IntOp.cmpi .slt w 0#32 = 0#1 := by
    apply ValueIdx.eq_zero_of_ne_one
    intro hc
    rw [StableHlo.Predicate.slt_iff_toNat hw31 z31] at hc
    have : (0#32 : BitVec 32).toNat = 0 := by decide
    omega
  rw [hneg, ValueIdx.select_zero, h0]
  have hle : IntOp.cmpi .sle w 19999#32 = 1#1 := by
    rw [StableHlo.Predicate.sle_iff_toNat hw31 n31]
    have : (19999#32 : BitVec 32).toNat = 19999 := by decide
    omega
  rw [hle]
  decide

/-- A fold by and from 1 over operands that are all 1 is 1. -/
theorem foldl_andi_one {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a]
    have e : IntOp.andi 1#1 1#1 = 1#1 := by decide
    rw [e]
    exact ih

/-- With every sender index in [0, 20000) the wrap is the identity and the take's row mask is 1 everywhere. -/
theorem mask_one (e : IVec S2x320000 32) (h : Cert.Arr.InRange e) (i : S320000.Idx) :
    Cert.Arr.inbMask (Cert.Arr.wrapCol (Cert.Arr.idxj e)) i = 1#1 := by
  unfold Cert.Arr.inbMask
  rw [Host.reduce_eq_foldl]
  refine foldl_andi_one _ (fun k => ?_) _
  exact word_ok _ (h _).1 (h _).2

end Cert.PreIdx

end
-- ==== Proof.Glue.lean ====
/-
  The kernel program's host side at Ideal: what each region finds in its window arrays, read back through the host stretches to the launch memory and to the region before it.
-/
import proofs.«417512_j54400055771905_1_alg».proof.Proof.Gen.KernelIdeal.Frame
import proofs.«417512_j54400055771905_1_alg».proof.Proof.Arr
import proofs.«417512_j54400055771905_1_alg».proof.Proof.PreIdx
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Closes "no operation of the stretch writes this buffer": each operation's written buffer is another reference. -/
local macro "no_write" : tactic =>
  `(tactic| (refine List.forall_iff_forall_mem.mp ?_
             simp only [hostOps0, hostOps1, hostOps1_1, hostOps1_2, hostOps2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## A buffer no operation of a stretch writes holds after the stretch what it held before -/

theorem keep0 (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  (StableHlo.after_of_forall_not_mem _ _ h).trans rfl

theorem keep1 (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem _ _ h

theorem keep1_1 (c : Dev nD) (b : Ref sig .tc)
    (h : ∀ op ∈ (hostOps1_1 : List (HloOp τ sig (Elt Ideal))), Proc.devRef .tc b ∉ op.writes) :
    W4 m ρ c (Proc.devRef .tc b) = W3 m ρ c (Proc.devRef .tc b) :=
  StableHlo.after_of_forall_not_mem _ _ h

theorem keep1_2 (c : Dev nD) (b : Ref sig .tc)
    (h : ∀ op ∈ (hostOps1_2 : List (HloOp τ sig (Elt Ideal))), Proc.devRef .tc b ∉ op.writes) :
    W5 m ρ c (Proc.devRef .tc b) = W4 m ρ c (Proc.devRef .tc b) :=
  StableHlo.after_of_forall_not_mem _ _ h

theorem keep2 (c : Dev nD) (b : Ref sig .tc)
    (h : ∀ op ∈ (hostOps2 : List (HloOp τ sig (Elt Ideal))), Proc.devRef .tc b ∉ op.writes) :
    W7 m ρ c (Proc.devRef .tc b) = W6 m ρ c (Proc.devRef .tc b) :=
  StableHlo.after_of_forall_not_mem _ _ h

/-- Through the three stretches before region B. -/
theorem keepB (c : Dev nD) (b : Ref sig .tc)
    (h12 : ∀ op ∈ (hostOps1_2 : List (HloOp τ sig (Elt Ideal))), Proc.devRef .tc b ∉ op.writes)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes) :
    W5 m ρ c (Proc.devRef .tc b) = W2 m ρ c (Proc.devRef .tc b) :=
  (keep1_2 m ρ c b h12).trans ((keep1_1 m ρ c b h11).trans (keep1 m ρ c b h1))

/-- An argument region A does not window, at region A's exit. -/
theorem arg2_of_ne (c : Dev nD) (b : Ref sig .tc) (hne : ∀ w, Pipeline.arrRef spec0 w ≠ b)
    (h0 : ∀ op ∈ (hostOps0 : List (HloOp τ sig (Elt Ideal))), Proc.devRef .tc b ∉ op.writes) :
    W2 m ρ c (Proc.devRef .tc b) = m ((c : Thread nD τ).loc b) :=
  (W2_of_ne m ρ c b hne).trans (keep0 m ρ c b h0)

/-- Region A's first input window is the first argument, which it leaves as it found it. -/
theorem arg2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (keep0 m ρ c main_arg0 (by no_write))

/-! ## The edge list's two rows, as the first stretch leaves them -/

theorem W1_v1 (c : Dev nD) :
    (W1 m ρ c (Proc.devRef .tc main_v1) : IVec S320000 32) = Arr.idxi (m ((c : Thread nD τ).loc main_arg2)) := by
  dsimp only [W1, hostOps0]; after_results; rfl

theorem W1_v3 (c : Dev nD) :
    (W1 m ρ c (Proc.devRef .tc main_v3) : IVec S320000 32) = Arr.idxj (m ((c : Thread nD τ).loc main_arg2)) := by
  dsimp only [W1, hostOps0]; after_results; rfl

theorem W2_v3 (c : Dev nD) :
    (W2 m ρ c (Proc.devRef .tc main_v3) : IVec S320000 32) = Arr.idxj (m ((c : Thread nD τ).loc main_arg2)) :=
  (W2_of_ne m ρ c main_v3 (by decide)).trans (W1_v3 m ρ c)

theorem W6_v1 (c : Dev nD) :
    (W6 m ρ c (Proc.devRef .tc main_v1) : IVec S320000 32) = Arr.idxi (m ((c : Thread nD τ).loc main_arg2)) :=
  (W6_of_ne m ρ c main_v1 (by decide)).trans
    ((keepB m ρ c main_v1 (by no_write) (by no_write) (by no_write)).trans
      ((W2_of_ne m ρ c main_v1 (by decide)).trans (W1_v1 m ρ c)))

/-! ## What each later stretch leaves in the buffers it writes, from any contents before it -/

set_option maxHeartbeats 1000000 in
/-- The first filled take: the row mask broadcast, the gather, the fill. -/
theorem take0_eq (V : Valuation τ sig (Elt Ideal)) (j : IVec S320000 32) (x : FVec Ideal S20000x384 .f32)
    (hj : V (Proc.devRef .tc main_v3) = j) (hx : V (Proc.devRef .tc main_v6) = x) :
    (StableHlo.after hostOps1 V (Proc.devRef .tc main_v7) : S320000x384.Idx → EReal)
      = select (broadcastInDim S320000x384 ![0] bcast_S320000_S320000x384_0 (Arr.inbMask (Arr.wrapCol j)))
          (Host.gather gather_S20000x384_S320000x1_S320000x384_1_0_n_n_0_1_1384 x (Arr.wrapCol j))
          (broadcastInDim S320000x384 ![] bcast_S_S320000x384 (constant (F := Ideal) S_ .f32 0x7FC00000#32)) := by
  subst hj hx
  dsimp only [hostOps1]; after_results
  simp only [TRef.ofBuf, TRef.toBuf, cast_eq]
  rfl

set_option maxHeartbeats 1000000 in
/-- The second filled take. -/
theorem take1_eq (V : Valuation τ sig (Elt Ideal)) (j : IVec S320000 32) (x : FVec Ideal S20000x3x128 .f32)
    (hj : V (Proc.devRef .tc main_v3) = j) (hx : V (Proc.devRef .tc main_arg1) = x) :
    (StableHlo.after hostOps1_1 V (Proc.devRef .tc main_v8) : S320000x3x128.Idx → EReal)
      = select (broadcastInDim S320000x3x128 ![0] bcast_S320000_S320000x3x128_0 (Arr.inbMask (Arr.wrapCol j)))
          (Host.gather gather_S20000x3x128_S320000x1_S320000x3x128_12_0_n_n_0_1_13128 x (Arr.wrapCol j))
          (broadcastInDim S320000x3x128 ![] bcast_S_S320000x3x128 (constant (F := Ideal) S_ .f32 0x7FC00000#32)) := by
  subst hj hx
  dsimp only [hostOps1_1]; after_results
  simp only [TRef.ofBuf, TRef.toBuf, cast_eq]
  rfl

/-- The two reshapes before region B. -/
theorem resh_v9 (V : Valuation τ sig (Elt Ideal)) (a : FVec Ideal S320000 .f32) (ha : V (Proc.devRef .tc main_arg3) = a) :
    (StableHlo.after hostOps1_2 V (Proc.devRef .tc main_v9) : S320000x1.Idx → EReal)
      = shapeCast S320000x1 a shapeCasts_S320000_S320000x1 := by
  subst ha
  dsimp only [hostOps1_2]; after_results; rfl

theorem resh_v10 (V : Valuation τ sig (Elt Ideal)) (a : FVec Ideal S384 .f32) (ha : V (Proc.devRef .tc main_arg7) = a) :
    (StableHlo.after hostOps1_2 V (Proc.devRef .tc main_v10) : S1x384.Idx → EReal)
      = shapeCast S1x384 a shapeCasts_S384_S1x384 := by
  subst ha
  dsimp only [hostOps1_2]; after_results; rfl

/-- The stretch before region C: the two segment sums from zero, the two reshapes. -/
theorem seg0_eq (V : Valuation τ sig (Elt Ideal)) (i : IVec S320000 32) (u : FVec Ideal S320000x128 .f32)
    (hi : V (Proc.devRef .tc main_v1) = i) (hu : V (Proc.devRef .tc main_v11_0) = u) :
    (StableHlo.after hostOps2 V (Proc.devRef .tc main_v14) : S20000x128.Idx → EReal)
      = Host.scatterAdd scatter_S20000x128_S320000x1_S320000x128_1_0_0_1
          (broadcastInDim S20000x128 ![] bcast_S_S20000x128 (constant (F := Ideal) S_ .f32 0x00000000#32))
          (broadcastInDim S320000x1 ![0] bcast_S320000_S320000x1_0 i) u := by
  subst hi hu
  dsimp only [hostOps2]; after_results

theorem seg1_eq (V : Valuation τ sig (Elt Ideal)) (i : IVec S320000 32) (u : FVec Ideal S320000x3x128 .f32)
    (hi : V (Proc.devRef .tc main_v1) = i) (hu : V (Proc.devRef .tc main_v11_1) = u) :
    (StableHlo.after hostOps2 V (Proc.devRef .tc main_v17) : S20000x3x128.Idx → EReal)
      = Host.scatterAdd scatter_S20000x3x128_S320000x1_S320000x3x128_12_0_0_1
          (broadcastInDim S20000x3x128 ![] bcast_S_S20000x3x128 (constant (F := Ideal) S_ .f32 0x00000000#32))
          (broadcastInDim S320000x1 ![0] bcast_S320000_S320000x1_0 i) u := by
  subst hi hu
  dsimp only [hostOps2]; after_results

theorem resh_v18 (V : Valuation τ sig (Elt Ideal)) (a : FVec Ideal S128 .f32) (ha : V (Proc.devRef .tc main_arg14) = a) :
    (StableHlo.after hostOps2 V (Proc.devRef .tc main_v18) : S1x128.Idx → EReal)
      = shapeCast S1x128 a shapeCasts_S128_S1x128 := by
  subst ha
  dsimp only [hostOps2]; after_results; rfl

theorem resh_v19 (V : Valuation τ sig (Elt Ideal)) (a : FVec Ideal S384 .f32) (ha : V (Proc.devRef .tc main_arg16) = a) :
    (StableHlo.after hostOps2 V (Proc.devRef .tc main_v19) : S1x384.Idx → EReal)
      = shapeCast S1x384 a shapeCasts_S384_S1x384 := by
  subst ha
  dsimp only [hostOps2]; after_results; rfl

/-- With every mask bit 1 the first filled take is its gather. -/
theorem take0_fill (x : FVec Ideal S20000x384 .f32) (e : IVec S2x320000 32) (hin : Arr.InRange e) :
    select (broadcastInDim S320000x384 ![0] bcast_S320000_S320000x384_0 (Arr.inbMask (Arr.wrapCol (Arr.idxj e))))
        (Host.gather gather_S20000x384_S320000x1_S320000x384_1_0_n_n_0_1_1384 x (Arr.wrapCol (Arr.idxj e)))
        (broadcastInDim S320000x384 ![] bcast_S_S320000x384 (constant (F := Ideal) S_ .f32 0x7FC00000#32))
      = Arr.xjA x e := by
  funext i
  rw [ValueIdx.select_apply,
    broadcastInDim_apply _ bcast_S320000_S320000x384_0 (Arr.inbMask (Arr.wrapCol (Arr.idxj e))) i (ix1 (i 0)) (fun a => by
      have ha : a = 0 := Subsingleton.elim _ _
      subst ha; rfl),
    PreIdx.mask_one e hin, ValueIdx.select_one]
  rfl

/-- With every mask bit 1 the second filled take is its gather. -/
theorem take1_fill (x : FVec Ideal S20000x3x128 .f32) (e : IVec S2x320000 32) (hin : Arr.InRange e) :
    select (broadcastInDim S320000x3x128 ![0] bcast_S320000_S320000x3x128_0 (Arr.inbMask (Arr.wrapCol (Arr.idxj e))))
        (Host.gather gather_S20000x3x128_S320000x1_S320000x3x128_12_0_n_n_0_1_13128 x (Arr.wrapCol (Arr.idxj e)))
        (broadcastInDim S320000x3x128 ![] bcast_S_S320000x3x128 (constant (F := Ideal) S_ .f32 0x7FC00000#32))
      = Arr.mujA x e := by
  funext i
  rw [ValueIdx.select_apply,
    broadcastInDim_apply _ bcast_S320000_S320000x3x128_0 (Arr.inbMask (Arr.wrapCol (Arr.idxj e))) i (ix1 (i 0)) (fun a => by
      have ha : a = 0 := Subsingleton.elim _ _
      subst ha; rfl),
    PreIdx.mask_one e hin, ValueIdx.select_one]
  rfl

/-! ## Region A's entry: the arguments as launched, the two biases reshaped to one row -/

theorem V1_arg0 (c : Dev nD) : V1 m ρ c main_arg0 = m ((c : Thread nD τ).loc main_arg0) :=
  keep0 m ρ c main_arg0 (by no_write)
theorem V1_arg8 (c : Dev nD) : V1 m ρ c main_arg8 = m ((c : Thread nD τ).loc main_arg8) :=
  keep0 m ρ c main_arg8 (by no_write)
theorem V1_arg10 (c : Dev nD) : V1 m ρ c main_arg10 = m ((c : Thread nD τ).loc main_arg10) :=
  keep0 m ρ c main_arg10 (by no_write)

theorem V1_v4 (c : Dev nD) :
    (V1 m ρ c main_v4 : S1x128.Idx → EReal) = shapeCast S1x128 (m ((c : Thread nD τ).loc main_arg9)) shapeCasts_S128_S1x128 := by
  dsimp only [V1, W1, hostOps0]; after_results; rfl
theorem V1_v5 (c : Dev nD) :
    (V1 m ρ c main_v5 : S1x384.Idx → EReal) = shapeCast S1x384 (m ((c : Thread nD τ).loc main_arg11)) shapeCasts_S384_S1x384 := by
  dsimp only [V1, W1, hostOps0]; after_results; rfl

/-- Region A's result array, where the first take reads it. -/
theorem W2_v6 (c : Dev nD) : W2 m ρ c (Proc.devRef .tc main_v6) = (dat0 (V1 m ρ) c).arrAt 5 cfg0.N :=
  W2_arr m ρ c 5

/-! ## Region B's entry: the two takes (their NaN fill never chosen when every sender index names a node), the edge
    lengths as a column, the filter bias as a row -/

theorem V5_arg5 (c : Dev nD) : V5 m ρ c main_arg5 = m ((c : Thread nD τ).loc main_arg5) :=
  (keepB m ρ c main_arg5 (by no_write) (by no_write) (by no_write)).trans
    (arg2_of_ne m ρ c main_arg5 (by decide) (by no_write))
theorem V5_arg4 (c : Dev nD) : V5 m ρ c main_arg4 = m ((c : Thread nD τ).loc main_arg4) :=
  (keepB m ρ c main_arg4 (by no_write) (by no_write) (by no_write)).trans
    (arg2_of_ne m ρ c main_arg4 (by decide) (by no_write))
theorem V5_arg6 (c : Dev nD) : V5 m ρ c main_arg6 = m ((c : Thread nD τ).loc main_arg6) :=
  (keepB m ρ c main_arg6 (by no_write) (by no_write) (by no_write)).trans
    (arg2_of_ne m ρ c main_arg6 (by decide) (by no_write))

theorem V5_v9 (c : Dev nD) :
    (V5 m ρ c main_v9 : S320000x1.Idx → EReal) = shapeCast S320000x1 (m ((c : Thread nD τ).loc main_arg3)) shapeCasts_S320000_S320000x1 :=
  resh_v9 (W4 m ρ c) _
    ((keep1_1 m ρ c main_arg3 (by no_write)).trans ((keep1 m ρ c main_arg3 (by no_write)).trans
      (arg2_of_ne m ρ c main_arg3 (by decide) (by no_write))))
theorem V5_v10 (c : Dev nD) :
    (V5 m ρ c main_v10 : S1x384.Idx → EReal) = shapeCast S1x384 (m ((c : Thread nD τ).loc main_arg7)) shapeCasts_S384_S1x384 :=
  resh_v10 (W4 m ρ c) _
    ((keep1_1 m ρ c main_arg7 (by no_write)).trans ((keep1 m ρ c main_arg7 (by no_write)).trans
      (arg2_of_ne m ρ c main_arg7 (by decide) (by no_write))))
theorem V5_v7 (c : Dev nD) (hin : Arr.InRange (m ((c : Thread nD τ).loc main_arg2))) :
    (V5 m ρ c main_v7 : S320000x384.Idx → EReal)
      = Arr.xjA ((dat0 (V1 m ρ) c).arrAt 5 cfg0.N) (m ((c : Thread nD τ).loc main_arg2)) :=
  ((keep1_2 m ρ c main_v7 (by no_write)).trans (keep1_1 m ρ c main_v7 (by no_write))).trans
    ((take0_eq (W2 m ρ c) _ _ (W2_v3 m ρ c) (W2_v6 m ρ c)).trans (take0_fill _ _ hin))
theorem V5_v8 (c : Dev nD) (hin : Arr.InRange (m ((c : Thread nD τ).loc main_arg2))) :
    (V5 m ρ c main_v8 : S320000x3x128.Idx → EReal) = Arr.mujA (m ((c : Thread nD τ).loc main_arg1)) (m ((c : Thread nD τ).loc main_arg2)) :=
  (keep1_2 m ρ c main_v8 (by no_write)).trans
    ((take1_eq (W3 m ρ c) _ _ ((keep1 m ρ c main_v3 (by no_write)).trans (W2_v3 m ρ c))
        ((keep1 m ρ c main_arg1 (by no_write)).trans (arg2_of_ne m ρ c main_arg1 (by decide) (by no_write)))).trans
      (take1_fill _ _ hin))

/-! ## Region C's entry: the two segment sums of region B's results, the two biases as rows -/

/-- An argument region B does not window, at region B's exit. -/
theorem arg6_of_ne (c : Dev nD) (b : Ref sig .tc) (hne1 : ∀ w, Pipeline.arrRef spec1 w ≠ b)
    (h12 : ∀ op ∈ (hostOps1_2 : List (HloOp τ sig (Elt Ideal))), Proc.devRef .tc b ∉ op.writes)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (h2 : W2 m ρ c (Proc.devRef .tc b) = m ((c : Thread nD τ).loc b)) :
    W6 m ρ c (Proc.devRef .tc b) = m ((c : Thread nD τ).loc b) :=
  (W6_of_ne m ρ c b hne1).trans ((keepB m ρ c b h12 h11 h1).trans h2)

theorem V7_arg0 (c : Dev nD) : V7 m ρ c main_arg0 = m ((c : Thread nD τ).loc main_arg0) :=
  (keep2 m ρ c main_arg0 (by no_write)).trans
    (arg6_of_ne m ρ c main_arg0 (by decide) (by no_write) (by no_write) (by no_write) (arg2_arg0 m ρ c))
theorem V7_arg1 (c : Dev nD) : V7 m ρ c main_arg1 = m ((c : Thread nD τ).loc main_arg1) :=
  (keep2 m ρ c main_arg1 (by no_write)).trans
    (arg6_of_ne m ρ c main_arg1 (by decide) (by no_write) (by no_write) (by no_write)
      (arg2_of_ne m ρ c main_arg1 (by decide) (by no_write)))
theorem V7_arg12 (c : Dev nD) : V7 m ρ c main_arg12 = m ((c : Thread nD τ).loc main_arg12) :=
  (keep2 m ρ c main_arg12 (by no_write)).trans
    (arg6_of_ne m ρ c main_arg12 (by decide) (by no_write) (by no_write) (by no_write)
      (arg2_of_ne m ρ c main_arg12 (by decide) (by no_write)))
theorem V7_arg13 (c : Dev nD) : V7 m ρ c main_arg13 = m ((c : Thread nD τ).loc main_arg13) :=
  (keep2 m ρ c main_arg13 (by no_write)).trans
    (arg6_of_ne m ρ c main_arg13 (by decide) (by no_write) (by no_write) (by no_write)
      (arg2_of_ne m ρ c main_arg13 (by decide) (by no_write)))
theorem V7_arg15 (c : Dev nD) : V7 m ρ c main_arg15 = m ((c : Thread nD τ).loc main_arg15) :=
  (keep2 m ρ c main_arg15 (by no_write)).trans
    (arg6_of_ne m ρ c main_arg15 (by decide) (by no_write) (by no_write) (by no_write)
      (arg2_of_ne m ρ c main_arg15 (by decide) (by no_write)))

theorem V7_v18 (c : Dev nD) :
    (V7 m ρ c main_v18 : S1x128.Idx → EReal) = shapeCast S1x128 (m ((c : Thread nD τ).loc main_arg14)) shapeCasts_S128_S1x128 :=
  resh_v18 (W6 m ρ c) _
    (arg6_of_ne m ρ c main_arg14 (by decide) (by no_write) (by no_write) (by no_write)
      (arg2_of_ne m ρ c main_arg14 (by decide) (by no_write)))
theorem V7_v19 (c : Dev nD) :
    (V7 m ρ c main_v19 : S1x384.Idx → EReal) = shapeCast S1x384 (m ((c : Thread nD τ).loc main_arg16)) shapeCasts_S384_S1x384 :=
  resh_v19 (W6 m ρ c) _
    (arg6_of_ne m ρ c main_arg16 (by decide) (by no_write) (by no_write) (by no_write)
      (arg2_of_ne m ρ c main_arg16 (by decide) (by no_write)))
theorem V7_v14 (c : Dev nD) :
    (V7 m ρ c main_v14 : S20000x128.Idx → EReal) = Arr.dqA (m ((c : Thread nD τ).loc main_arg2)) ((dat1 (V5 m ρ) c).arrAt 7 cfg1.N) := by
  unfold Arr.dqA
  exact seg0_eq (W6 m ρ c) _ _ (W6_v1 m ρ c) (W6_arr m ρ c 7)
theorem V7_v17 (c : Dev nD) :
    (V7 m ρ c main_v17 : S20000x3x128.Idx → EReal) = Arr.dmuA (m ((c : Thread nD τ).loc main_arg2)) ((dat1 (V5 m ρ) c).arrAt 8 cfg1.N) := by
  unfold Arr.dmuA
  exact seg1_eq (W6 m ρ c) _ _ (W6_v1 m ρ c) (W6_arr m ρ c 8)

/-! ## The results: region C's two output arrays at the run's last boundary -/

theorem W8_v20_0 (c : Dev nD) : W8 m ρ c (Proc.devRef .tc main_v20_0) = (dat2 (V7 m ρ) c).arrAt 9 cfg2.N :=
  W8_arr m ρ c 9
theorem W8_v20_1 (c : Dev nD) : W8 m ρ c (Proc.devRef .tc main_v20_1) = (dat2 (V7 m ρ) c).arrAt 10 cfg2.N :=
  W8_arr m ρ c 10

end Cert.KernelIdeal.Glue

end
-- ==== Proof.KFinal.lean ====
/-
  The kernel program's two results as whole-array functions of the launch arguments: region C over the segment sums of region B over the takes of region A, each array read row by row.
-/
import proofs.«417512_j54400055771905_1_alg».proof.Proof.Gen.KernelIdeal.Frame
import proofs.«417512_j54400055771905_1_alg».proof.Proof.Arr
import proofs.«417512_j54400055771905_1_alg».proof.Proof.Out
import proofs.«417512_j54400055771905_1_alg».proof.Proof.CoverA
import proofs.«417512_j54400055771905_1_alg».proof.Proof.CoverB
import proofs.«417512_j54400055771905_1_alg».proof.Proof.CoverC
import proofs.«417512_j54400055771905_1_alg».proof.Proof.Glue
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KFinal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## A bias as one row, an edge length as one column -/

theorem row128 (b : S128.Idx → EReal) (j : Fin 128) : shapeCast S1x128 b shapeCasts_S128_S1x128 (ix2 0 j) = b (ix1 j) :=
  shapeCast_apply b shapeCasts_S128_S1x128 (ix2 0 j) (ix1 j)
    (by rw [Shape.rowMajor_val_two, Shape.rowMajor_val_one]; show j.val = 0 * 128 + j.val; omega)
theorem row384 (b : S384.Idx → EReal) (j : Fin 384) : shapeCast S1x384 b shapeCasts_S384_S1x384 (ix2 0 j) = b (ix1 j) :=
  shapeCast_apply b shapeCasts_S384_S1x384 (ix2 0 j) (ix1 j)
    (by rw [Shape.rowMajor_val_two, Shape.rowMajor_val_one]; show j.val = 0 * 384 + j.val; omega)
theorem col320000 (w : S320000.Idx → EReal) (e : Fin 320000) :
    shapeCast S320000x1 w shapeCasts_S320000_S320000x1 (ix2 e 0) = w (ix1 e) :=
  shapeCast_apply w shapeCasts_S320000_S320000x1 (ix2 e 0) (ix1 e)
    (by rw [Shape.rowMajor_val_two, Shape.rowMajor_val_one]; show e.val = e.val * 1 + 0; omega)

theorem row128' (b : S128.Idx → EReal) :
    (fun j : Fin 128 => shapeCast S1x128 b shapeCasts_S128_S1x128 (ix2 0 j)) = fun j => b (ix1 j) := funext (row128 b)
theorem row384' (b : S384.Idx → EReal) :
    (fun j : Fin 384 => shapeCast S1x384 b shapeCasts_S384_S1x384 (ix2 0 j)) = fun j => b (ix1 j) := funext (row384 b)

/-! ## Region A: the context net of every node -/

theorem x_eq (c : Dev nD) :
    ((dat0 (V1 m ρ) c).arrAt 5 cfg0.N : S20000x384.Idx → EReal) = Arr.xA (m ((c : Thread nD τ).loc main_arg0)) (m ((c : Thread nD τ).loc main_arg8)) (m ((c : Thread nD τ).loc main_arg9)) (m ((c : Thread nD τ).loc main_arg10)) (m ((c : Thread nD τ).loc main_arg11)) := by
  funext i
  obtain ⟨n, k, rfl⟩ : ∃ (n : Fin 20000) (k : Fin 384), i = ix2 n k := ⟨i 0, i 1, eq_ix2 i⟩
  rw [CoverA.arr_x (V1 m ρ) c n k, Glue.V1_arg0, Glue.V1_arg8, Glue.V1_arg10, Glue.V1_v4, Glue.V1_v5,
    row128' (m ((c : Thread nD τ).loc main_arg9)), row384' (m ((c : Thread nD τ).loc main_arg11))]
  rfl

/-! ## Region B: the gated messages of every edge, over the senders' rows -/

theorem dqe_eq (c : Dev nD) (hin : Arr.InRange (m ((c : Thread nD τ).loc main_arg2))) :
    ((dat1 (V5 m ρ) c).arrAt 7 cfg1.N : S320000x128.Idx → EReal)
      = Arr.dqeA (Arr.xjA (Arr.xA (m ((c : Thread nD τ).loc main_arg0)) (m ((c : Thread nD τ).loc main_arg8)) (m ((c : Thread nD τ).loc main_arg9)) (m ((c : Thread nD τ).loc main_arg10)) (m ((c : Thread nD τ).loc main_arg11))) (m ((c : Thread nD τ).loc main_arg2))) (m ((c : Thread nD τ).loc main_arg5)) (m ((c : Thread nD τ).loc main_arg3)) (m ((c : Thread nD τ).loc main_arg6)) (m ((c : Thread nD τ).loc main_arg7)) := by
  funext i
  obtain ⟨e, k, rfl⟩ : ∃ (e : Fin 320000) (k : Fin 128), i = ix2 e k := ⟨i 0, i 1, eq_ix2 i⟩
  rw [CoverB.arr_dqe (V5 m ρ) c e k, Glue.V5_v7 m ρ c hin, Glue.V5_arg5, Glue.V5_arg6, Glue.V5_v10, Glue.V5_v9, x_eq,
    row384' (m ((c : Thread nD τ).loc main_arg7)), col320000 (m ((c : Thread nD τ).loc main_arg3)) e]
  rfl

theorem dmue_eq (c : Dev nD) (hin : Arr.InRange (m ((c : Thread nD τ).loc main_arg2))) :
    ((dat1 (V5 m ρ) c).arrAt 8 cfg1.N : S320000x3x128.Idx → EReal)
      = Arr.dmueA (Arr.xjA (Arr.xA (m ((c : Thread nD τ).loc main_arg0)) (m ((c : Thread nD τ).loc main_arg8)) (m ((c : Thread nD τ).loc main_arg9)) (m ((c : Thread nD τ).loc main_arg10)) (m ((c : Thread nD τ).loc main_arg11))) (m ((c : Thread nD τ).loc main_arg2))) (m ((c : Thread nD τ).loc main_arg5)) (m ((c : Thread nD τ).loc main_arg3)) (m ((c : Thread nD τ).loc main_arg6)) (m ((c : Thread nD τ).loc main_arg7)) (m ((c : Thread nD τ).loc main_arg4))
          (Arr.mujA (m ((c : Thread nD τ).loc main_arg1)) (m ((c : Thread nD τ).loc main_arg2))) := by
  funext i
  obtain ⟨e, v, k, rfl⟩ : ∃ (e : Fin 320000) (v : Fin 3) (k : Fin 128), i = ix3 e v k := ⟨i 0, i 1, i 2, eq_ix3 i⟩
  rw [CoverB.arr_dmue (V5 m ρ) c e v k, Glue.V5_v7 m ρ c hin, Glue.V5_v8 m ρ c hin, Glue.V5_arg5, Glue.V5_arg4, Glue.V5_arg6,
    Glue.V5_v10, Glue.V5_v9, x_eq, row384' (m ((c : Thread nD τ).loc main_arg7)), col320000 (m ((c : Thread nD τ).loc main_arg3)) e]
  rfl

/-! ## Region C: the mixing of every node, over the segment sums -/

/-- What region C finds as dq and dmu: the segment sums of region B's messages. -/
theorem dq_eq (c : Dev nD) (hin : Arr.InRange (m ((c : Thread nD τ).loc main_arg2))) :
    (V7 m ρ c main_v14 : S20000x128.Idx → EReal) = Arr.dqAll (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Glue.V7_v14, dqe_eq m ρ c hin]
  rfl
theorem dmu_eq (c : Dev nD) (hin : Arr.InRange (m ((c : Thread nD τ).loc main_arg2))) :
    (V7 m ρ c main_v17 : S20000x3x128.Idx → EReal) = Arr.dmuAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Glue.V7_v17, dmue_eq m ρ c hin]
  rfl

/-- The mixing's row formula over arrays (the two biases read through their one-row reshapes) is the mixing laid over
    the arrays, for any dq and dmu. -/
theorem qout_row (c : Dev nD) (n : Fin 20000) (k : Fin 128) (dq : FVec Ideal S20000x128 .f32) (dmu : FVec Ideal S20000x3x128 .f32) :
    Spec.qoutRow (fun k' => (m ((c : Thread nD τ).loc main_arg0)) (ix2 n k')) (fun k' => dq (ix2 n k'))
        (fun v' k' => (m ((c : Thread nD τ).loc main_arg1)) (ix3 n v' k')) (fun v' k' => dmu (ix3 n v' k'))
        (fun a d => (m ((c : Thread nD τ).loc main_arg12)) (ix2 a d)) (fun d j => (m ((c : Thread nD τ).loc main_arg13)) (ix2 d j))
        (fun j => shapeCast S1x128 (m ((c : Thread nD τ).loc main_arg14)) shapeCasts_S128_S1x128 (ix2 0 j)) (fun j c' => (m ((c : Thread nD τ).loc main_arg15)) (ix2 j c'))
        (fun c' => shapeCast S1x384 (m ((c : Thread nD τ).loc main_arg16)) shapeCasts_S384_S1x384 (ix2 0 c')) k
      = Arr.qoutA (m ((c : Thread nD τ).loc main_arg0)) dq (m ((c : Thread nD τ).loc main_arg1)) dmu (m ((c : Thread nD τ).loc main_arg12)) (m ((c : Thread nD τ).loc main_arg13)) (m ((c : Thread nD τ).loc main_arg14)) (m ((c : Thread nD τ).loc main_arg15)) (m ((c : Thread nD τ).loc main_arg16)) (ix2 n k) := by
  rw [row128' (m ((c : Thread nD τ).loc main_arg14)), row384' (m ((c : Thread nD τ).loc main_arg16))]
  rfl
theorem muout_row (c : Dev nD) (n : Fin 20000) (v : Fin 3) (k : Fin 128) (dq : FVec Ideal S20000x128 .f32)
    (dmu : FVec Ideal S20000x3x128 .f32) :
    Spec.muoutRow (fun k' => (m ((c : Thread nD τ).loc main_arg0)) (ix2 n k')) (fun k' => dq (ix2 n k'))
        (fun v' k' => (m ((c : Thread nD τ).loc main_arg1)) (ix3 n v' k')) (fun v' k' => dmu (ix3 n v' k'))
        (fun a d => (m ((c : Thread nD τ).loc main_arg12)) (ix2 a d)) (fun d j => (m ((c : Thread nD τ).loc main_arg13)) (ix2 d j))
        (fun j => shapeCast S1x128 (m ((c : Thread nD τ).loc main_arg14)) shapeCasts_S128_S1x128 (ix2 0 j)) (fun j c' => (m ((c : Thread nD τ).loc main_arg15)) (ix2 j c'))
        (fun c' => shapeCast S1x384 (m ((c : Thread nD τ).loc main_arg16)) shapeCasts_S384_S1x384 (ix2 0 c')) v k
      = Arr.muoutA (m ((c : Thread nD τ).loc main_arg0)) dq (m ((c : Thread nD τ).loc main_arg1)) dmu (m ((c : Thread nD τ).loc main_arg12)) (m ((c : Thread nD τ).loc main_arg13)) (m ((c : Thread nD τ).loc main_arg14)) (m ((c : Thread nD τ).loc main_arg15)) (m ((c : Thread nD τ).loc main_arg16)) (ix3 n v k) := by
  rw [row128' (m ((c : Thread nD τ).loc main_arg14)), row384' (m ((c : Thread nD τ).loc main_arg16))]
  rfl

/-- The first result at the run's last boundary. -/
theorem res0 (c : Dev nD) (hin : Arr.InRange (m ((c : Thread nD τ).loc main_arg2))) :
    (W8 m ρ c (Proc.devRef .tc main_v20_0) : S20000x128.Idx → EReal)
      = Arr.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [Glue.W8_v20_0]
  unfold Arr.out0
  funext i
  obtain ⟨n, k, rfl⟩ : ∃ (n : Fin 20000) (k : Fin 128), i = ix2 n k := ⟨i 0, i 1, eq_ix2 i⟩
  rw [CoverC.arr_qout (V7 m ρ) c n k, Glue.V7_arg0, Glue.V7_arg1, Glue.V7_arg12, Glue.V7_arg13, Glue.V7_arg15, Glue.V7_v18,
    Glue.V7_v19, dq_eq m ρ c hin, dmu_eq m ρ c hin]
  exact qout_row m c n k _ _

/-- The second result at the run's last boundary. -/
theorem res1 (c : Dev nD) (hin : Arr.InRange (m ((c : Thread nD τ).loc main_arg2))) :
    (W8 m ρ c (Proc.devRef .tc main_v20_1) : S20000x3x128.Idx → EReal)
      = Arr.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [Glue.W8_v20_1]
  unfold Arr.out1
  funext i
  obtain ⟨n, v, k, rfl⟩ : ∃ (n : Fin 20000) (v : Fin 3) (k : Fin 128), i = ix3 n v k := ⟨i 0, i 1, i 2, eq_ix3 i⟩
  rw [CoverC.arr_muout (V7 m ρ) c n v k, Glue.V7_arg0, Glue.V7_arg1, Glue.V7_arg12, Glue.V7_arg13, Glue.V7_arg15, Glue.V7_v18,
    Glue.V7_v19, dq_eq m ρ c hin, dmu_eq m ρ c hin]
  exact muout_row m c n v k _ _

end Cert.KernelIdeal.KFinal

end
-- ==== Proof.RefAB.lean ====
/-
  The reference program's stages up to the segment sums, each read as the row-by-row mathematics laid over its array.
-/
import proofs.«417512_j54400055771905_1_alg».proof.Proof.Gen.ReferenceIdeal.Run
import proofs.«417512_j54400055771905_1_alg».proof.Proof.Gen.ReferenceIdeal.Read
import proofs.«417512_j54400055771905_1_alg».proof.Proof.Arr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.RefSide

open Cert.ReferenceIdeal.Read Idealize.ShloMosaic Idealize.ShloMosaic.ValueIdx

/-! ## Indices: the reference's composed operand indices at explicit coordinates -/

theorem lidx24 (n : Fin 20000) (j k : Fin 128) : lidx_main_v24 (ix2 n j) k = ix2 n k :=
  funext fun a => match a with | ⟨0, _⟩ => rfl | ⟨1, _⟩ => rfl
theorem ridx24 (n : Fin 20000) (j k : Fin 128) : ridx_main_v24 (ix2 n j) k = ix2 k j :=
  funext fun a => match a with | ⟨0, _⟩ => rfl | ⟨1, _⟩ => rfl
theorem lidx29 (n : Fin 20000) (c : Fin 384) (k : Fin 128) : lidx_main_v29 (ix2 n c) k = ix2 n k :=
  funext fun a => match a with | ⟨0, _⟩ => rfl | ⟨1, _⟩ => rfl
theorem ridx29 (n : Fin 20000) (c : Fin 384) (k : Fin 128) : ridx_main_v29 (ix2 n c) k = ix2 k c :=
  funext fun a => match a with | ⟨0, _⟩ => rfl | ⟨1, _⟩ => rfl
theorem lidx17 (e : Fin 320000) (c : Fin 384) (k : Fin 20) : lidx_main_v17 (ix2 e c) k = ix2 e k :=
  funext fun a => match a with | ⟨0, _⟩ => rfl | ⟨1, _⟩ => rfl
theorem ridx17 (e : Fin 320000) (c : Fin 384) (k : Fin 20) : ridx_main_v17 (ix2 e c) k = ix2 k c :=
  funext fun a => match a with | ⟨0, _⟩ => rfl | ⟨1, _⟩ => rfl

/-! ## The context net, stage by stage -/

/-- The hidden row before the gate: q · W1 + b1. -/
theorem v27_at (x0 : FVec Ideal Cert.KernelIdeal.S20000x128 .f32) (x8 : FVec Ideal Cert.KernelIdeal.S128x128 .f32)
    (x9 : FVec Ideal Cert.KernelIdeal.S128 .f32) (n : Fin 20000) (j : Fin 128) :
    val_main_v27 (F := Ideal) x0 x8 x9 (ix2 n j) = (∑ k : Fin 128, x0 (ix2 n k) * x8 (ix2 k j)) + x9 (ix1 j) := by
  refine (val_main_v27_apply (F := Ideal) x0 x8 x9 (ix2 n j)).trans ?_
  refine congrArg₂ (· + ·) ?_ ?_
  · refine (val_main_v24_apply x0 x8 (ix2 n j)).trans ?_
    refine Finset.sum_congr rfl fun k _ => ?_
    rw [lidx24, ridx24]
  · refine (val_main_v26_apply (F := Ideal) x9 (ix2 n j)).trans ?_
    refine (val_main_v25_apply (F := Ideal) x9 _).trans ?_
    exact congrArg x9 (funext fun a => match a with | ⟨0, _⟩ => rfl)

/-- The gated hidden row: the reference's x · (1 / (1 + exp (-x))) is silu. -/
theorem v28_at (x0 : FVec Ideal Cert.KernelIdeal.S20000x128 .f32) (x8 : FVec Ideal Cert.KernelIdeal.S128x128 .f32)
    (x9 : FVec Ideal Cert.KernelIdeal.S128 .f32) (n : Fin 20000) (j : Fin 128) :
    val_main_v28 (F := Ideal) x0 x8 x9 (ix2 n j)
      = Spec.silu ((∑ k : Fin 128, x0 (ix2 n k) * x8 (ix2 k j)) + x9 (ix1 j)) := by
  have h4 : val_main_call0_v4 (F := Ideal) (ix2 n j) = (1 : EReal) :=
    (val_main_call0_v4_apply (F := Ideal) (ix2 n j)).trans Ideal.ofBits_one_f32
  have h2 : val_main_call0_v2 (F := Ideal) (ix2 n j) = (1 : EReal) :=
    (val_main_call0_v2_apply (F := Ideal) (ix2 n j)).trans Ideal.ofBits_one_f32
  have h : val_main_v28 (F := Ideal) x0 x8 x9 (ix2 n j)
      = (val_main_v27 (F := Ideal) x0 x8 x9 (ix2 n j) : EReal)
          * Ideal.div (val_main_call0_v4 (F := Ideal) (ix2 n j))
              (val_main_call0_v2 (F := Ideal) (ix2 n j) + Ideal.exp (-(val_main_v27 (F := Ideal) x0 x8 x9 (ix2 n j) : EReal))) := rfl
  rw [h, h4, h2, v27_at]
  rfl

/-- The context net at row n, column c. -/
theorem v32_at (x0 : FVec Ideal Cert.KernelIdeal.S20000x128 .f32) (x8 : FVec Ideal Cert.KernelIdeal.S128x128 .f32)
    (x9 : FVec Ideal Cert.KernelIdeal.S128 .f32) (x10 : FVec Ideal Cert.KernelIdeal.S128x384 .f32)
    (x11 : FVec Ideal Cert.KernelIdeal.S384 .f32) (n : Fin 20000) (c : Fin 384) :
    val_main_v32 (F := Ideal) x0 x8 x9 x10 x11 (ix2 n c)
      = Spec.xRow (fun k => x0 (ix2 n k)) (fun k j => x8 (ix2 k j)) (fun j => x9 (ix1 j)) (fun j c' => x10 (ix2 j c'))
          (fun c' => x11 (ix1 c')) c := by
  unfold Spec.xRow
  refine (val_main_v32_apply (F := Ideal) x0 x8 x9 x10 x11 (ix2 n c)).trans ?_
  refine congrArg₂ (· + ·) ?_ ?_
  · refine (val_main_v29_apply x0 x8 x9 x10 (ix2 n c)).trans ?_
    refine Finset.sum_congr rfl fun j _ => ?_
    rw [lidx29, ridx29, v28_at]
  · refine (val_main_v31_apply (F := Ideal) x11 (ix2 n c)).trans ?_
    refine (val_main_v30_apply (F := Ideal) x11 _).trans ?_
    exact congrArg x11 (funext fun a => match a with | ⟨0, _⟩ => rfl)

/-! ## The edge filter and the gated messages, stage by stage -/

/-- The cosine cutoff of an edge's length. -/
theorem v16_at (x3 : FVec Ideal Cert.KernelIdeal.S320000 .f32) (i : Cert.KernelIdeal.S320000.Idx) :
    val_main_v16 (F := Ideal) x3 i = Spec.fcut (x3 i) := by
  simp only [val_main_v16_apply, val_main_v12_apply, val_main_v11_apply, val_main_cst_2_apply, val_main_v10_apply,
    val_main_v8_apply, val_main_v7_apply, val_main_v5_apply, val_main_v4_apply, val_main_cst_apply, val_main_v6_apply,
    val_main_cst_0_apply, val_main_v9_apply, val_main_cst_1_apply, val_main_v15_apply, val_main_v14_apply,
    val_main_v13_apply, val_main_cst_3_apply]
  rfl

/-- The filter at edge e, column c. -/
theorem v23_at (x3 : FVec Ideal Cert.KernelIdeal.S320000 .f32) (x5 : FVec Ideal Cert.KernelIdeal.S320000x20 .f32)
    (x6 : FVec Ideal Cert.KernelIdeal.S20x384 .f32) (x7 : FVec Ideal Cert.KernelIdeal.S384 .f32)
    (e : Fin 320000) (c : Fin 384) :
    val_main_v23 (F := Ideal) x3 x5 x6 x7 (ix2 e c)
      = Spec.wij (fun k => x5 (ix2 e k)) (fun k c' => x6 (ix2 k c')) (fun c' => x7 (ix1 c')) (x3 (ix1 e)) c := by
  unfold Spec.wij
  refine (val_main_v23_apply (F := Ideal) x3 x5 x6 x7 (ix2 e c)).trans ?_
  refine congrArg₂ (· * ·) ?_ ?_
  · refine (val_main_v20_apply (F := Ideal) x5 x6 x7 (ix2 e c)).trans ?_
    refine congrArg₂ (· + ·) ?_ ?_
    · refine (val_main_v17_apply x5 x6 (ix2 e c)).trans ?_
      refine Finset.sum_congr rfl fun k _ => ?_
      rw [lidx17, ridx17]
    · refine (val_main_v19_apply (F := Ideal) x7 (ix2 e c)).trans ?_
      refine (val_main_v18_apply (F := Ideal) x7 _).trans ?_
      exact congrArg x7 (funext fun a => match a with | ⟨0, _⟩ => rfl)
  · refine (val_main_v22_apply (F := Ideal) x3 (ix2 e c)).trans ?_
    refine (val_main_v21_apply (F := Ideal) x3 _).trans ?_
    refine (v16_at x3 _).trans ?_
    exact congrArg (fun i => Spec.fcut (x3 i)) (funext fun a => match a with | ⟨0, _⟩ => rfl)

/-- The gathered context times the filter at edge e, column c (the gather kept as it is). -/
theorem v40_at (x0 : FVec Ideal Cert.KernelIdeal.S20000x128 .f32) (x2 : IVec Cert.KernelIdeal.S2x320000 32)
    (x3 : FVec Ideal Cert.KernelIdeal.S320000 .f32) (x5 : FVec Ideal Cert.KernelIdeal.S320000x20 .f32)
    (x6 : FVec Ideal Cert.KernelIdeal.S20x384 .f32) (x7 : FVec Ideal Cert.KernelIdeal.S384 .f32)
    (x8 : FVec Ideal Cert.KernelIdeal.S128x128 .f32) (x9 : FVec Ideal Cert.KernelIdeal.S128 .f32)
    (x10 : FVec Ideal Cert.KernelIdeal.S128x384 .f32) (x11 : FVec Ideal Cert.KernelIdeal.S384 .f32)
    (e : Fin 320000) (c : Fin 384) :
    val_main_v40 (F := Ideal) x0 x2 x3 x5 x6 x7 x8 x9 x10 x11 (ix2 e c)
      = Spec.xjmod (fun c' => val_main_v39 (F := Ideal) x0 x2 x8 x9 x10 x11 (ix2 e c')) (fun k => x5 (ix2 e k))
          (fun k c' => x6 (ix2 k c')) (fun c' => x7 (ix1 c')) (x3 (ix1 e)) c := by
  unfold Spec.xjmod
  refine (val_main_v40_apply (F := Ideal) x0 x2 x3 x5 x6 x7 x8 x9 x10 x11 (ix2 e c)).trans ?_
  exact congrArg₂ (· * ·) rfl (v23_at x3 x5 x6 x7 e c)

/-- The reference's context net is the context net of every node. -/
theorem x_ref (x0 : FVec Ideal Cert.KernelIdeal.S20000x128 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) :
    val_main_v32 (F := Ideal) x0 x8 x9 x10 x11 = Cert.Arr.xA x0 x8 x9 x10 x11 := by
  funext i
  obtain ⟨n, c, rfl⟩ : ∃ n c, i = ix2 n c := ⟨i 0, i 1, eq_ix2 i⟩
  exact v32_at x0 x8 x9 x10 x11 n c

/-- The reference's start-index columns: the senders wrapped (twice, once per gather), the receivers as they are (twice, once per segment sum). -/
theorem idxj_ref (x2 : IVec Cert.KernelIdeal.S2x320000 32) : val_main_v38 (F := Ideal) x2 = Cert.Arr.wrapCol (Cert.Arr.idxj x2) := by
  unfold val_main_v38 val_main_v37 val_main_v36 val_main_v35 val_main_v34 val_main_v33 val_main_v3 val_main_v2 val_main_c
    val_main_c_4 Cert.Arr.wrapCol Cert.Arr.idxj
  rfl
theorem idxj_ref' (x2 : IVec Cert.KernelIdeal.S2x320000 32) : val_main_v52 (F := Ideal) x2 = Cert.Arr.wrapCol (Cert.Arr.idxj x2) := by
  unfold val_main_v52 val_main_v51 val_main_v50 val_main_v49 val_main_v48 val_main_v47 val_main_v3 val_main_v2 val_main_c_6
    val_main_c_7 Cert.Arr.wrapCol Cert.Arr.idxj
  rfl
theorem idxi_ref (x2 : IVec Cert.KernelIdeal.S2x320000 32) :
    val_main_v45 (F := Ideal) x2
      = broadcastInDim Cert.KernelIdeal.S320000x1 ![0] Cert.KernelIdeal.Gen.bcast_S320000_S320000x1_0 (Cert.Arr.idxi x2) := by
  unfold val_main_v45 val_main_v1 val_main_v0 Cert.Arr.idxi
  rfl
theorem idxi_ref' (x2 : IVec Cert.KernelIdeal.S2x320000 32) :
    val_main_v64 (F := Ideal) x2
      = broadcastInDim Cert.KernelIdeal.S320000x1 ![0] Cert.KernelIdeal.Gen.bcast_S320000_S320000x1_0 (Cert.Arr.idxi x2) := by
  unfold val_main_v64 val_main_v1 val_main_v0 Cert.Arr.idxi
  rfl

/-- The reference's dq_e and dmu_e are the gated messages of every edge over its gathered rows (the gathers kept as they are). -/
theorem dqe_ref (x0 : FVec Ideal Cert.KernelIdeal.S20000x128 .f32) (x2 : IVec Cert.KernelIdeal.S2x320000 32) (x3 : FVec Ideal Cert.KernelIdeal.S320000 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) :
    val_main_v41 (F := Ideal) x0 x2 x3 x5 x6 x7 x8 x9 x10 x11
      = Cert.Arr.dqeA (val_main_v39 (F := Ideal) x0 x2 x8 x9 x10 x11) x5 x3 x6 x7 := by
  funext i
  obtain ⟨e, c, rfl⟩ : ∃ e c, i = ix2 e c := ⟨i 0, i 1, eq_ix2 i⟩
  have hidx : idx_main_v41 (ix2 e c) = ix2 e (Spec.at0 c) :=
    funext fun a => match a with | ⟨0, _⟩ => rfl | ⟨1, _⟩ => rfl
  rw [val_main_v41_apply, hidx, v40_at]
  rfl
theorem dmue_ref (x0 : FVec Ideal Cert.KernelIdeal.S20000x128 .f32) (x1 : FVec Ideal Cert.KernelIdeal.S20000x3x128 .f32) (x2 : IVec Cert.KernelIdeal.S2x320000 32) (x3 : FVec Ideal Cert.KernelIdeal.S320000 .f32) (x4 : FVec Ideal Cert.KernelIdeal.S320000x3 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) :
    val_main_v62 (F := Ideal) x0 x1 x2 x3 x4 x5 x6 x7 x8 x9 x10 x11
      = Cert.Arr.dmueA (val_main_v39 (F := Ideal) x0 x2 x8 x9 x10 x11) x5 x3 x6 x7 x4 (val_main_v53 (F := Ideal) x1 x2) := by
  funext i
  obtain ⟨e, v, c, rfl⟩ : ∃ e v c, i = ix3 e v c := ⟨i 0, i 1, i 2, eq_ix3 i⟩
  have h1 : idx_main_v42 (idx_main_v54 (idx_main_v56 (ix3 e v c))) = ix2 e (Spec.at1 c) :=
    funext fun a => match a with | ⟨0, _⟩ => rfl | ⟨1, _⟩ => rfl
  have h2 : idx_main_v43 (idx_main_v59 (idx_main_v60 (ix3 e v c))) = ix2 e (Spec.at2 c) :=
    funext fun a => match a with | ⟨0, _⟩ => rfl | ⟨1, _⟩ => rfl
  have h3 : idx_main_v55 (idx_main_v57 (ix3 e v c)) = ix2 e v :=
    funext fun a => match a with | ⟨0, _⟩ => rfl | ⟨1, _⟩ => rfl
  rw [val_main_v62_apply, val_main_v58_apply, val_main_v61_apply, val_main_v56_apply, val_main_v54_apply, val_main_v42_apply,
    val_main_v57_apply, val_main_v55_apply, val_main_v60_apply, val_main_v59_apply, val_main_v43_apply, h1, h2, h3,
    v40_at, v40_at]
  rfl

end Cert.RefSide

end
-- ==== Proof.RefC.lean ====
/-
  The reference program's mixing stage, read as the row-by-row mathematics laid over its arrays (the two segment sums kept as they are).
-/
import proofs.«417512_j54400055771905_1_alg».proof.Proof.Gen.ReferenceIdeal.Run
import proofs.«417512_j54400055771905_1_alg».proof.Proof.Gen.ReferenceIdeal.Read
import proofs.«417512_j54400055771905_1_alg».proof.Proof.Arr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.RefSideC

open Cert.ReferenceIdeal.Read Idealize.ShloMosaic Idealize.ShloMosaic.ValueIdx

section Rows

open Cert.ReferenceIdeal Cert.ReferenceIdeal.Gen

variable (x0 : FVec Ideal S20000x128 .f32) (x1 : FVec Ideal S20000x3x128 .f32) (x2 : IVec S2x320000 32) (x3 : FVec Ideal S320000 .f32)
  (x4 : FVec Ideal S320000x3 .f32) (x5 : FVec Ideal S320000x20 .f32) (x6 : FVec Ideal S20x384 .f32) (x7 : FVec Ideal S384 .f32)
  (x8 : FVec Ideal S128x128 .f32) (x9 : FVec Ideal S128 .f32) (x10 : FVec Ideal S128x384 .f32) (x11 : FVec Ideal S384 .f32)
  (x12 : FVec Ideal S128x256 .f32) (x13 : FVec Ideal S256x128 .f32) (x14 : FVec Ideal S128 .f32) (x15 : FVec Ideal S128x384 .f32)
  (x16 : FVec Ideal S384 .f32)

/- The updated scalar features q' = q + dq and the updated vectors mu' = mu + dmu, and the stages computed from them. -/
local notation "rQ" => val_main_v66 (F := Ideal) x0 x2 x3 x5 x6 x7 x8 x9 x10 x11
local notation "rM" => val_main_v67 (F := Ideal) x0 x1 x2 x3 x4 x5 x6 x7 x8 x9 x10 x11
local notation "rMix" => val_main_v68 (F := Ideal) x0 x1 x2 x3 x4 x5 x6 x7 x8 x9 x10 x11 x12
local notation "rV" => val_main_v69 (F := Ideal) x0 x1 x2 x3 x4 x5 x6 x7 x8 x9 x10 x11 x12
local notation "rW" => val_main_v70 (F := Ideal) x0 x1 x2 x3 x4 x5 x6 x7 x8 x9 x10 x11 x12
local notation "rSumVV" => val_main_v72 (F := Ideal) x0 x1 x2 x3 x4 x5 x6 x7 x8 x9 x10 x11 x12
local notation "rSumVW" => val_main_v91 (F := Ideal) x0 x1 x2 x3 x4 x5 x6 x7 x8 x9 x10 x11 x12
local notation "rCtx" => val_main_v76 (F := Ideal) x0 x1 x2 x3 x4 x5 x6 x7 x8 x9 x10 x11 x12
local notation "rDense1" => val_main_v77 (F := Ideal) x0 x1 x2 x3 x4 x5 x6 x7 x8 x9 x10 x11 x12 x13
local notation "rDense2" => val_main_v82 (F := Ideal) x0 x1 x2 x3 x4 x5 x6 x7 x8 x9 x10 x11 x12 x13 x14 x15
local notation "rHid" => val_main_v80 (F := Ideal) x0 x1 x2 x3 x4 x5 x6 x7 x8 x9 x10 x11 x12 x13 x14
local notation "rAct" => val_main_v81 (F := Ideal) x0 x1 x2 x3 x4 x5 x6 x7 x8 x9 x10 x11 x12 x13 x14
local notation "rY" => val_main_v85 (F := Ideal) x0 x1 x2 x3 x4 x5 x6 x7 x8 x9 x10 x11 x12 x13 x14 x15 x16
local notation "rY0" => val_main_v86 (F := Ideal) x0 x1 x2 x3 x4 x5 x6 x7 x8 x9 x10 x11 x12 x13 x14 x15 x16
local notation "rY1" => val_main_v87 (F := Ideal) x0 x1 x2 x3 x4 x5 x6 x7 x8 x9 x10 x11 x12 x13 x14 x15 x16
local notation "rY2" => val_main_v88 (F := Ideal) x0 x1 x2 x3 x4 x5 x6 x7 x8 x9 x10 x11 x12 x13 x14 x15 x16
local notation "rQout" => val_main_v93 (F := Ideal) x0 x1 x2 x3 x4 x5 x6 x7 x8 x9 x10 x11 x12 x13 x14 x15 x16
local notation "rMuout" => val_main_v97 (F := Ideal) x0 x1 x2 x3 x4 x5 x6 x7 x8 x9 x10 x11 x12 x13 x14 x15 x16

/-! ## The mixed vectors -/

/-- (mu'[v] · Wmix)[d] at node n. -/
theorem mix_row (n : Fin 20000) (v : Fin 3) (d : Fin 256) :
    rMix (ix3 n v d) = Spec.mixRow (fun v' k => rM (ix3 n v' k)) (fun k d' => x12 (ix2 k d')) v d := by
  rw [val_main_v68_apply]
  unfold Spec.mixRow
  refine Finset.sum_congr rfl fun k _ => ?_
  rw [show lidx_main_v68 (ix3 n v d) k = ix3 n v k from funext fun a => by
        match a with
        | ⟨0, _⟩ => rfl
        | ⟨1, _⟩ => rfl
        | ⟨2, _⟩ => rfl,
      show ridx_main_v68 (ix3 n v d) k = ix2 k d from funext fun a => by
        match a with
        | ⟨0, _⟩ => rfl
        | ⟨1, _⟩ => rfl]

/-- V[v, c]: the lower half of the mixed vector. -/
theorem V_row (n : Fin 20000) (v : Fin 3) (c : Fin 128) :
    rV (ix3 n v c) = Spec.mixRow (fun v' k => rM (ix3 n v' k)) (fun k d' => x12 (ix2 k d')) v (Spec.lo c) := by
  rw [val_main_v69_apply,
    show idx_main_v69 (ix3 n v c) = ix3 n v (Spec.lo c) from funext fun a => by
      match a with
      | ⟨0, _⟩ => rfl
      | ⟨1, _⟩ => rfl
      | ⟨2, _⟩ => rfl,
    mix_row]

/-- W[v, c]: the upper half of the mixed vector. -/
theorem W_row (n : Fin 20000) (v : Fin 3) (c : Fin 128) :
    rW (ix3 n v c) = Spec.mixRow (fun v' k => rM (ix3 n v' k)) (fun k d' => x12 (ix2 k d')) v (Spec.hi c) := by
  rw [val_main_v70_apply,
    show idx_main_v70 (ix3 n v c) = ix3 n v (Spec.hi c) from funext fun a => by
      match a with
      | ⟨0, _⟩ => rfl
      | ⟨1, _⟩ => rfl
      | ⟨2, _⟩ => rfl,
    mix_row]

/-! ## The two sums over the direction axis: a sum from the zero word is the sum -/

theorem sumVV_row (n : Fin 20000) (c : Fin 128) :
    rSumVV (ix2 n c) = Spec.sumVV (fun v' k => rM (ix3 n v' k)) (fun k d' => x12 (ix2 k d')) c := by
  rw [val_main_v72_apply]
  have h0 : ∀ j, val_main_cst_9 (F := Ideal) j = 0 := fun j => Ideal.ofBits_zero_f32
  rw [h0, zero_add]
  unfold Spec.sumVV
  refine Finset.sum_congr rfl fun v _ => ?_
  rw [show idx_main_v72 (ix2 n c) v = ix3 n v c from funext fun a => by
        match a with
        | ⟨0, _⟩ => rfl
        | ⟨1, _⟩ => rfl
        | ⟨2, _⟩ => rfl,
      val_main_v71_apply, V_row]
  rfl

theorem sumVW_row (n : Fin 20000) (c : Fin 128) :
    rSumVW (ix2 n c) = Spec.sumVW (fun v' k => rM (ix3 n v' k)) (fun k d' => x12 (ix2 k d')) c := by
  rw [val_main_v91_apply]
  have h0 : ∀ j, val_main_cst_11 (F := Ideal) j = 0 := fun j => Ideal.ofBits_zero_f32
  rw [h0, zero_add]
  unfold Spec.sumVW
  refine Finset.sum_congr rfl fun v _ => ?_
  rw [show idx_main_v91 (ix2 n c) v = ix3 n v c from funext fun a => by
        match a with
        | ⟨0, _⟩ => rfl
        | ⟨1, _⟩ => rfl
        | ⟨2, _⟩ => rfl,
      val_main_v90_apply, V_row, W_row]
  rfl

/-! ## The update net -/

/-- The context [q' | sqrt (Σ_v V² + ε)] at node n, column d. -/
theorem ctx_row (n : Fin 20000) (d : Fin 256) :
    rCtx (ix2 n d) = Spec.ctxRow (fun k => rQ (ix2 n k)) (fun v' k => rM (ix3 n v' k)) (fun k d' => x12 (ix2 k d')) d := by
  unfold val_main_v76 Spec.ctxRow
  by_cases h : d.val < 128
  · rw [dif_pos h]
    exact concatenate_pair_apply_left (s₁ := S20000x128) (s₂ := S20000x128) (1 : Fin S20000x256.rank) _ _ _ (ix2 n d) rfl
      (ix2 n (⟨d.val, h⟩ : Fin 128)) (fun b => by
        match b with
        | ⟨0, _⟩ => rfl
        | ⟨1, _⟩ => rfl)
  · rw [dif_neg h]
    refine (concatenate_pair_apply_right (s₁ := S20000x128) (s₂ := S20000x128) (1 : Fin S20000x256.rank) _ _ _ (ix2 n d) rfl rfl
      (ix2 n (⟨d.val - 128, by omega⟩ : Fin 128)) (fun b => by
        match b with
        | ⟨0, _⟩ => exact fun _ => rfl
        | ⟨1, _⟩ => exact fun hne => absurd rfl hne)
      (by show (d.val - 128) + 128 = d.val; omega)).trans ?_
    rw [val_main_v75_apply, val_main_v74_apply, sumVV_row, val_main_v73_apply, val_main_cst_10_apply]
    rfl

/-- The context through the first matrix. -/
theorem dense1_row (n : Fin 20000) (j : Fin 128) :
    rDense1 (ix2 n j)
      = ∑ d : Fin 256, Spec.ctxRow (fun k => rQ (ix2 n k)) (fun v' k => rM (ix3 n v' k)) (fun k d' => x12 (ix2 k d')) d * x13 (ix2 d j) := by
  rw [val_main_v77_apply]
  refine Finset.sum_congr rfl fun d _ => ?_
  rw [show lidx_main_v77 (ix2 n j) d = ix2 n d from funext fun a => by
        match a with
        | ⟨0, _⟩ => rfl
        | ⟨1, _⟩ => rfl,
      show ridx_main_v77 (ix2 n j) d = ix2 d j from funext fun a => by
        match a with
        | ⟨0, _⟩ => rfl
        | ⟨1, _⟩ => rfl,
      ctx_row]

/-- A bias vector laid along every row reads its entry at the column. -/
theorem bias1_row (n : Fin 20000) (j : Fin 128) : val_main_v79 (F := Ideal) x14 (ix2 n j) = x14 (ix1 j) := by
  rw [val_main_v79_apply, val_main_v78_apply]
  exact congrArg x14 (funext fun a => by
    match a with
    | ⟨0, _⟩ => rfl)

theorem bias2_row (n : Fin 20000) (c : Fin 384) : val_main_v84 (F := Ideal) x16 (ix2 n c) = x16 (ix1 c) := by
  rw [val_main_v84_apply, val_main_v83_apply]
  exact congrArg x16 (funext fun a => by
    match a with
    | ⟨0, _⟩ => rfl)

/-- The hidden layer before its activation. -/
theorem hid_row (n : Fin 20000) (j : Fin 128) :
    rHid (ix2 n j)
      = (∑ d : Fin 256, Spec.ctxRow (fun k => rQ (ix2 n k)) (fun v' k => rM (ix3 n v' k)) (fun k d' => x12 (ix2 k d')) d * x13 (ix2 d j))
          + x14 (ix1 j) := by
  rw [val_main_v80_apply, dense1_row, bias1_row]
  rfl

/-- z · (1 / (1 + e^(-z))) with the literal ones as f32 words is silu z. -/
theorem silu_words (z : EReal) :
    z * Ideal.div (Ideal.ofBits .f32 0x3F800000#32) (Ideal.ofBits .f32 0x3F800000#32 + Ideal.exp (-z)) = Spec.silu z := by
  rw [Ideal.ofBits_one_f32]
  rfl

/-- The activated hidden layer. -/
theorem act_row (i : S20000x128.Idx) : rAct i = Spec.silu (rHid i) := by
  rw [val_main_v81_apply, val_main_call1_v5_apply, val_main_call1_v4_apply, val_main_call1_v3_apply, val_main_call1_v2_apply,
    val_main_call1_v1_apply, val_main_call1_v0_apply]
  exact silu_words _

/-- The activated hidden layer through the second matrix. -/
theorem dense2_row (n : Fin 20000) (c : Fin 384) :
    rDense2 (ix2 n c)
      = ∑ j : Fin 128, Spec.silu ((∑ d : Fin 256, Spec.ctxRow (fun k => rQ (ix2 n k)) (fun v' k => rM (ix3 n v' k)) (fun k d' => x12 (ix2 k d')) d
          * x13 (ix2 d j)) + x14 (ix1 j)) * x15 (ix2 j c) := by
  rw [val_main_v82_apply]
  refine Finset.sum_congr rfl fun j _ => ?_
  rw [show lidx_main_v82 (ix2 n c) j = ix2 n j from funext fun a => by
        match a with
        | ⟨0, _⟩ => rfl
        | ⟨1, _⟩ => rfl,
      show ridx_main_v82 (ix2 n c) j = ix2 j c from funext fun a => by
        match a with
        | ⟨0, _⟩ => rfl
        | ⟨1, _⟩ => rfl,
      act_row, hid_row]

/-- y at node n, column c. -/
theorem y_row (n : Fin 20000) (c : Fin 384) :
    rY (ix2 n c)
      = Spec.yRow (fun k => rQ (ix2 n k)) (fun v' k => rM (ix3 n v' k)) (fun k d' => x12 (ix2 k d')) (fun d j => x13 (ix2 d j))
          (fun j => x14 (ix1 j)) (fun j c' => x15 (ix2 j c')) (fun c' => x16 (ix1 c')) c := by
  rw [val_main_v85_apply, dense2_row, bias2_row]
  rfl

/-- The three thirds of y. -/
theorem y0_row (n : Fin 20000) (c : Fin 128) :
    rY0 (ix2 n c)
      = Spec.yRow (fun k => rQ (ix2 n k)) (fun v' k => rM (ix3 n v' k)) (fun k d' => x12 (ix2 k d')) (fun d j => x13 (ix2 d j))
          (fun j => x14 (ix1 j)) (fun j c' => x15 (ix2 j c')) (fun c' => x16 (ix1 c')) (Spec.at0 c) := by
  rw [val_main_v86_apply,
    show idx_main_v86 (ix2 n c) = ix2 n (Spec.at0 c) from funext fun a => by
      match a with
      | ⟨0, _⟩ => rfl
      | ⟨1, _⟩ => rfl,
    y_row]

theorem y1_row (n : Fin 20000) (c : Fin 128) :
    rY1 (ix2 n c)
      = Spec.yRow (fun k => rQ (ix2 n k)) (fun v' k => rM (ix3 n v' k)) (fun k d' => x12 (ix2 k d')) (fun d j => x13 (ix2 d j))
          (fun j => x14 (ix1 j)) (fun j c' => x15 (ix2 j c')) (fun c' => x16 (ix1 c')) (Spec.at1 c) := by
  rw [val_main_v87_apply,
    show idx_main_v87 (ix2 n c) = ix2 n (Spec.at1 c) from funext fun a => by
      match a with
      | ⟨0, _⟩ => rfl
      | ⟨1, _⟩ => rfl,
    y_row]

theorem y2_row (n : Fin 20000) (c : Fin 128) :
    rY2 (ix2 n c)
      = Spec.yRow (fun k => rQ (ix2 n k)) (fun v' k => rM (ix3 n v' k)) (fun k d' => x12 (ix2 k d')) (fun d j => x13 (ix2 d j))
          (fun j => x14 (ix1 j)) (fun j c' => x15 (ix2 j c')) (fun c' => x16 (ix1 c')) (Spec.at2 c) := by
  rw [val_main_v88_apply,
    show idx_main_v88 (ix2 n c) = ix2 n (Spec.at2 c) from funext fun a => by
      match a with
      | ⟨0, _⟩ => rfl
      | ⟨1, _⟩ => rfl,
    y_row]

/-! ## The two results, row by row -/

theorem qout_row (n : Fin 20000) (c : Fin 128) :
    rQout (ix2 n c)
      = Spec.qoutRow (fun k => x0 (ix2 n k)) (fun k => val_main_v46 (F := Ideal) x0 x2 x3 x5 x6 x7 x8 x9 x10 x11 (ix2 n k))
          (fun v' k => x1 (ix3 n v' k)) (fun v' k => val_main_v65 (F := Ideal) x0 x1 x2 x3 x4 x5 x6 x7 x8 x9 x10 x11 (ix3 n v' k))
          (fun k d' => x12 (ix2 k d')) (fun d j => x13 (ix2 d j)) (fun j => x14 (ix1 j)) (fun j c' => x15 (ix2 j c'))
          (fun c' => x16 (ix1 c')) c := by
  rw [val_main_v93_apply, val_main_v89_apply, val_main_v92_apply, y0_row, y2_row, sumVW_row]
  rfl

theorem muout_row (n : Fin 20000) (v : Fin 3) (c : Fin 128) :
    rMuout (ix3 n v c)
      = Spec.muoutRow (fun k => x0 (ix2 n k)) (fun k => val_main_v46 (F := Ideal) x0 x2 x3 x5 x6 x7 x8 x9 x10 x11 (ix2 n k))
          (fun v' k => x1 (ix3 n v' k)) (fun v' k => val_main_v65 (F := Ideal) x0 x1 x2 x3 x4 x5 x6 x7 x8 x9 x10 x11 (ix3 n v' k))
          (fun k d' => x12 (ix2 k d')) (fun d j => x13 (ix2 d j)) (fun j => x14 (ix1 j)) (fun j c' => x15 (ix2 j c'))
          (fun c' => x16 (ix1 c')) v c := by
  rw [val_main_v97_apply, val_main_v96_apply, val_main_v95_apply, val_main_v94_apply,
    show idx_main_v94 (idx_main_v95 (ix3 n v c)) = ix2 n c from funext fun a => by
      match a with
      | ⟨0, _⟩ => rfl
      | ⟨1, _⟩ => rfl,
    y1_row, W_row]
  rfl

end Rows

theorem qout_ref (x0 : FVec Ideal Cert.KernelIdeal.S20000x128 .f32) (x1 : FVec Ideal Cert.KernelIdeal.S20000x3x128 .f32) (x2 : IVec Cert.KernelIdeal.S2x320000 32) (x3 : FVec Ideal Cert.KernelIdeal.S320000 .f32) (x4 : FVec Ideal Cert.KernelIdeal.S320000x3 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) (x12 : FVec Ideal Cert.KernelIdeal.S128x256 .f32) (x13 : FVec Ideal Cert.KernelIdeal.S256x128 .f32) (x14 : FVec Ideal Cert.KernelIdeal.S128 .f32) (x15 : FVec Ideal Cert.KernelIdeal.S128x384 .f32) (x16 : FVec Ideal Cert.KernelIdeal.S384 .f32) :
    val_main_v93 (F := Ideal) x0 x1 x2 x3 x4 x5 x6 x7 x8 x9 x10 x11 x12 x13 x14 x15 x16
      = Cert.Arr.qoutA x0 (val_main_v46 (F := Ideal) x0 x2 x3 x5 x6 x7 x8 x9 x10 x11) x1 (val_main_v65 (F := Ideal) x0 x1 x2 x3 x4 x5 x6 x7 x8 x9 x10 x11) x12 x13 x14 x15 x16 := by
  funext i
  refine (congrArg (val_main_v93 (F := Ideal) x0 x1 x2 x3 x4 x5 x6 x7 x8 x9 x10 x11 x12 x13 x14 x15 x16) (eq_ix2 i)).trans ?_
  exact qout_row x0 x1 x2 x3 x4 x5 x6 x7 x8 x9 x10 x11 x12 x13 x14 x15 x16 (i 0) (i 1)

theorem muout_ref (x0 : FVec Ideal Cert.KernelIdeal.S20000x128 .f32) (x1 : FVec Ideal Cert.KernelIdeal.S20000x3x128 .f32) (x2 : IVec Cert.KernelIdeal.S2x320000 32) (x3 : FVec Ideal Cert.KernelIdeal.S320000 .f32) (x4 : FVec Ideal Cert.KernelIdeal.S320000x3 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) (x12 : FVec Ideal Cert.KernelIdeal.S128x256 .f32) (x13 : FVec Ideal Cert.KernelIdeal.S256x128 .f32) (x14 : FVec Ideal Cert.KernelIdeal.S128 .f32) (x15 : FVec Ideal Cert.KernelIdeal.S128x384 .f32) (x16 : FVec Ideal Cert.KernelIdeal.S384 .f32) :
    val_main_v97 (F := Ideal) x0 x1 x2 x3 x4 x5 x6 x7 x8 x9 x10 x11 x12 x13 x14 x15 x16
      = Cert.Arr.muoutA x0 (val_main_v46 (F := Ideal) x0 x2 x3 x5 x6 x7 x8 x9 x10 x11) x1 (val_main_v65 (F := Ideal) x0 x1 x2 x3 x4 x5 x6 x7 x8 x9 x10 x11) x12 x13 x14 x15 x16 := by
  funext i
  refine (congrArg (val_main_v97 (F := Ideal) x0 x1 x2 x3 x4 x5 x6 x7 x8 x9 x10 x11 x12 x13 x14 x15 x16) (eq_ix3 i)).trans ?_
  exact muout_row x0 x1 x2 x3 x4 x5 x6 x7 x8 x9 x10 x11 x12 x13 x14 x15 x16 (i 0) (i 1) (i 2)

end Cert.RefSideC

end
-- ==== Proof.RefFinal.lean ====
/-
  The reference program's two results as the block's whole-array functions of its arguments: its stages composed, the gathers and segment sums matched operation for operation.
-/
import proofs.«417512_j54400055771905_1_alg».proof.Proof.Gen.ReferenceIdeal.Run
import proofs.«417512_j54400055771905_1_alg».proof.Proof.Gen.ReferenceIdeal.Read
import proofs.«417512_j54400055771905_1_alg».proof.Proof.Arr
import proofs.«417512_j54400055771905_1_alg».proof.Proof.Out
import proofs.«417512_j54400055771905_1_alg».proof.Proof.RefAB
import proofs.«417512_j54400055771905_1_alg».proof.Proof.RefC

set_option maxRecDepth 16384

noncomputable section

namespace Cert.RefFinal

open Cert.ReferenceIdeal.Read Idealize.ShloMosaic Idealize.ShloMosaic.TcCoe Idealize.SL.Sem

/-- The reference's segment sums are the block's: the same scatter-add of the same messages at the same receivers. -/
theorem dq_ref (x0 : FVec Ideal Cert.KernelIdeal.S20000x128 .f32) (x2 : IVec Cert.KernelIdeal.S2x320000 32) (x3 : FVec Ideal Cert.KernelIdeal.S320000 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) :
    val_main_v46 (F := Ideal) x0 x2 x3 x5 x6 x7 x8 x9 x10 x11 = Cert.Arr.dqAll x0 x2 x3 x5 x6 x7 x8 x9 x10 x11 := by
  unfold val_main_v46 Cert.Arr.dqAll Cert.Arr.dqA Cert.Arr.xjA
  rw [Cert.RefSide.dqe_ref, Cert.RefSide.idxi_ref]
  unfold val_main_v39
  rw [Cert.RefSide.x_ref, Cert.RefSide.idxj_ref]
  rfl

theorem dmu_ref (x0 : FVec Ideal Cert.KernelIdeal.S20000x128 .f32) (x1 : FVec Ideal Cert.KernelIdeal.S20000x3x128 .f32) (x2 : IVec Cert.KernelIdeal.S2x320000 32) (x3 : FVec Ideal Cert.KernelIdeal.S320000 .f32) (x4 : FVec Ideal Cert.KernelIdeal.S320000x3 .f32) (x5 : FVec Ideal Cert.KernelIdeal.S320000x20 .f32) (x6 : FVec Ideal Cert.KernelIdeal.S20x384 .f32) (x7 : FVec Ideal Cert.KernelIdeal.S384 .f32) (x8 : FVec Ideal Cert.KernelIdeal.S128x128 .f32) (x9 : FVec Ideal Cert.KernelIdeal.S128 .f32) (x10 : FVec Ideal Cert.KernelIdeal.S128x384 .f32) (x11 : FVec Ideal Cert.KernelIdeal.S384 .f32) :
    val_main_v65 (F := Ideal) x0 x1 x2 x3 x4 x5 x6 x7 x8 x9 x10 x11 = Cert.Arr.dmuAll x0 x1 x2 x3 x4 x5 x6 x7 x8 x9 x10 x11 := by
  unfold val_main_v65 Cert.Arr.dmuAll Cert.Arr.dmuA Cert.Arr.xjA Cert.Arr.mujA
  rw [Cert.RefSide.dmue_ref, Cert.RefSide.idxi_ref']
  unfold val_main_v39 val_main_v53
  rw [Cert.RefSide.x_ref, Cert.RefSide.idxj_ref, Cert.RefSide.idxj_ref']
  rfl

variable (m : (ℓ : Loc Cert.ReferenceIdeal.nD Cert.ReferenceIdeal.τ Cert.ReferenceIdeal.sig) → Buf (Elt Ideal) ℓ)

theorem res0_ref (c : Dev Cert.ReferenceIdeal.nD) :
    (Cert.ReferenceIdeal.Value.res_main_v93 m c : Cert.KernelIdeal.S20000x128.Idx → EReal) = Cert.Arr.out0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  rw [val_main_v93_eq, Cert.RefSideC.qout_ref, dq_ref, dmu_ref]
  rfl

theorem res1_ref (c : Dev Cert.ReferenceIdeal.nD) :
    (Cert.ReferenceIdeal.Value.res_main_v97 m c : Cert.KernelIdeal.S20000x3x128.Idx → EReal) = Cert.Arr.out1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  rw [val_main_v97_eq, Cert.RefSideC.muout_ref, dq_ref, dmu_ref]
  rfl

end Cert.RefFinal

end
-- ==== Proof.lean ====
/-
  One PaiNN block: a Pallas program of three kernel regions (the node context net; the edge filter with its gated
  messages; the mixing) around two host gathers and two host segment sums, against the plain jnp reference.

  At the extended reals both programs compute, node by node and edge by edge, the same row formulas (Proof/Spec.lean);
  laid over whole arrays with the gathers and the segment sums kept as the host operations both apply (Proof/Arr.lean,
  Proof/Out.lean), the kernel's run ends with its two result arrays at those functions of the arguments
  (Proof/RunK.lean for the run, Proof/KFinal.lean for the values: each region's blocks cover its output array,
  Proof/CoverA–C.lean, each block is the row formula of the region's input rows, Proof/BodyA–Cmu.lean, and the host
  stretches hand each region its arrays, Proof/Glue.lean), and so does the reference's (Proof/RefAB.lean,
  Proof/RefC.lean, Proof/RefFinal.lean over its run).
  The one use of the precondition: the kernel's filled take returns its gather only where the sender index names a
  node, the reference's plain indexing clamps instead; the precondition's conjunct 0 ≤ idx_j < 20000
  (Proof/PreIdx.lean) makes the fill unreachable. No algebraic law beyond reordering finite sums is used, so
  finiteness of the float inputs is never opened.
-/
import proofs.«417512_j54400055771905_1_alg».proof.Defs
import proofs.«417512_j54400055771905_1_alg».proof.Proof.Gen.Kernel
import proofs.«417512_j54400055771905_1_alg».proof.Proof.Gen.Kernel.Frame
import proofs.«417512_j54400055771905_1_alg».proof.Proof.Gen.KernelIdeal
import proofs.«417512_j54400055771905_1_alg».proof.Proof.Gen.KernelIdeal.Frame
import proofs.«417512_j54400055771905_1_alg».proof.Proof.Gen.ReferenceIdeal
import proofs.«417512_j54400055771905_1_alg».proof.Proof.Gen.ReferenceIdeal.Run
import proofs.«417512_j54400055771905_1_alg».proof.Proof.Gen.Pre_finite_inputs
import proofs.«417512_j54400055771905_1_alg».proof.Proof.RunK
import proofs.«417512_j54400055771905_1_alg».proof.Proof.KFinal
import proofs.«417512_j54400055771905_1_alg».proof.Proof.PreIdx
import proofs.«417512_j54400055771905_1_alg».proof.Proof.RefFinal
import Idealize.ShloMosaic.Adequacy
import Idealize.ShloMosaic.Init

set_option maxRecDepth 16384

noncomputable section

namespace Cert.Proof

open Idealize.ShloMosaic Idealize.ShloMosaic.TcCoe Idealize.SL.Sem

/-- The three programs run: the kernel's two instances by the generated frame, the reference by its generated run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The reference's results at arguments that agree with given arrays: the arrays substituted for its own. -/
theorem ref0_at (m' : (ℓ : Loc Cert.ReferenceIdeal.nD Cert.ReferenceIdeal.τ Cert.ReferenceIdeal.sig) → Buf (Elt Ideal) ℓ)
    (c : Dev Cert.ReferenceIdeal.nD) (b0 : FVec Ideal Cert.KernelIdeal.S20000x128 .f32) (b1 : FVec Ideal Cert.KernelIdeal.S20000x3x128 .f32) (b2 : IVec Cert.KernelIdeal.S2x320000 32) (b3 : FVec Ideal Cert.KernelIdeal.S320000 .f32) (b4 : FVec Ideal Cert.KernelIdeal.S320000x3 .f32) (b5 : FVec Ideal Cert.KernelIdeal.S320000x20 .f32) (b6 : FVec Ideal Cert.KernelIdeal.S20x384 .f32) (b7 : FVec Ideal Cert.KernelIdeal.S384 .f32) (b8 : FVec Ideal Cert.KernelIdeal.S128x128 .f32) (b9 : FVec Ideal Cert.KernelIdeal.S128 .f32) (b10 : FVec Ideal Cert.KernelIdeal.S128x384 .f32) (b11 : FVec Ideal Cert.KernelIdeal.S384 .f32) (b12 : FVec Ideal Cert.KernelIdeal.S128x256 .f32) (b13 : FVec Ideal Cert.KernelIdeal.S256x128 .f32) (b14 : FVec Ideal Cert.KernelIdeal.S128 .f32) (b15 : FVec Ideal Cert.KernelIdeal.S128x384 .f32) (b16 : FVec Ideal Cert.KernelIdeal.S384 .f32)
    (h0 : m' ((c.tc : Thread Cert.ReferenceIdeal.nD Cert.ReferenceIdeal.τ).loc Cert.ReferenceIdeal.main_arg0) = b0)
    (h1 : m' ((c.tc : Thread Cert.ReferenceIdeal.nD Cert.ReferenceIdeal.τ).loc Cert.ReferenceIdeal.main_arg1) = b1)
    (h2 : m' ((c.tc : Thread Cert.ReferenceIdeal.nD Cert.ReferenceIdeal.τ).loc Cert.ReferenceIdeal.main_arg2) = b2)
    (h3 : m' ((c.tc : Thread Cert.ReferenceIdeal.nD Cert.ReferenceIdeal.τ).loc Cert.ReferenceIdeal.main_arg3) = b3)
    (h4 : m' ((c.tc : Thread Cert.ReferenceIdeal.nD Cert.ReferenceIdeal.τ).loc Cert.ReferenceIdeal.main_arg4) = b4)
    (h5 : m' ((c.tc : Thread Cert.ReferenceIdeal.nD Cert.ReferenceIdeal.τ).loc Cert.ReferenceIdeal.main_arg5) = b5)
    (h6 : m' ((c.tc : Thread Cert.ReferenceIdeal.nD Cert.ReferenceIdeal.τ).loc Cert.ReferenceIdeal.main_arg6) = b6)
    (h7 : m' ((c.tc : Thread Cert.ReferenceIdeal.nD Cert.ReferenceIdeal.τ).loc Cert.ReferenceIdeal.main_arg7) = b7)
    (h8 : m' ((c.tc : Thread Cert.ReferenceIdeal.nD Cert.ReferenceIdeal.τ).loc Cert.ReferenceIdeal.main_arg8) = b8)
    (h9 : m' ((c.tc : Thread Cert.ReferenceIdeal.nD Cert.ReferenceIdeal.τ).loc Cert.ReferenceIdeal.main_arg9) = b9)
    (h10 : m' ((c.tc : Thread Cert.ReferenceIdeal.nD Cert.ReferenceIdeal.τ).loc Cert.ReferenceIdeal.main_arg10) = b10)
    (h11 : m' ((c.tc : Thread Cert.ReferenceIdeal.nD Cert.ReferenceIdeal.τ).loc Cert.ReferenceIdeal.main_arg11) = b11)
    (h12 : m' ((c.tc : Thread Cert.ReferenceIdeal.nD Cert.ReferenceIdeal.τ).loc Cert.ReferenceIdeal.main_arg12) = b12)
    (h13 : m' ((c.tc : Thread Cert.ReferenceIdeal.nD Cert.ReferenceIdeal.τ).loc Cert.ReferenceIdeal.main_arg13) = b13)
    (h14 : m' ((c.tc : Thread Cert.ReferenceIdeal.nD Cert.ReferenceIdeal.τ).loc Cert.ReferenceIdeal.main_arg14) = b14)
    (h15 : m' ((c.tc : Thread Cert.ReferenceIdeal.nD Cert.ReferenceIdeal.τ).loc Cert.ReferenceIdeal.main_arg15) = b15)
    (h16 : m' ((c.tc : Thread Cert.ReferenceIdeal.nD Cert.ReferenceIdeal.τ).loc Cert.ReferenceIdeal.main_arg16) = b16) :
    (Cert.ReferenceIdeal.Value.res_main_v93 m' c : Cert.KernelIdeal.S20000x128.Idx → EReal) = Cert.Arr.out0 b0 b1 b2 b3 b4 b5 b6 b7 b8 b9 b10 b11 b12 b13 b14 b15 b16 := by
  subst h0 h1 h2 h3 h4 h5 h6 h7 h8 h9 h10 h11 h12 h13 h14 h15 h16
  exact Cert.RefFinal.res0_ref m' c
theorem ref1_at (m' : (ℓ : Loc Cert.ReferenceIdeal.nD Cert.ReferenceIdeal.τ Cert.ReferenceIdeal.sig) → Buf (Elt Ideal) ℓ)
    (c : Dev Cert.ReferenceIdeal.nD) (b0 : FVec Ideal Cert.KernelIdeal.S20000x128 .f32) (b1 : FVec Ideal Cert.KernelIdeal.S20000x3x128 .f32) (b2 : IVec Cert.KernelIdeal.S2x320000 32) (b3 : FVec Ideal Cert.KernelIdeal.S320000 .f32) (b4 : FVec Ideal Cert.KernelIdeal.S320000x3 .f32) (b5 : FVec Ideal Cert.KernelIdeal.S320000x20 .f32) (b6 : FVec Ideal Cert.KernelIdeal.S20x384 .f32) (b7 : FVec Ideal Cert.KernelIdeal.S384 .f32) (b8 : FVec Ideal Cert.KernelIdeal.S128x128 .f32) (b9 : FVec Ideal Cert.KernelIdeal.S128 .f32) (b10 : FVec Ideal Cert.KernelIdeal.S128x384 .f32) (b11 : FVec Ideal Cert.KernelIdeal.S384 .f32) (b12 : FVec Ideal Cert.KernelIdeal.S128x256 .f32) (b13 : FVec Ideal Cert.KernelIdeal.S256x128 .f32) (b14 : FVec Ideal Cert.KernelIdeal.S128 .f32) (b15 : FVec Ideal Cert.KernelIdeal.S128x384 .f32) (b16 : FVec Ideal Cert.KernelIdeal.S384 .f32)
    (h0 : m' ((c.tc : Thread Cert.ReferenceIdeal.nD Cert.ReferenceIdeal.τ).loc Cert.ReferenceIdeal.main_arg0) = b0)
    (h1 : m' ((c.tc : Thread Cert.ReferenceIdeal.nD Cert.ReferenceIdeal.τ).loc Cert.ReferenceIdeal.main_arg1) = b1)
    (h2 : m' ((c.tc : Thread Cert.ReferenceIdeal.nD Cert.ReferenceIdeal.τ).loc Cert.ReferenceIdeal.main_arg2) = b2)
    (h3 : m' ((c.tc : Thread Cert.ReferenceIdeal.nD Cert.ReferenceIdeal.τ).loc Cert.ReferenceIdeal.main_arg3) = b3)
    (h4 : m' ((c.tc : Thread Cert.ReferenceIdeal.nD Cert.ReferenceIdeal.τ).loc Cert.ReferenceIdeal.main_arg4) = b4)
    (h5 : m' ((c.tc : Thread Cert.ReferenceIdeal.nD Cert.ReferenceIdeal.τ).loc Cert.ReferenceIdeal.main_arg5) = b5)
    (h6 : m' ((c.tc : Thread Cert.ReferenceIdeal.nD Cert.ReferenceIdeal.τ).loc Cert.ReferenceIdeal.main_arg6) = b6)
    (h7 : m' ((c.tc : Thread Cert.ReferenceIdeal.nD Cert.ReferenceIdeal.τ).loc Cert.ReferenceIdeal.main_arg7) = b7)
    (h8 : m' ((c.tc : Thread Cert.ReferenceIdeal.nD Cert.ReferenceIdeal.τ).loc Cert.ReferenceIdeal.main_arg8) = b8)
    (h9 : m' ((c.tc : Thread Cert.ReferenceIdeal.nD Cert.ReferenceIdeal.τ).loc Cert.ReferenceIdeal.main_arg9) = b9)
    (h10 : m' ((c.tc : Thread Cert.ReferenceIdeal.nD Cert.ReferenceIdeal.τ).loc Cert.ReferenceIdeal.main_arg10) = b10)
    (h11 : m' ((c.tc : Thread Cert.ReferenceIdeal.nD Cert.ReferenceIdeal.τ).loc Cert.ReferenceIdeal.main_arg11) = b11)
    (h12 : m' ((c.tc : Thread Cert.ReferenceIdeal.nD Cert.ReferenceIdeal.τ).loc Cert.ReferenceIdeal.main_arg12) = b12)
    (h13 : m' ((c.tc : Thread Cert.ReferenceIdeal.nD Cert.ReferenceIdeal.τ).loc Cert.ReferenceIdeal.main_arg13) = b13)
    (h14 : m' ((c.tc : Thread Cert.ReferenceIdeal.nD Cert.ReferenceIdeal.τ).loc Cert.ReferenceIdeal.main_arg14) = b14)
    (h15 : m' ((c.tc : Thread Cert.ReferenceIdeal.nD Cert.ReferenceIdeal.τ).loc Cert.ReferenceIdeal.main_arg15) = b15)
    (h16 : m' ((c.tc : Thread Cert.ReferenceIdeal.nD Cert.ReferenceIdeal.τ).loc Cert.ReferenceIdeal.main_arg16) = b16) :
    (Cert.ReferenceIdeal.Value.res_main_v97 m' c : Cert.KernelIdeal.S20000x3x128.Idx → EReal) = Cert.Arr.out1 b0 b1 b2 b3 b4 b5 b6 b7 b8 b9 b10 b11 b12 b13 b14 b15 b16 := by
  subst h0 h1 h2 h3 h4 h5 h6 h7 h8 h9 h10 h11 h12 h13 h14 h15 h16
  exact Cert.RefFinal.res1_ref m' c

/-- Both runs end with their results at the block's two functions of the arguments, which agree. -/
theorem algebraic : Cert.algebraic_KernelIdeal_ReferenceIdeal := by
  intro m ρ m' ρ' hpre hagree
  have hin : ∀ c : Dev Cert.KernelIdeal.nD, Cert.Arr.InRange (m ((c.tc : Thread Cert.KernelIdeal.nD Cert.KernelIdeal.τ).loc Cert.KernelIdeal.main_arg2)) :=
    fun c => Cert.PreIdx.inRange_of_pre _ _ _ _ _ _ _ _ _ _ _ _ _ _ _ _ _ (hpre c)
  refine ⟨fun c => Cert.Arr.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), fun c => Cert.Arr.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KFinal.res0 m ρ c (hin c)),
        (h c).2.1.trans (Cert.KernelIdeal.KFinal.res1 m ρ c (hin c)), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · exact ref0_at m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2
    · exact ref1_at m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
